-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_cst_7 : FVec F S_ .f32 := constant S_ .f32 0x40000000#32
  let main_v25 : FVec F S8192x8192 .f32 := broadcastInDim S8192x8192 ![] bcast_S_S8192x8192 main_cst_7
  let main_v26 : FVec F S8192x8192 .f32 := mulf main_v25 main_v24
  let main_v27 : FVec F S8192x8192 .f32 := addf main_arg1 main_v26
  let main_cst_8 : FVec F S_ .f32 := constant S_ .f32 0x00000000#32
  let main_v28 : FVec F S8192 .f32 := (fun x v => Host.reduceAdd x v reducesTo_S8192x8192_S8192_d1 h_S_) main_v27 main_cst_8
  let main_cst_9 : FVec F S_ .f32 := constant S_ .f32 0x00000000#32
  let main_v29 : FVec F S8192 .f32 := broadcastInDim S8192 ![] bcast_S_S8192 main_cst_9
  let main_v30 : IVec S8192 1 := cmpf .ogt main_v28 main_v29
  let main_c_10 : IVec S_ 1 := constantI S_ 1 1#1
  let main_v31 : IVec S_ 1 := (fun x v => Host.reduce IntOp.andi x v reducesTo_S8192_S_d0 h_S_) main_v30 main_c_10
  let main_v32 : IVec S_ 1 := andi main_v18 main_v31
  main_v32

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S1x256 : Shape := ⟨2, ![1, 256]⟩
abbrev S1024x1024 : Shape := ⟨2, ![1024, 1024]⟩
abbrev S1024x256 : Shape := ⟨2, ![1024, 256]⟩

abbrev nBuf : Space → Nat
  | .hbm => 10
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S8192x256, .f32⟩
  | .hbm, ⟨6, _⟩ => ⟨S8192x256, .f32⟩
  | .hbm, ⟨7, _⟩ => ⟨S256x256, .f32⟩
  | .hbm, ⟨8, _⟩ => ⟨S1x256, .f32⟩
  | .hbm, ⟨9, _⟩ => ⟨S8192x256, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1024, .f32⟩
  | .local _ .vmem, ⟨6, _⟩ => ⟨S1024x1024, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x1, .f32⟩
  | .local _ .vmem, ⟨12, _⟩ => ⟨S1024x1, .f32⟩
  | .local _ .vmem, ⟨13, _⟩ => ⟨S256x256, .f32⟩
  | .local _ .vmem, ⟨14, _⟩ => ⟨S1x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  bcast_S8192x1_S8192x256_0_1 : S8192x1.BroadcastsInDim S8192x256 (![0, 1] : Fin 2 → Fin S8192x256.rank)
  transposes_S256x256_S256x256_1_0 : S256x256.Transposes [1, 0] S256x256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S8192x256.size a
  hwx1_6 : ∀ i : grid1.Coords, EltTy.bits .f32 = 32 ∨ (Rect.block (s := S8192x256) S1024x256.size (cc1_transform_6 i) (hinb1_6 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x256 : Shape := ⟨2, ![1, 256]⟩

abbrev nBuf : Space → Nat
  | .hbm => 33
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x256, .f32⟩
  | .hbm, ⟨25, _⟩ => ⟨S256x256, .f32⟩
  | .hbm, ⟨26, _⟩ => ⟨S8192x256, .f32⟩
  | .hbm, ⟨27, _⟩ => ⟨S1x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_cst : Ref sig .tc := ⟨.hbm, 30, rfl⟩
abbrev main_call0_v0 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.K.R0Defs.lean ====
/-
  Region 0 (the degree kernel, grid 8 × 4, point t = 4·i + j): the definitions every later module is stated over.
  Rows 1024·i … 1024·i+1023 of the adjacency matrix are read in four column blocks of 2048; the scratch
  column holds the running row sums (reset to zero at j = 0, then one block's lane sums added per point);
  at j = 3 the output block is rsqrt (row sum + 2).
-/
import proofs.«108451_j9534827397796_1_alg».proof.Proof.Gen.Kernel.Launch
import proofs.«108451_j9534827397796_1_alg».proof.Proof.Gen.Kernel.Skeleton
import proofs.«108451_j9534827397796_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The buffers' contents when a region is entered: the parameter each region's half is stated at.
variable (V : (c : Dev nD) → (b : Ref sig .tc) → Buf (Elt F) ((c : Thread nD τ).loc b))

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch column after the body at position `n`: the lane sums of the point's block added to zero
    (at the first column block of a row block, n ≡ 0 mod 4) or to what the point before left. -/
def acc0 (c : Dev nD) : (n : ℕ) → n < cfg0.N → Vec F S1024x1 .f32
  | 0, hn => k0_pay2 (k0_pay1 (F := F)) (iblk0 V c 0 ⟨0, hn⟩)
  | n + 1, hn => k0_pay2 (if (n + 1) % 4 = 0 then k0_pay1 (F := F) else acc0 c n (Nat.lt_of_succ_lt hn)) (iblk0 V c 0 ⟨n + 1, hn⟩)

/-- What the body stores into the output block at the last column block of a row block (elsewhere the
    window is idle and this term is consulted by nothing): rsqrt of the finished row sums plus two. -/
def out0 (c : Dev nD) (t : Fin cfg0.N) : Vec F S1024x1 .f32 := k0_pay3 (acc0 V c t.val t.isLt)

/-- The scratch of region 0 as a whole memref. -/
abbrev scM0 : Memref sig .tc .vmem S1024x1 .f32 := Memref.whole cc0_scratch0

/-- A scoped buffer whole at some contents. -/
abbrev exBuf (c : Dev nD) (b : Ref sig .tc) : sProp 𝕄 :=
  iprop(∃ f : Buf (Elt F) ((c : Thread nD τ).loc b), ((c : Thread nD τ).loc b) ↦{fullShare} f)

/-- The scoped buffers region 0 neither stages nor carries: the other region's staging buffers and scratch. -/
def rest0 (c : Dev nD) : sProp 𝕄 :=
  iprop(exBuf (F := F) c cc1_stg0_0 ∗ exBuf (F := F) c cc1_stg0_1 ∗ exBuf (F := F) c cc1_stg1_0 ∗ exBuf (F := F) c cc1_stg1_1 ∗ exBuf (F := F) c cc1_stg2_0 ∗ exBuf (F := F) c cc1_stg2_1 ∗ exBuf (F := F) c cc1_stg3_0 ∗ exBuf (F := F) c cc1_stg3_1 ∗ exBuf (F := F) c cc1_stg4_0 ∗ exBuf (F := F) c cc1_stg5_0 ∗ exBuf (F := F) c cc1_stg6_0 ∗ exBuf (F := F) c cc1_stg6_1 ∗ exBuf (F := F) c cc1_scratch0)

/-- The region invariant before position `n`: before the first point every scoped buffer at anything;
    afterwards the scratch at the running row sums, the other scoped buffers at anything, the generator
    register at some state. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0 V c t := by dsimp only [dat0]

end Cert.Kernel.Hand

end
-- ==== Proof.K.R0Body.lean ====
/-
  Region 0's body obligation: at every grid point the degree kernel's body, handed the column block of the
  adjacency matrix in its staging buffer and the scratch column at the running row sums, runs to the scratch
  at the next running sums and — at the last column block of a row block — the output's staging buffer at
  rsqrt (row sum + 2); and the region invariant's two ends.
-/
import proofs.«108451_j9534827397796_1_alg».proof.Proof.K.R0Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace R0Body

/-! ## The two conditions of the body, in closed form over the grid -/

/-- The first conditional's test (the column-block coordinate is zero), from the grid coordinates. -/
abbrev cnd0 (i : grid0.Coords) : Prop := (Scalar.cmpi .ne (Scalar.extui (Scalar.cmpi .eq (BitVec.ofNat 32 (i 1).val) 0#32)) 0#32) = 1#1
/-- It holds exactly at the points t ≡ 0 (mod 4). -/
theorem hcnd0 : ∀ t : Fin cfg0.N, cnd0 (grid0.coords t) ↔ t.val % 4 = 0 :=
  (by decide +kernel : ∀ t : Fin grid0.N, cnd0 (grid0.coords t) ↔ t.val % 4 = 0)
/-- The second conditional's test (the column-block coordinate is three). -/
abbrev cnd1 (i : grid0.Coords) : Prop := k0_cond2 i = 1#1
/-- It holds exactly at the points t ≡ 3 (mod 4). -/
theorem hcnd1 : ∀ t : Fin cfg0.N, cnd1 (grid0.coords t) ↔ t.val % 4 = 3 :=
  (by decide +kernel : ∀ t : Fin grid0.N, cnd1 (grid0.coords t) ↔ t.val % 4 = 3)

/-- The input window is idle nowhere. -/
theorem live0_0 : ∀ t : Fin cfg0.N, cfg0.idle 0 (grid0.coords t) = false := by decide +kernel
/-- The output window is idle exactly off the points t ≡ 3 (mod 4). -/
theorem idle0_1 : ∀ t : Fin cfg0.N, ¬ t.val % 4 = 3 → cfg0.idle 1 (grid0.coords t) = true :=
  (by decide +kernel : ∀ t : Fin grid0.N, ¬ t.val % 4 = 3 → cfg0.idle 1 (grid0.coords t) = true)
theorem live0_1 : ∀ t : Fin cfg0.N, t.val % 4 = 3 → cfg0.idle 1 (grid0.coords t) = false :=
  (by decide +kernel : ∀ t : Fin grid0.N, t.val % 4 = 3 → cfg0.idle 1 (grid0.coords t) = false)
/-- Off those points its block is not written back. -/
theorem noflush0_1 (t : Fin cfg0.N) (h : ¬ t.val % 4 = 3) : (cfg0.win 1).flush t = false := by
  rcases hb : (cfg0.win 1).flush t with _ | _
  · rfl
  · exact absurd ((flush0_1 t).mp hb) h

/-! ## Whole-buffer loads and stores -/

private theorem zero2 : (![0, 0] : Fin 2 → ℕ) = fun _ => 0 := by
  funext a; fin_cases a <;> rfl

/-- A load through the whole-shape rectangle reads the contents. -/
private theorem readAt_all {κ : Kind} {sp : Space} {S : Shape} {e : EltTy} (v : View sig κ sp S e) {off : Fin S.rank → ℕ}
    (h : off = fun _ => 0) (inb : ∀ a, off a + S.size a ≤ S.size a) (f : v.ty.Contents (Elt F)) :
    v.readAt (Elt F) (Rect.unit off S.size inb).toLoadRect f = v.read (Elt F) f := by
  rw [show v.readAt (Elt F) (Rect.unit off S.size inb).toLoadRect f = View.ld (v.read (Elt F) f) (Rect.unit off S.size inb) from rfl,
    View.ld_unit_zero h]

/-- A store through the whole-shape rectangle, last, leaves its payload. -/
private theorem read_writes_all {κ : Kind} {sp : Space} {S : Shape} {e : EltTy} (v : View sig κ sp S e) {off : Fin S.rank → ℕ}
    (h : off = fun _ => 0) (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The body's three runs, on any whole memrefs -/

set_option maxHeartbeats 1000000 in
/-- First column block of a row block: the scratch is zeroed, then the block's lane sums are added. The output's
    buffer is not touched. -/
theorem runA (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cnd0 i) (hc1 : ¬cnd1 i)
    (x0 : Vec F S1024x2048 .f32) (xs0 : Vec F S1024x1 .f32) (E : Set ℕ) (K : PUnit → sProp 𝕄) :
    iprop(owns (c : Thread nD τ) arg2 fullShare x0 ∗ owns (c : Thread nD τ) arg4 fullShare xs0
            ∗ (iprop(owns (c : Thread nD τ) arg2 fullShare x0 ∗ owns (c : Thread nD τ) arg4 fullShare (k0_pay2 (k0_pay1 (F := F)) x0)) -∗ K ⟨⟩))
          ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact hf0
    iexact H0
  iexists _; isplitr
  swap; · iexact HS0
  ipureintro
  sl_unfold_run_names
  rw [read_writes_all _ zero2, View.readCov_unit_zero _ zero2, readAt_all _ zero2, hf0]

set_option maxHeartbeats 1000000 in
/-- A middle column block: the block's lane sums are added to the scratch as found. -/
theorem runB (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cnd0 i) (hc1 : ¬cnd1 i)
    (x0 : Vec F S1024x2048 .f32) (xs0 : Vec F S1024x1 .f32) (E : Set ℕ) (K : PUnit → sProp 𝕄) :
    iprop(owns (c : Thread nD τ) arg2 fullShare x0 ∗ owns (c : Thread nD τ) arg4 fullShare xs0
            ∗ (iprop(owns (c : Thread nD τ) arg2 fullShare x0 ∗ owns (c : Thread nD τ) arg4 fullShare (k0_pay2 xs0 x0)) -∗ K ⟨⟩))
          ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact hf0
    iexact H0
  iexists _; isplitr
  swap; · iexact HS0
  ipureintro
  sl_unfold_run_names
  rw [read_writes_all _ zero2, readAt_all _ zero2, readAt_all _ zero2, hfs0, hf0]

set_option maxHeartbeats 1000000 in
/-- Last column block of a row block: the block's lane sums are added to the scratch as found, and the output's
    buffer is stored whole at rsqrt (scratch + 2). -/
theorem runC (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cnd0 i) (hc1 : cnd1 i)
    (x0 : Vec F S1024x2048 .f32) (xs0 : Vec F S1024x1 .f32) (xi1 : Vec F S1024x1 .f32) (E : Set ℕ) (K : PUnit → sProp 𝕄) :
    iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare (k0_pay3 (k0_pay2 xs0 x0)) ∗ owns (c : Thread nD τ) arg4 fullShare (k0_pay2 xs0 x0)) -∗ K ⟨⟩))
          ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact hf0
    iexact H0
  isplitl [H1]
  · iexists _; isplitr
    swap; · iexact H1
    ipureintro
    sl_unfold_run_names
    rw [read_writes_all _ zero2, View.readCov_unit_zero _ zero2, readAt_all _ zero2, readAt_all _ zero2, hfs0, hf0]
  iexists _; isplitr
  swap; · iexact HS0
  ipureintro
  sl_unfold_run_names
  rw [read_writes_all _ zero2, readAt_all _ zero2, readAt_all _ zero2, hfs0, hf0]

/-! ## The running row sums, case by case -/

/-- At the first column block of a row block the sums start from zero. -/
theorem acc0_first (c : Dev nD) (t : Fin cfg0.N) (h0 : t.val % 4 = 0) :
    acc0 V c t.val t.isLt = k0_pay2 (k0_pay1 (F := F)) (iblk0 V c 0 t) := by
  obtain ⟨n, hn⟩ := t
  cases n with
  | zero => rfl
  | succ n => exact (show k0_pay2 (if (n + 1) % 4 = 0 then k0_pay1 (F := F) else acc0 V c n (Nat.lt_of_succ_lt hn)) (iblk0 V c 0 ⟨n + 1, hn⟩) = _ from by rw [if_pos h0])

/-- At every other column block they continue from the point before. -/
theorem acc0_next (c : Dev nD) (t : Fin cfg0.N) (h0 : ¬ t.val % 4 = 0) :
    acc0 V c t.val t.isLt = k0_pay2 (acc0 V c (t.val - 1) (Nat.lt_of_le_of_lt (Nat.sub_le _ _) t.isLt)) (iblk0 V c 0 t) := by
  obtain ⟨n, hn⟩ := t
  cases n with
  | zero => exact absurd (Nat.zero_mod _) h0
  | succ n => exact (show k0_pay2 (if (n + 1) % 4 = 0 then k0_pay1 (F := F) else acc0 V c n (Nat.lt_of_succ_lt hn)) (iblk0 V c 0 ⟨n + 1, hn⟩) = _ from by rw [if_neg h0]; rfl)

/-! ## The invariant, position by position -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 (F := F) c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The class's invariant with the scratch column apart, as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-- The input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The body obligation at a generic point -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .f32 := win0_1.stage (cfg0.slots t 1)
abbrev hs1 (t : Fin cfg0.N) : (ms1 t).IsWhole := hstage0_1 ((cfg0.slots t 1).cast nbuf0_1)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's buffer holds its block; the point's residue mod 4 says which of the three
    runs applies; the invariant hands the body the scratch at the running sums (at anything before the first
    point) and takes it back at the next sums; where the output's window is idle its buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0 t) fullShare ((dat0 V c).after 0 t) from by
    unfold Dat.leavesExact; rw [live0_0 t], after0_0]
  rw [PhiS0_castSucc V c t]
  by_cases h3 : t.val % 4 = 3
  · have h0 : ¬ t.val % 4 = 0 := by omega
    have hz : t.val ≠ 0 := by omega
    rw [show (dat0 V c).leavesExact 1 t = owns (c : Thread nD τ) (ms1 t) fullShare ((dat0 V c).after 1 t) from by
      unfold Dat.leavesExact; rw [live0_1 t h3], after0_1]
    unfold out0
    rw [acc0_next V c t h0, PhiS0_pos V c _ _ hz]
    iintro ⟨⟨HS, Hr, Hg⟩, Ho, ⟨%d0, H0⟩, ⟨%d1, H1⟩⟩
    iapply (runC c (grid0.coords t) _ _ _ _ _ _ (fun h => h0 ((hcnd0 t).mp h)) ((hcnd1 t).mpr h3) (iblk0 V c 0 t) _ _ Set.univ _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    iexact H1
  · rw [Dat.leavesExact_idle (dat0 V c) 1 t (idle0_1 t h3) (noflush0_1 t h3)]
    by_cases h0 : t.val % 4 = 0
    · rw [acc0_first V c t h0]
      by_cases hz : t.val = 0
      · rw [PhiS0_zero V c _ _ hz, PhiA0_eq]
        iintro ⟨⟨⟨⟨%ds, HS⟩, Hr⟩, Hg⟩, Ho, ⟨%d0, H0⟩, H1⟩
        iapply (runA c (grid0.coords t) _ _ (ms1 t) (hs1 t) _ _ ((hcnd0 t).mpr h0) (fun h => h3 ((hcnd1 t).mp h)) (iblk0 V c 0 t) ds Set.univ _)
        isplitl [H0]; · iexact H0
        isplitl [HS]; · iexact HS
        iintro ⟨H0, HS⟩
        isplitl [HS Hr Hg]
        · isplitl [HS]; · iexact HS
          isplitl [Hr]; · iexact Hr
          iexact Hg
        isplitl [Ho]; · iexact Ho
        isplitl [H0]; · iexact H0
        iexact H1
      · rw [PhiS0_pos V c _ _ hz]
        iintro ⟨⟨HS, Hr, Hg⟩, Ho, ⟨%d0, H0⟩, H1⟩
        iapply (runA c (grid0.coords t) _ _ (ms1 t) (hs1 t) _ _ ((hcnd0 t).mpr h0) (fun h => h3 ((hcnd1 t).mp h)) (iblk0 V c 0 t) _ Set.univ _)
        isplitl [H0]; · iexact H0
        isplitl [HS]; · iexact HS
        iintro ⟨H0, HS⟩
        isplitl [HS Hr Hg]
        · isplitl [HS]; · iexact HS
          isplitl [Hr]; · iexact Hr
          iexact Hg
        isplitl [Ho]; · iexact Ho
        isplitl [H0]; · iexact H0
        iexact H1
    · have hz : t.val ≠ 0 := fun e => h0 (by rw [e])
      rw [acc0_next V c t h0, PhiS0_pos V c _ _ hz]
      iintro ⟨⟨HS, Hr, Hg⟩, Ho, ⟨%d0, H0⟩, H1⟩
      iapply (runB c (grid0.coords t) _ _ (ms1 t) (hs1 t) _ _ (fun h => h0 ((hcnd0 t).mp h)) (fun h => h3 ((hcnd1 t).mp h)) (iblk0 V c 0 t) _ Set.univ _)
      isplitl [H0]; · iexact H0
      isplitl [HS]; · iexact HS
      iintro ⟨H0, HS⟩
      isplitl [HS Hr Hg]
      · isplitl [HS]; · iexact HS
        isplitl [Hr]; · iexact Hr
        iexact Hg
      isplitl [Ho]; · iexact Ho
      isplitl [H0]; · iexact H0
      iexact H1

end R0Body

open R0Body

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's: every scoped buffer at anything, the generator register. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨HS, Hr, Hg⟩
  isplitl [HS Hr]
  · isplitl [HS]; · iexists _; iexact HS
    iexact Hr
  iexact Hg

end Cert.Kernel.Hand

end
-- ==== Proof.K.R1Defs.lean ====
/-
  Region 1 (the aggregation kernel, grid 8 × 8, point t = 8·i + j): the definitions every later module is stated over.
  Row block i of the adjacency matrix meets row block j of the scaled features Y in a 1024 × 1024 by 1024 × 256
  product; the scratch block holds the running sum, started at j = 0 from twice row block i of Y; at j = 7
  the scratch is scaled row by row, multiplied by the transposed weights, the bias added and the result
  clamped at zero into the output block.
-/
import proofs.«108451_j9534827397796_1_alg».proof.Proof.K.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The buffers' contents when the region is entered.
variable (V : (c : Dev nD) → (b : Ref sig .tc) → Buf (Elt F) ((c : Thread nD τ).loc b))

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch block after the body at position `n`: the point's product added to twice the row block of Y
    (at the first column block of a row block, n ≡ 0 mod 8) or to what the point before left. -/
def acc1 (c : Dev nD) : (n : ℕ) → n < cfg1.N → Vec F S1024x256 .f32
  | 0, hn => k1_pay2 (iblk1 V c 0 ⟨0, hn⟩) (iblk1 V c 1 ⟨0, hn⟩) (k1_pay1 (iblk1 V c 2 ⟨0, hn⟩))
  | n + 1, hn => k1_pay2 (iblk1 V c 0 ⟨n + 1, hn⟩) (iblk1 V c 1 ⟨n + 1, hn⟩)
      (if (n + 1) % 8 = 0 then k1_pay1 (iblk1 V c 2 ⟨n + 1, hn⟩) else acc1 c n (Nat.lt_of_succ_lt hn))

/-- What the body stores into the output block at the last column block of a row block (elsewhere the
    window is idle and this term is consulted by nothing). -/
def out1 (c : Dev nD) (t : Fin cfg1.N) : Vec F S1024x256 .f32 :=
  k1_pay3 (acc1 V c t.val t.isLt) (iblk1 V c 3 t) (iblk1 V c 4 t) (iblk1 V c 5 t)

/-- The scratch of region 1 as a whole memref. -/
abbrev scM1 : Memref sig .tc .vmem S1024x256 .f32 := Memref.whole cc1_scratch0

/-- The scoped buffers region 1 neither stages nor carries: the other region's staging buffers and scratch. -/
def rest1 (c : Dev nD) : sProp 𝕄 :=
  iprop(exBuf (F := F) c cc0_stg0_0 ∗ exBuf (F := F) c cc0_stg0_1 ∗ exBuf (F := F) c cc0_stg1_0 ∗ exBuf (F := F) c cc0_stg1_1 ∗ exBuf (F := F) c cc0_scratch0)

/-- The region invariant before position `n`: before the first point every scoped buffer at anything;
    afterwards the scratch at the running sum, the other scoped buffers at anything, the generator
    register at some state. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

/-- Region 1's proof data on core `c`: the two windows on the scaled features' array hold it at the two halves
    of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]

end Cert.Kernel.Hand

end
-- ==== Proof.K.RunDefs.lean ====
/-
  The buffers' contents at each boundary of @main — launch, after region 0, after the host stretch (region 1's
  entry), after region 1 — and every pipeline's proof data at its region's entry contents.
-/
import proofs.«108451_j9534827397796_1_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch: region 0's entry (no host operation precedes it). -/
abbrev W0 (c : Dev nD) : Valuation τ sig (Elt F) := fun b => m (c, b)
/-- The same read at the TensorCore's references: what region 0's proof data take. -/
abbrev E0 : (c : Dev nD) → (b : Ref sig .tc) → Buf (Elt F) ((c : Thread nD τ).loc b) := fun c b => W0 m c b
/-- After region 0: its output array at what its write-backs leave, every other buffer as launched. -/
def W1 (c : Dev nD) : Valuation τ sig (Elt F) :=
  Function.update (W0 m c) main_v0 ((dat0 (E0 m) c).arrAt 1 cfg0.N)
/-- After the host stretch: region 1's entry. -/
abbrev W2 (c : Dev nD) : Valuation τ sig (Elt F) := StableHlo.after hostOps1 (W1 m c)
/-- The same read at the TensorCore's references: what region 1's proof data take. -/
abbrev E2 : (c : Dev nD) → (b : Ref sig .tc) → Buf (Elt F) ((c : Thread nD τ).loc b) := fun c b => W2 m c b
/-- After region 1: its output array at what its write-backs leave, every other buffer as entered. -/
def W3 (c : Dev nD) : Valuation τ sig (Elt F) :=
  Function.update (W2 m c) main_v5 ((dat1 (E2 m) c).arrAt 6 cfg1.N)

/-- The prefetched tables' admissible contents: no pipeline has a table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c

/-- No body calls a labelled function: no variants. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item of @main: the core's generator register at some state and its
    debts, none. -/
abbrev R (c : Dev nD) : sProp 𝕄 := iprop((∃ r, prngReg c r) ∗ ∃ W, owes (c : Thread nD τ) (0 : CellTallies nD τ sig Unit) W)
/-- The thread state between two items of @main: every unscoped buffer of core `c` at the boundary's contents, beside `R`. -/
abbrev T (Wk : Dev nD → Valuation τ sig (Elt F)) (c : Dev nD) : sProp 𝕄 :=
  iprop(StableHlo.held (c : Thread nD τ) (Pipeline.ucRefs τ sig) (Wk c) ∗ R (F := F) c)

theorem W1_main_v0 (c : Dev nD) : W1 m c main_v0 = (dat0 (E0 m) c).arrAt 1 cfg0.N := by
  unfold W1; exact Function.update_self ..
theorem W3_main_v5 (c : Dev nD) : W3 m c main_v5 = (dat1 (E2 m) c).arrAt 6 cfg1.N := by
  unfold W3; exact Function.update_self ..

end Cert.Kernel.Hand

end
-- ==== Proof.K.Reg0.lean ====
/-
  Region 0 of @main as a segment of the run: entered with every unscoped buffer at the fold's contents before it,
  left with them at the fold's contents after it.
-/
import proofs.«108451_j9534827397796_1_alg».proof.Proof.K.R0Body
import proofs.«108451_j9534827397796_1_alg».proof.Proof.K.RunDefs
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At region 0's exit each of its arrays holds what the pipeline leaves: the input array was never written
    back and the fold leaves it as launched; the output array is the fold's new entry. -/
private theorem hF0 (c : Dev nD) (w : Fin cfg0.W) :
    (dat0 (E0 m) c).arrAt w cfg0.N = (fun b : Ref sig .tc => W1 m c b) (Pipeline.arrRef spec0 w) := by
  match w with
  | ⟨0, _⟩ =>
    refine ((dat0 (E0 m) c).arrAt_in 0 rfl _).trans ?_
    refine (A_eq0 (E0 m) c 0).trans ?_
    unfold W1
    exact (Function.update_of_ne (show (Proc.devRef .tc (Pipeline.arrRef spec0 0) : DevRef τ sig) ≠ main_v0 by decide) _ _).symm
  | ⟨1, _⟩ => exact (W1_main_v0 m c).symm

/-- Every buffer that is no array of region 0 is after it as it was before it. -/
private theorem hrest0 (c : Dev nD) : ∀ b : Ref sig .tc, b ∉ Finset.univ.image (Pipeline.arrRef spec0) →
    (fun b : Ref sig .tc => W1 m c b) b = (fun b : Ref sig .tc => W0 m c b) b := by
  intro b hb
  have hne : (Proc.devRef .tc b : DevRef τ sig) ≠ main_v0 := by
    intro e
    refine hb (Finset.mem_image.mpr ⟨1, Finset.mem_univ _, ?_⟩)
    exact (Proc.devRef_injective _ e).symm
  show W1 m c b = W0 m c b
  unfold W1
  exact Function.update_of_ne hne _ _

set_option backward.isDefEq.respectTransparency.types false in
/-- Region 0 over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := T (W0 m) c
  post c := T (W1 m) c
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (c : Dev nD) : (reg0 m).pre c = T (F := F) (W0 m) c := rfl
theorem reg0_post (c : Dev nD) : (reg0 m).post c = T (F := F) (W1 m) c := rfl

end Cert.Kernel.Hand

end
-- ==== Proof.K.R1Body.lean ====
/-
  Region 1's body obligation: at every grid point the aggregation kernel's body, handed its six input blocks in
  their staging buffers and the scratch block at the running sum, runs to the scratch at the next running sum
  and — at the last column block of a row block — the output's staging buffer at the clamped affine image of the
  row-scaled sum; and the region invariant's two ends.
-/
import proofs.«108451_j9534827397796_1_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer accesses: a load of the whole of a whole memref reads its contents, a store of the whole leaves its payload -/

/-- A unit-stride rectangle at offset zero over all of the shape places each index at itself. -/
private theorem idx_unit_zero {s : Shape} (off : Fin s.rank → ℕ) (h0 : ∀ a, off a = 0) (inb : ∀ a, off a + s.size a ≤ s.size a)
    (j : (Rect.unit (s := s) off s.size inb).toLoadRect.shape.Idx) :
    (Rect.unit (s := s) off s.size inb).toLoadRect.idx j = j := by
  funext a; apply Fin.ext; show off a + 1 * (j a : ℕ) = j a; rw [h0 a]; omega

/-- A load of the whole of a whole memref held at the raw contents that read `X` reads `X`. -/
private theorem readAt_unread_whole {κ : Kind} {sp : Space} {s : Shape} {e : EltTy} {m : Memref sig κ sp s e} (h : m.IsWhole)
    (X : s.Idx → Elt F e) (off : Fin s.rank → ℕ) (h0 : ∀ a, off a = 0) (inb : ∀ a, off a + s.size a ≤ s.size a) :
    View.readAt (Elt F) m.view (Rect.unit (s := s) off s.size inb).toLoadRect (h.unread X) = X := by
  funext x
  exact (congrFun (h.read_unread X) _).trans (congrArg X (idx_unit_zero off h0 inb x))

/-- After a last write through the whole shape a view reads that write's payload, whatever was there before. -/
private theorem read_writes_unit_whole {κ : Kind} {sp : Space} {s : Shape} {e : EltTy} (v : View sig κ sp s e) (f : v.ty.Contents (Elt F))
    (off : Fin s.rank → ℕ) (h0 : ∀ a, off a = 0) (inb : ∀ a, off a + s.size a ≤ s.size a) (w : s.Idx → Elt F e)
    (L : List (View.Piece (Elt F) s e)) :
    v.read (Elt F) (v.writes (Elt F) f (⟨Rect.unit (s := s) off s.size inb, w⟩ :: L)) = w := by
  funext y
  have h := View.read_writes_cons_emb v f (Rect.unit (s := s) off s.size inb) w L y
  have e : (Rect.unit (s := s) off s.size inb).emb y = y := idx_unit_zero off h0 inb y
  rwa [e] at h

private theorem z2 : ∀ a : Fin 2, (![0, 0] : Fin 2 → ℕ) a = 0 := by decide

/-! ## The body's two conditions, in closed form over the grid -/

/-- The first conditional's condition (the column-block coordinate is zero), from the grid coordinates. -/
abbrev cond1_0 (i : grid1.Coords) : Prop := (Scalar.cmpi .ne (Scalar.extui (Scalar.cmpi .eq (BitVec.ofNat 32 (i 1).val) 0#32)) 0#32) = 1#1
/-- The second conditional's condition (the column-block coordinate is seven). -/
abbrev cond1_1 (i : grid1.Coords) : Prop := k1_cond2 i = 1#1

/-- The first holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The second holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The six inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Away from the last column block of a row block the output is idle: the body stores nothing into it there, -/
theorem idleAt1_6 : ∀ t : Fin cfg1.N, ¬cond1_1 (grid1.coords t) → cfg1.idle 6 (grid1.coords t) = true := by decide +kernel
/-- and its block is not written back there; -/
theorem noFlush1_6 (t : Fin cfg1.N) (h : ¬cond1_1 (grid1.coords t)) : (cfg1.win 6).flush t = false :=
  Bool.eq_false_iff.mpr fun hf => h ((hcond1_1 t).mpr ((flush1_6 t).mp hf))
/-- at the last column block it is live. -/
theorem liveAt1_6 : ∀ t : Fin cfg1.N, cond1_1 (grid1.coords t) → cfg1.idle 6 (grid1.coords t) = false := by decide +kernel

/-! ## What the body finds in the inputs' buffers -/

/-- Each input's current staging buffer holds its block at every point, fetched there or not: an input not fetched
    at a point has the block index it had at the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The running sum, point by point -/

/-- At the first column block of a row block the running sum starts from twice the row block of Y. -/
theorem acc1_A (c : Dev nD) (t : Fin cfg1.N) (h0 : t.val % 8 = 0) :
    acc1 V c t.val t.isLt = k1_pay2 (iblk1 V c 0 t) (iblk1 V c 1 t) (k1_pay1 (iblk1 V c 2 t)) := by
  obtain ⟨n, hn⟩ := t
  cases n with
  | zero => rfl
  | succ n => exact congrArg (k1_pay2 _ _) (if_pos h0)

/-- At every other column block it continues from what the point before left. -/
theorem acc1_B (c : Dev nD) (t : Fin cfg1.N) (h0 : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact congrArg (k1_pay2 _ _) (if_neg h0)

/-! ## The region invariant, opened -/

theorem PhiS1_zero (c : Dev nD) (n : ℕ) (h : n ≤ cfg1.N) (hz : n = 0) : PhiS1 V c n h = Pipeline.ΦA spec1 c := by
  subst hz; rfl

/-- After point `n`: the scratch at that point's running sum. -/
theorem PhiS1_succ (c : Dev nD) (n : ℕ) (hn : n < cfg1.N) :
    PhiS1 V c (n + 1) hn = iprop(owns (c : Thread nD τ) scM1 fullShare (acc1 V c n hn) ∗ rest1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (acc1 V c (n - 1) (by omega)) ∗ rest1 (F := F) c ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- The class's invariant is the scratch at anything, the other five scoped buffers at anything, the generator register:
    the scoped rest's six buffers regrouped, the scratch (the last of them) first. -/
theorem PhiA1_open (c : Dev nD) :
    (Pipeline.ΦA spec1 c : sProp 𝕄) ⊢ iprop((∃ d, owns (c : Thread nD τ) scM1 fullShare d) ∗ rest1 (F := F) c ∗ (∃ r, prngReg c r)) := by
  unfold Pipeline.ΦA rest1; rw [scopedRest1_eq]
  simp only [scM1, owns_whole]
  iintro ⟨⟨Ha, Hb, Hc, Hd, He, HS⟩, Hg⟩
  isplitl [HS]; · iexact HS
  isplitl [Ha Hb Hc Hd He]
  · isplitl [Ha]; · iexact Ha
    isplitl [Hb]; · iexact Hb
    isplitl [Hc]; · iexact Hc
    isplitl [Hd]; · iexact Hd
    iexact He
  iexact Hg

theorem PhiA1_close (c : Dev nD) :
    iprop((∃ d, owns (c : Thread nD τ) scM1 fullShare d) ∗ rest1 (F := F) c ∗ (∃ r, prngReg c r)) ⊢ (Pipeline.ΦA spec1 c : sProp 𝕄) := by
  unfold Pipeline.ΦA rest1; rw [scopedRest1_eq]
  simp only [scM1, owns_whole]
  iintro ⟨HS, ⟨Ha, Hb, Hc, Hd, He⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexact HS
  iexact Hg

/-- At any position the invariant gives the scratch at SOME contents beside the rest: what the class's invariant says. -/
theorem PhiS1_any (c : Dev nD) (n : ℕ) (h : n ≤ cfg1.N) :
    PhiS1 V c n h ⊢ iprop((∃ d, owns (c : Thread nD τ) scM1 fullShare d) ∗ rest1 (F := F) c ∗ (∃ r, prngReg c r)) := by
  cases n with
  | zero => exact PhiA1_open c
  | succ n =>
    rw [PhiS1_succ]
    iintro ⟨HS, Hr⟩
    isplitl [HS]; · iexists _; iexact HS
    iexact Hr

/-! ## The kernel body on any whole staging memrefs, case by case

The body's loads and stores are all of whole buffers, so a load reads the buffer's contents and a store leaves its
payload. Each case's triple holds only the buffers the body touches in that case. -/

set_option maxHeartbeats 1000000 in
/-- At a point with the first condition and not the second: the scratch, found at anything, is first set to twice
    the row block of Y and then left at the product of the two blocks added to that. The blocks the body does not
    touch there (the row scales, the weights, the bias, the output's) are not part of the triple. -/
theorem run1_A (c : Dev nD) (E : Set ℕ) (i : grid1.Coords)
    (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (hc0 : cond1_0 i) (hc1 : ¬cond1_1 i)
    (x0 : Vec F S1024x1024 .f32) (x1 : Vec F S1024x256 .f32) (x2 : Vec F S1024x256 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg9 fullShare (k1_pay2 x0 x1 (k1_pay1 x2))) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [read_writes_unit_whole _ _ _ z2, readAt_unread_whole harg2 _ _ z2, readAt_unread_whole harg3 _ _ z2]
  sl_unfold_run_names
  rw [View.readCov_cons_toLoadRect, readAt_unread_whole harg4 _ _ z2]

set_option maxHeartbeats 1000000 in
/-- At a point with neither condition: the scratch, found at `xs`, is left at the product of the two blocks added to `xs`. -/
theorem run1_B (c : Dev nD) (E : Set ℕ) (i : grid1.Coords)
    (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (hc0 : ¬cond1_0 i) (hc1 : ¬cond1_1 i)
    (x0 : Vec F S1024x1024 .f32) (x1 : Vec F S1024x256 .f32) (xs : Vec F S1024x256 .f32) (K : PUnit → sProp 𝕄) :
    iprop(owns (c : Thread nD τ) arg2 fullShare x0 ∗ owns (c : Thread nD τ) arg3 fullShare x1 ∗ owns (c : Thread nD τ) arg9 fullShare xs
        ∗ (iprop(owns (c : Thread nD τ) arg2 fullShare x0 ∗ owns (c : Thread nD τ) arg3 fullShare x1 ∗ owns (c : Thread nD τ) arg9 fullShare (k1_pay2 x0 x1 xs)) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [read_writes_unit_whole _ _ _ z2, readAt_unread_whole harg2 _ _ z2, readAt_unread_whole harg3 _ _ z2, readAt_unread_whole harg9 _ _ z2]

set_option maxHeartbeats 1000000 in
/-- At a point with the second condition and not the first: the scratch, found at `xs`, is left at the product of the
    two blocks added to `xs`, and the output's buffer, found at anything, at the clamped affine image of that sum
    scaled row by row. -/
theorem run1_C (c : Dev nD) (E : Set ℕ) (i : grid1.Coords)
    (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (hc0 : ¬cond1_0 i) (hc1 : cond1_1 i)
    (x0 : Vec F S1024x1024 .f32) (x1 : Vec F S1024x256 .f32) (x3 : Vec F S1024x1 .f32) (x4 : Vec F S256x256 .f32) (x5 : Vec F S1x256 .f32) (xs : Vec F S1024x256 .f32) (K : PUnit → sProp 𝕄) :
    iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare (k1_pay3 (k1_pay2 x0 x1 xs) x3 x4 x5) ∗ owns (c : Thread nD τ) arg9 fullShare (k1_pay2 x0 x1 xs)) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f0, %hf0, H0⟩, ⟨%f1, %hf1, H1⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg5.eq_unread hf3; obtain rfl := harg6.eq_unread hf4; obtain rfl := harg7.eq_unread hf5; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [read_writes_unit_whole _ _ _ z2, readAt_unread_whole harg5 _ _ z2, readAt_unread_whole harg6 _ _ z2, readAt_unread_whole harg7 _ _ z2]
    sl_unfold_run_names
    rw [View.readCov_cons_toLoadRect, readAt_unread_whole harg2 _ _ z2, readAt_unread_whole harg3 _ _ z2, readAt_unread_whole harg9 _ _ z2]
  iexists _; isplitr
  swap; · iexact HS
  ipureintro
  sl_unfold_run_names
  rw [read_writes_unit_whole _ _ _ z2, readAt_unread_whole harg2 _ _ z2, readAt_unread_whole harg3 _ _ z2, readAt_unread_whole harg9 _ _ z2]

/-! ## The body obligation, at a generic point -/

/-- Each window's current staging memref at point `t`, spelled as the pipeline passes it, -/
abbrev ms1_0 (t : Fin cfg1.N) := win1_0.stage (cfg1.slots t 0)
abbrev ms1_1 (t : Fin cfg1.N) := win1_1.stage (cfg1.slots t 1)
abbrev ms1_2 (t : Fin cfg1.N) := win1_2.stage (cfg1.slots t 2)
abbrev ms1_3 (t : Fin cfg1.N) := win1_3.stage (cfg1.slots t 3)
abbrev ms1_4 (t : Fin cfg1.N) := win1_4.stage (cfg1.slots t 4)
abbrev ms1_5 (t : Fin cfg1.N) := win1_5.stage (cfg1.slots t 5)
abbrev ms1_6 (t : Fin cfg1.N) := win1_6.stage (cfg1.slots t 6)

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- An input's buffer is handed back at its block: the window is live everywhere. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (ms1_5 t) fullShare (iblk1 V c 5 t) := by
  unfold Dat.leavesExact; rw [liveAt1_5 t, after1_5]

set_option maxHeartbeats 4800000 in
/-- The body at any point. The inputs' memrefs hold their blocks; the point's position mod 8 says which of the three
    cases it is in. At the first column block of a row block the invariant hands the scratch at some contents (before
    the first point of all: the class's invariant; later: the previous row block's finished sum, no longer needed)
    and takes it back at the fresh running sum; elsewhere it hands the scratch at what the point before left and
    takes it back with this point's product added. The output's buffer is handed back untouched except at the last
    column block, where it holds the point's output block. The other scoped buffers, the generator register and the
    core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5]
  rw [PhiS1_castSucc V c t]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 6 t (idleAt1_6 t hc1) (noFlush1_6 t hc1)]
    rw [acc1_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiS1_any V c t.val (Nat.le_of_lt t.isLt)) $$ HΦ
    icases HΦ' with ⟨HS, Hr, Hg⟩
    iapply (run1_A c Set.univ (grid1.coords t) _ _ _ _ _ _ _ _ _ _ _ _ _ _ _ _ hc0 hc1 (iblk1 V c 0 t) (iblk1 V c 1 t) (iblk1 V c 2 t) _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := fun e => h0 (by rw [e])
    have hc0 : ¬cond1_0 (grid1.coords t) := fun h => h0 ((hcond1_0 t).mp h)
    rw [PhiS1_pos V c _ _ hz, acc1_B V c t h0]
    by_cases h1 : t.val % 8 = 7
    · have hc1 : cond1_1 (grid1.coords t) := (hcond1_1 t).mpr h1
      rw [show (dat1 V c).leavesExact 6 t = owns (c : Thread nD τ) (ms1_6 t) fullShare ((dat1 V c).after 6 t) from by
        unfold Dat.leavesExact; rw [liveAt1_6 t hc1], after1_6]
      unfold out1
      rw [acc1_B V c t h0]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run1_C c Set.univ (grid1.coords t) _ _ _ _ _ _ _ _ _ _ _ _ _ _ _ _ hc0 hc1 (iblk1 V c 0 t) (iblk1 V c 1 t) (iblk1 V c 3 t) (iblk1 V c 4 t) (iblk1 V c 5 t) _ _)
      isplitl [H0]; · iexact H0
      isplitl [H1]; · iexact H1
      isplitl [H3]; · iexact H3
      isplitl [H4]; · iexact H4
      isplitl [H5]; · iexact H5
      isplitl [H6]; · iexists _; iexact H6
      isplitl [HS]; · iexact HS
      iintro ⟨H0, H1, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 6 t (idleAt1_6 t hc1) (noFlush1_6 t hc1)]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run1_B c Set.univ (grid1.coords t) _ _ _ _ _ _ _ _ _ _ _ _ _ _ _ _ hc0 hc1 (iblk1 V c 0 t) (iblk1 V c 1 t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's: every scoped buffer at anything, the generator register. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the class's back: the scratch's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl]
  exact (PhiS1_any V c _ _).trans (PhiA1_close c)

end Cert.Kernel.Hand

end
-- ==== Proof.K.Reg1.lean ====
/-
  Region 1 of @main as a segment of the run: entered with every unscoped buffer at the fold's contents before it,
  left with them at the fold's contents after it; its two windows on the scaled
  features' array each take half of that array's share at entry and hand it back at exit.
-/
import proofs.«108451_j9534827397796_1_alg».proof.Proof.K.R1Body
import proofs.«108451_j9534827397796_1_alg».proof.Proof.K.RunDefs
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 1's arrays, one by one. -/
private theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_v2) ↦{fullShare} V' main_v2)
          ∗ (((c : Thread nD τ).loc main_v0) ↦{fullShare} V' main_v0) ∗ (((c : Thread nD τ).loc main_v3) ↦{fullShare} V' main_v3)
          ∗ (((c : Thread nD τ).loc main_v4) ↦{fullShare} V' main_v4) ∗ (((c : Thread nD τ).loc main_v5) ↦{fullShare} V' main_v5)) := by
  unfold Pipeline.arrBufs
  exact bigSep_eq_bigSepL_of_eq [main_arg1, main_v2, main_v0, main_v3, main_v4, main_v5] (by decide) (by decide) _

/-- Region 1's arrays one by one: each a whole buffer, at its window's share. -/
private theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_v2) ↦{fullShare.left} G 1)
          ∗ (((c : Thread nD τ).loc main_v2) ↦{fullShare.right} G 2) ∗ (((c : Thread nD τ).loc main_v0) ↦{fullShare} G 3)
          ∗ (((c : Thread nD τ).loc main_v3) ↦{fullShare} G 4) ∗ (((c : Thread nD τ).loc main_v4) ↦{fullShare} G 5)
          ∗ (((c : Thread nD τ).loc main_v5) ↦{fullShare} G 6)) := by
  unfold Dat.arrays
  rw [show (bigSep Finset.univ fun w : Fin cfg1.W => ((cfg1.win w).arr.view.loc (c : Thread nD τ) ↦[(cfg1.win w).arr.view.set]{(dat1 V c).share w} G w : sProp 𝕄))
        = bigSep Finset.univ fun w : Fin cfg1.W => ((cfg1.win w).arr.view.loc (c : Thread nD τ) ↦[Finset.univ]{(dat1 V c).share w} G w : sProp 𝕄)
      from bigSep_congr fun w _ => by rw [(arr_whole1 w).set_eq_univ]]
  rw [bigSep_W1]
  rfl

/-- The distinct buffers behind region 1's arrays, each whole at the full share at contents `V'`, are the region's arrays
    at contents `G` reading `V'` at each window's array: the scaled features' full share is dealt in halves to the two
    windows on that array. -/
private theorem arrays1_of_arrBufs (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (Pipeline.arrBufs (Ix := Unit) (Name := ℕ) (U := UR sig nD τ) (Lvl := ℕ) spec1 c V' : sProp 𝕄) ⊢ (dat1 V c).arrays G := by
  rw [arrays1_eq, arrBufs1_eq, hG 0, hG 1, hG 2, hG 3, hG 4, hG 5, hG 6]
  iintro ⟨H0, H12, H3, H4, H5, H6⟩
  ihave H12 := (pointsTo_share (PosShare.mem_left_op_right fullShare)).1 $$ H12
  icases H12 with ⟨H1, H2⟩
  isplitl [H0]; · iexact H0
  isplitl [H1]; · iexact H1
  isplitl [H2]; · iexact H2
  isplitl [H3]; · iexact H3
  isplitl [H4]; · iexact H4
  isplitl [H5]; · iexact H5
  iexact H6

/-- Conversely the region's arrays at contents `G` reading `V'` at each window's array are the distinct buffers behind
    them whole at the full share at `V'`: the two halves of the scaled features' share, at the same contents, join. -/
private theorem arrBufs_of_arrays1 (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    ((dat1 V c).arrays G : sProp 𝕄) ⊢ Pipeline.arrBufs (Ix := Unit) (Name := ℕ) (U := UR sig nD τ) (Lvl := ℕ) spec1 c V' := by
  rw [arrays1_eq, arrBufs1_eq, hG 0, hG 1, hG 2, hG 3, hG 4, hG 5, hG 6]
  iintro ⟨H0, H1, H2, H3, H4, H5, H6⟩
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  iexact H6

/-- A core's unscoped buffers at contents `V'` are the distinct buffers behind region 1's arrays and the rest. -/
private theorem unscopedBufs1_split (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec1 c V' ∗ Pipeline.unscopedRest spec1 c V') :=
  Pipeline.unscopedBufs_split₀ cfgs 1 winFacts₀1.arr_unscoped c V'

/-- ENTRY, the arrays' part: a core's unscoped buffers at the region's entry contents are the region's arrays at
    the proof data's entry contents, the two windows on the scaled features' array at half its share each, and the rest. -/
private theorem arrays_of_unscopedBufs1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [unscopedBufs1_split]
  exact sep_mono (arrays1_of_arrBufs V c (V c) _ fun w => A_eq1 V c w) .rfl

/-- EXIT, the arrays' part: the region's arrays at contents `G` and the unscoped rest at the entry contents are the
    core's unscoped buffers at any contents `V'` that have the arrays at `G` and agree with the entry contents off them. -/
private theorem unscopedBufs_of_arrays1 (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w))
    (hrest : ∀ b, b ∉ Finset.univ.image (Pipeline.arrRef spec1) → V' b = V c b) :
    iprop((dat1 V c).arrays G ∗ Pipeline.unscopedRest spec1 c (V c))
      ⊢ (unscopedBufs (Ix := Unit) (Name := ℕ) (U := UR sig nD τ) (Lvl := ℕ) c V' : sProp 𝕄) := by
  rw [unscopedBufs1_split]
  refine sep_mono (arrBufs_of_arrays1 V c V' G hG) (Entails.of_eq ?_)
  unfold Pipeline.unscopedRest
  exact bigSep_congr fun b hb => by rw [hrest b (Finset.mem_sdiff.mp hb).2]

variable (m : (ℓ : Loc nD τ sig) → Buf (Elt F) ℓ)

/-- Off its output array the contents after region 1 are those it was entered with. -/
private theorem W3_of_ne (c : Dev nD) (b : Ref sig .tc) (hne : b ≠ main_v5) : W3 m c b = W2 m c b := by
  unfold W3
  exact Function.update_of_ne (fun h => hne (Proc.devRef_injective _ h)) _ _

/-- An input window's array is never written: after the last point it holds what the region was entered with, which
    is also what the contents after the region have there. -/
private theorem arrAt_in1 (c : Dev nD) (w : Fin cfg1.W) (hin : (cfg1.win w).isOut = false) (hne : Pipeline.arrRef spec1 w ≠ main_v5) :
    (dat1 (E2 m) c).arrAt w cfg1.N = W3 m c (Pipeline.arrRef spec1 w) := by
  rw [Dat.arrAt_in _ w hin, A_eq1, W3_of_ne m c _ hne]

/-- Every array of region 1 after its last point is the contents after the region at that array. -/
private theorem hF1 (c : Dev nD) : ∀ w : Fin cfg1.W, (dat1 (E2 m) c).arrAt w cfg1.N = W3 m c (Pipeline.arrRef spec1 w)
  | 0 => arrAt_in1 m c 0 rfl (by decide)
  | 1 => arrAt_in1 m c 1 rfl (by decide)
  | 2 => arrAt_in1 m c 2 rfl (by decide)
  | 3 => arrAt_in1 m c 3 rfl (by decide)
  | 4 => arrAt_in1 m c 4 rfl (by decide)
  | 5 => arrAt_in1 m c 5 rfl (by decide)
  | 6 => (W3_main_v5 m c).symm
  | ⟨_ + 7, h⟩ => absurd h (Nat.not_lt.2 (Nat.le_add_left _ _))

/-- A buffer that is no array of region 1 holds after the region what it held at entry. -/
private theorem hrest1 (c : Dev nD) (b : Ref sig .tc) (hb : b ∉ Finset.univ.image (Pipeline.arrRef spec1)) : W3 m c b = E2 m c b :=
  W3_of_ne m c b fun h => hb (h ▸ (by decide : main_v5 ∈ Finset.univ.image (Pipeline.arrRef spec1)))

/-- ENTRY over the thread state: the unscoped buffers held at the entry contents give the region's arrays at the proof
    data's entry contents and the unscoped rest. -/
private theorem entry1 (c : Dev nD) :
    (StableHlo.held (c : Thread nD τ) (Pipeline.ucRefs τ sig) (W2 m c) : sProp 𝕄)
      ⊢ iprop((dat1 (E2 m) c).arrays ((dat1 (E2 m) c).arrAt · 0) ∗ Pipeline.unscopedRest spec1 c (E2 m c)) := by
  rw [← Pipeline.unscopedBufs_held]
  exact arrays_of_unscopedBufs1 (E2 m) c

/-- EXIT over the thread state: the region's arrays after the last point and the unscoped rest are the unscoped
    buffers held at the contents after the region. -/
private theorem exit1 (c : Dev nD) :
    iprop((dat1 (E2 m) c).arrays ((dat1 (E2 m) c).arrAt · cfg1.N) ∗ Pipeline.unscopedRest spec1 c (E2 m c))
      ⊢ (StableHlo.held (c : Thread nD τ) (Pipeline.ucRefs τ sig) (W3 m c) : sProp 𝕄) := by
  rw [← Pipeline.unscopedBufs_held]
  exact unscopedBufs_of_arrays1 (E2 m) c (fun b => W3 m c b) _ (hF1 m c) (hrest1 m c)

/-- Region 1 prefetches no table: its tables held at any shares are nothing. -/
private theorem prefHeld1_emp (c : Dev nD) (q) (pf) :
    (Pipeline.prefHeld (Ix := Unit) (Name := ℕ) (U := UR sig nD τ) (Lvl := ℕ) (pcfgs (F := F) 1).pre c q pf : sProp 𝕄) = BI.emp := by
  unfold Pipeline.prefHeld
  exact BI.bigSep_empty

/-- A core owing nothing owes the proof data's tallies at any point, within that point's bound: the data owe nothing
    anywhere and bound the recorded pairs by nothing. -/
private theorem owesAt1_of_owes (c : Dev nD) (t : Fin (cfg1.N + 1)) :
    (iprop(∃ W, owes (c : Thread nD τ) (0 : CellTallies nD τ sig Unit) W) : sProp 𝕄) ⊢ (dat1 V c).owesAt () t := by
  iintro ⟨%W, HO⟩
  iexists W
  isplitr
  · ipureintro; exact Set.subset_union_of_subset_left (Set.subset_univ _) _
  iexact HO

/-- and conversely. -/
private theorem owes_of_owesAt1 (c : Dev nD) (t : Fin (cfg1.N + 1)) :
    ((dat1 V c).owesAt () t : sProp 𝕄) ⊢ iprop(∃ W, owes (c : Thread nD τ) (0 : CellTallies nD τ sig Unit) W) := by
  iintro ⟨%W, -, HO⟩
  iexists W
  iexact HO

set_option backward.isDefEq.respectTransparency.types false in
/-- Region 1 over the thread state. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := T (W2 m) c
  post c := T (W3 m) c
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none, prefHeld1_emp, show pdats m 1 c = dat1 (E2 m) c from rfl]
    iintro ⟨⟨Hheld, Hprng, Howes⟩, -, -⟩
    imodintro
    ihave Hsplit := (entry1 m c) $$ Hheld
    icases Hsplit with ⟨Harr, Hrest⟩
    isplitl [Harr]; · iexact Harr
    isplitr; · iempintro
    isplitl [Howes]; · iapply (owesAt1_of_owes (E2 m) c 0); iexact Howes
    isplitl [Hprng]; · iexact Hprng
    iexact Hrest
  hin c := by
    rw [show pdats m 1 c = dat1 (E2 m) c from rfl]
    iintro ⟨Hprng, -, Hscoped⟩
    iapply (hin1 (E2 m) c)
    unfold Pipeline.ΦA
    isplitl [Hscoped]; · iexact Hscoped
    iexact Hprng
  hout c := by
    rw [Pipeline.ownSems0_none]
    refine (hout1 (E2 m) c).trans ?_
    unfold Pipeline.ΦA
    iintro ⟨Hscoped, Hprng⟩
    isplitl [Hprng]; · iexact Hprng
    isplitr; · iempintro
    iexact Hscoped
  hexit c := by
    rw [show pdats m 1 c = dat1 (E2 m) c from rfl]
    iintro ⟨Harr, Howes, Hprng, Hrest⟩
    imodintro
    isplitl [Harr Hrest]
    · iapply (exit1 m c); isplitl [Harr]; · iexact Harr
      iexact Hrest
    isplitl [Hprng]; · iexact Hprng
    iapply (owes_of_owesAt1 (E2 m) c (Fin.last cfg1.N)); iexact Howes

theorem reg1_pre (c : Dev nD) : (reg1 m).pre c = T (F := F) (W2 m) c := rfl
theorem reg1_post (c : Dev nD) : (reg1 m).post c = T (F := F) (W3 m) c := rfl

end Cert.Kernel.Hand

end
-- ==== Proof.K.Run.lean ====
/-
  The run of @main: region 0, the host stretch, region 1, from the launch memory to a final memory that holds,
  at every unscoped buffer, the fold `W3` — so every argument as launched and the result array at what region 1's
  write-backs leave.
-/
import proofs.«108451_j9534827397796_1_alg».proof.Proof.K.Reg0
import proofs.«108451_j9534827397796_1_alg».proof.Proof.K.Reg1
import proofs.«108451_j9534827397796_1_alg».proof.Proof.Gen.Kernel.Regions
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item of @main leaves unchanged -/

/-- Region 0 changes its output array only. -/
private theorem W1_of (c : Dev nD) (r : Ref sig .tc) (h : r ≠ main_v0) : W1 m c r = W0 m c r := by
  unfold W1
  exact Function.update_of_ne (StableHlo.devRef_ne_of_ne h : (Proc.devRef .tc r : DevRef τ sig) ≠ Proc.devRef .tc main_v0) _ _
/-- The host stretch changes what its four operations write only. -/
private theorem W2_of (c : Dev nD) (r : Ref sig .tc) (h : r ∉ hostOps1_W) : W2 m c r = W1 m c r :=
  StableHlo.after_of_writes_sub hostOps1 _ hostOps1_writes h
/-- Region 1 changes its output array only. -/
private theorem W3_of (c : Dev nD) (r : Ref sig .tc) (h : r ≠ main_v5) : W3 m c r = W2 m c r := by
  unfold W3
  exact Function.update_of_ne (StableHlo.devRef_ne_of_ne h : (Proc.devRef .tc r : DevRef τ sig) ≠ Proc.devRef .tc main_v5) _ _
/-- A buffer that is neither region's output nor written by the host stretch ends as launched. -/
private theorem W3_launch (c : Dev nD) (r : Ref sig .tc) (h0 : r ≠ main_v0) (h1 : r ∉ hostOps1_W) (h5 : r ≠ main_v5) :
    W3 m c r = m ((c : Thread nD τ).loc r) :=
  (W3_of m c r h5).trans <| (W2_of m c r h1).trans <| (W1_of m c r h0).trans rfl

/-! ## @main as segments -/

/-- The host stretch as a segment: its four operations over the unscoped references from the contents region 0 leaves,
    the generator register and the debts riding along. -/
private abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

/-- @main's three segments in order. -/
private abbrev segs : List (Pipeline.Seg (pcfgs (F := F)) adm (pdats m) () defs₀ 𝒱₀ L lv) :=
  [ .region (reg0 m), .host (hseg1 m), .region (reg1 m) ]

/-- @main is the run of its segments. -/
private theorem main_run (c : Dev nD) : main (F := F) c = Pipeline.Seg.run (segs m) := (main_chain c).trans (by chain_rfl)

/-- An unscoped TensorCore reference is among those the thread state holds. -/
private theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at the fold's last contents, the generator register at some state. -/
private abbrev Tₙ (c : Dev nD) : sProp 𝕄 := iprop(StableHlo.held (c : Thread nD τ) (Pipeline.ucRefs τ sig) (W3 m c) ∗ ∃ r, prngReg c r)

set_option backward.isDefEq.respectTransparency.types false in
/-- THE RUN. Every weakly fair execution of @main from `m` with zero counters terminates, nothing faulting, and every
    unscoped buffer of every core ends at the fold's last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => T (W0 m) c) (Tₙ := Tₙ m)
    (hch := ⟨fun c => Entails.of_eq (reg0_pre m c).symm, fun c => Entails.of_eq (reg0_post m c),
      fun c => Entails.of_eq (reg1_pre m c).symm, fun c => (Entails.of_eq (reg1_post m c)).trans sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- No item of @main writes an argument: the fold at an argument's buffer is the launch memory. -/
theorem W3_main_arg0 (c : Dev nD) : W3 m c main_arg0 = m ((c : Thread nD τ).loc main_arg0) :=
  W3_launch m c main_arg0 (by decide) (by decide) (by decide)
theorem W3_main_arg1 (c : Dev nD) : W3 m c main_arg1 = m ((c : Thread nD τ).loc main_arg1) :=
  W3_launch m c main_arg1 (by decide) (by decide) (by decide)
theorem W3_main_arg2 (c : Dev nD) : W3 m c main_arg2 = m ((c : Thread nD τ).loc main_arg2) :=
  W3_launch m c main_arg2 (by decide) (by decide) (by decide)
theorem W3_main_arg3 (c : Dev nD) : W3 m c main_arg3 = m ((c : Thread nD τ).loc main_arg3) :=
  W3_launch m c main_arg3 (by decide) (by decide) (by decide)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result array named. -/
theorem run_value : θ_run defs (onTc (τ := τ) (main (F := F))) ⟨m, fun _ => 0, ρ⟩ (fun r => ∀ c : Dev nD,
      r.2.mem ((c.tc : Thread nD τ).loc main_v5) = W3 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v5 (by decide)),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.Kernel.Hand

end
-- ==== Proof.KI.R0Defs.lean ====
/-
  Region 0 (the degree kernel, grid 8 × 4, point t = 4·i + j): the definitions every later module is stated over.
  Rows 1024·i … 1024·i+1023 of the adjacency matrix are read in four column blocks of 2048; the scratch
  column holds the running row sums (reset to zero at j = 0, then one block's lane sums added per point);
  at j = 3 the output block is rsqrt (row sum + 2).
-/
import proofs.«108451_j9534827397796_1_alg».proof.Proof.Gen.KernelIdeal.Launch
import proofs.«108451_j9534827397796_1_alg».proof.Proof.Gen.KernelIdeal.Skeleton
import proofs.«108451_j9534827397796_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The buffers' contents when a region is entered: the parameter each region's half is stated at.
variable (V : (c : Dev nD) → (b : Ref sig .tc) → Buf (Elt F) ((c : Thread nD τ).loc b))

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch column after the body at position `n`: the lane sums of the point's block added to zero
    (at the first column block of a row block, n ≡ 0 mod 4) or to what the point before left. -/
def acc0 (c : Dev nD) : (n : ℕ) → n < cfg0.N → Vec F S1024x1 .f32
  | 0, hn => k0_pay2 (k0_pay1 (F := F)) (iblk0 V c 0 ⟨0, hn⟩)
  | n + 1, hn => k0_pay2 (if (n + 1) % 4 = 0 then k0_pay1 (F := F) else acc0 c n (Nat.lt_of_succ_lt hn)) (iblk0 V c 0 ⟨n + 1, hn⟩)

/-- What the body stores into the output block at the last column block of a row block (elsewhere the
    window is idle and this term is consulted by nothing): rsqrt of the finished row sums plus two. -/
def out0 (c : Dev nD) (t : Fin cfg0.N) : Vec F S1024x1 .f32 := k0_pay3 (acc0 V c t.val t.isLt)

/-- The scratch of region 0 as a whole memref. -/
abbrev scM0 : Memref sig .tc .vmem S1024x1 .f32 := Memref.whole cc0_scratch0

/-- A scoped buffer whole at some contents. -/
abbrev exBuf (c : Dev nD) (b : Ref sig .tc) : sProp 𝕄 :=
  iprop(∃ f : Buf (Elt F) ((c : Thread nD τ).loc b), ((c : Thread nD τ).loc b) ↦{fullShare} f)

/-- The scoped buffers region 0 neither stages nor carries: the other region's staging buffers and scratch. -/
def rest0 (c : Dev nD) : sProp 𝕄 :=
  iprop(exBuf (F := F) c cc1_stg0_0 ∗ exBuf (F := F) c cc1_stg0_1 ∗ exBuf (F := F) c cc1_stg1_0 ∗ exBuf (F := F) c cc1_stg1_1 ∗ exBuf (F := F) c cc1_stg2_0 ∗ exBuf (F := F) c cc1_stg2_1 ∗ exBuf (F := F) c cc1_stg3_0 ∗ exBuf (F := F) c cc1_stg3_1 ∗ exBuf (F := F) c cc1_stg4_0 ∗ exBuf (F := F) c cc1_stg5_0 ∗ exBuf (F := F) c cc1_stg6_0 ∗ exBuf (F := F) c cc1_stg6_1 ∗ exBuf (F := F) c cc1_scratch0)

/-- The region invariant before position `n`: before the first point every scoped buffer at anything;
    afterwards the scratch at the running row sums, the other scoped buffers at anything, the generator
    register at some state. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0 V c t := by dsimp only [dat0]

end Cert.KernelIdeal.Hand

end
-- ==== Proof.KI.R0Body.lean ====
/-
  Region 0's body obligation: at every grid point the degree kernel's body, handed the column block of the
  adjacency matrix in its staging buffer and the scratch column at the running row sums, runs to the scratch
  at the next running sums and — at the last column block of a row block — the output's staging buffer at
  rsqrt (row sum + 2); and the region invariant's two ends.
-/
import proofs.«108451_j9534827397796_1_alg».proof.Proof.KI.R0Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace R0Body

/-! ## The two conditions of the body, in closed form over the grid -/

/-- The first conditional's test (the column-block coordinate is zero), from the grid coordinates. -/
abbrev cnd0 (i : grid0.Coords) : Prop := (Scalar.cmpi .ne (Scalar.extui (Scalar.cmpi .eq (BitVec.ofNat 32 (i 1).val) 0#32)) 0#32) = 1#1
/-- It holds exactly at the points t ≡ 0 (mod 4). -/
theorem hcnd0 : ∀ t : Fin cfg0.N, cnd0 (grid0.coords t) ↔ t.val % 4 = 0 :=
  (by decide +kernel : ∀ t : Fin grid0.N, cnd0 (grid0.coords t) ↔ t.val % 4 = 0)
/-- The second conditional's test (the column-block coordinate is three). -/
abbrev cnd1 (i : grid0.Coords) : Prop := k0_cond2 i = 1#1
/-- It holds exactly at the points t ≡ 3 (mod 4). -/
theorem hcnd1 : ∀ t : Fin cfg0.N, cnd1 (grid0.coords t) ↔ t.val % 4 = 3 :=
  (by decide +kernel : ∀ t : Fin grid0.N, cnd1 (grid0.coords t) ↔ t.val % 4 = 3)

/-- The input window is idle nowhere. -/
theorem live0_0 : ∀ t : Fin cfg0.N, cfg0.idle 0 (grid0.coords t) = false := by decide +kernel
/-- The output window is idle exactly off the points t ≡ 3 (mod 4). -/
theorem idle0_1 : ∀ t : Fin cfg0.N, ¬ t.val % 4 = 3 → cfg0.idle 1 (grid0.coords t) = true :=
  (by decide +kernel : ∀ t : Fin grid0.N, ¬ t.val % 4 = 3 → cfg0.idle 1 (grid0.coords t) = true)
theorem live0_1 : ∀ t : Fin cfg0.N, t.val % 4 = 3 → cfg0.idle 1 (grid0.coords t) = false :=
  (by decide +kernel : ∀ t : Fin grid0.N, t.val % 4 = 3 → cfg0.idle 1 (grid0.coords t) = false)
/-- Off those points its block is not written back. -/
theorem noflush0_1 (t : Fin cfg0.N) (h : ¬ t.val % 4 = 3) : (cfg0.win 1).flush t = false := by
  rcases hb : (cfg0.win 1).flush t with _ | _
  · rfl
  · exact absurd ((flush0_1 t).mp hb) h

/-! ## Whole-buffer loads and stores -/

private theorem zero2 : (![0, 0] : Fin 2 → ℕ) = fun _ => 0 := by
  funext a; fin_cases a <;> rfl

/-- A load through the whole-shape rectangle reads the contents. -/
private theorem readAt_all {κ : Kind} {sp : Space} {S : Shape} {e : EltTy} (v : View sig κ sp S e) {off : Fin S.rank → ℕ}
    (h : off = fun _ => 0) (inb : ∀ a, off a + S.size a ≤ S.size a) (f : v.ty.Contents (Elt F)) :
    v.readAt (Elt F) (Rect.unit off S.size inb).toLoadRect f = v.read (Elt F) f := by
  rw [show v.readAt (Elt F) (Rect.unit off S.size inb).toLoadRect f = View.ld (v.read (Elt F) f) (Rect.unit off S.size inb) from rfl,
    View.ld_unit_zero h]

/-- A store through the whole-shape rectangle, last, leaves its payload. -/
private theorem read_writes_all {κ : Kind} {sp : Space} {S : Shape} {e : EltTy} (v : View sig κ sp S e) {off : Fin S.rank → ℕ}
    (h : off = fun _ => 0) (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The body's three runs, on any whole memrefs -/

set_option maxHeartbeats 1000000 in
/-- First column block of a row block: the scratch is zeroed, then the block's lane sums are added. The output's
    buffer is not touched. -/
theorem runA (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cnd0 i) (hc1 : ¬cnd1 i)
    (x0 : Vec F S1024x2048 .f32) (xs0 : Vec F S1024x1 .f32) (E : Set ℕ) (K : PUnit → sProp 𝕄) :
    iprop(owns (c : Thread nD τ) arg2 fullShare x0 ∗ owns (c : Thread nD τ) arg4 fullShare xs0
            ∗ (iprop(owns (c : Thread nD τ) arg2 fullShare x0 ∗ owns (c : Thread nD τ) arg4 fullShare (k0_pay2 (k0_pay1 (F := F)) x0)) -∗ K ⟨⟩))
          ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact hf0
    iexact H0
  iexists _; isplitr
  swap; · iexact HS0
  ipureintro
  sl_unfold_run_names
  rw [read_writes_all _ zero2, View.readCov_unit_zero _ zero2, readAt_all _ zero2, hf0]

set_option maxHeartbeats 1000000 in
/-- A middle column block: the block's lane sums are added to the scratch as found. -/
theorem runB (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cnd0 i) (hc1 : ¬cnd1 i)
    (x0 : Vec F S1024x2048 .f32) (xs0 : Vec F S1024x1 .f32) (E : Set ℕ) (K : PUnit → sProp 𝕄) :
    iprop(owns (c : Thread nD τ) arg2 fullShare x0 ∗ owns (c : Thread nD τ) arg4 fullShare xs0
            ∗ (iprop(owns (c : Thread nD τ) arg2 fullShare x0 ∗ owns (c : Thread nD τ) arg4 fullShare (k0_pay2 xs0 x0)) -∗ K ⟨⟩))
          ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact hf0
    iexact H0
  iexists _; isplitr
  swap; · iexact HS0
  ipureintro
  sl_unfold_run_names
  rw [read_writes_all _ zero2, readAt_all _ zero2, readAt_all _ zero2, hfs0, hf0]

set_option maxHeartbeats 1000000 in
/-- Last column block of a row block: the block's lane sums are added to the scratch as found, and the output's
    buffer is stored whole at rsqrt (scratch + 2). -/
theorem runC (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cnd0 i) (hc1 : cnd1 i)
    (x0 : Vec F S1024x2048 .f32) (xs0 : Vec F S1024x1 .f32) (xi1 : Vec F S1024x1 .f32) (E : Set ℕ) (K : PUnit → sProp 𝕄) :
    iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare (k0_pay3 (k0_pay2 xs0 x0)) ∗ owns (c : Thread nD τ) arg4 fullShare (k0_pay2 xs0 x0)) -∗ K ⟨⟩))
          ⊢ wp frame (wpE (defs₀ (F := F)) Variants.none c none) E (cc0__degree_kernel i arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact hf0
    iexact H0
  isplitl [H1]
  · iexists _; isplitr
    swap; · iexact H1
    ipureintro
    sl_unfold_run_names
    rw [read_writes_all _ zero2, View.readCov_unit_zero _ zero2, readAt_all _ zero2, readAt_all _ zero2, hfs0, hf0]
  iexists _; isplitr
  swap; · iexact HS0
  ipureintro
  sl_unfold_run_names
  rw [read_writes_all _ zero2, readAt_all _ zero2, readAt_all _ zero2, hfs0, hf0]

/-! ## The running row sums, case by case -/

/-- At the first column block of a row block the sums start from zero. -/
theorem acc0_first (c : Dev nD) (t : Fin cfg0.N) (h0 : t.val % 4 = 0) :
    acc0 V c t.val t.isLt = k0_pay2 (k0_pay1 (F := F)) (iblk0 V c 0 t) := by
  obtain ⟨n, hn⟩ := t
  cases n with
  | zero => rfl
  | succ n => exact (show k0_pay2 (if (n + 1) % 4 = 0 then k0_pay1 (F := F) else acc0 V c n (Nat.lt_of_succ_lt hn)) (iblk0 V c 0 ⟨n + 1, hn⟩) = _ from by rw [if_pos h0])

/-- At every other column block they continue from the point before. -/
theorem acc0_next (c : Dev nD) (t : Fin cfg0.N) (h0 : ¬ t.val % 4 = 0) :
    acc0 V c t.val t.isLt = k0_pay2 (acc0 V c (t.val - 1) (Nat.lt_of_le_of_lt (Nat.sub_le _ _) t.isLt)) (iblk0 V c 0 t) := by
  obtain ⟨n, hn⟩ := t
  cases n with
  | zero => exact absurd (Nat.zero_mod _) h0
  | succ n => exact (show k0_pay2 (if (n + 1) % 4 = 0 then k0_pay1 (F := F) else acc0 V c n (Nat.lt_of_succ_lt hn)) (iblk0 V c 0 ⟨n + 1, hn⟩) = _ from by rw [if_neg h0]; rfl)

/-! ## The invariant, position by position -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 (F := F) c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The class's invariant with the scratch column apart, as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-- The input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The body obligation at a generic point -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .f32 := win0_1.stage (cfg0.slots t 1)
abbrev hs1 (t : Fin cfg0.N) : (ms1 t).IsWhole := hstage0_1 ((cfg0.slots t 1).cast nbuf0_1)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's buffer holds its block; the point's residue mod 4 says which of the three
    runs applies; the invariant hands the body the scratch at the running sums (at anything before the first
    point) and takes it back at the next sums; where the output's window is idle its buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0 t) fullShare ((dat0 V c).after 0 t) from by
    unfold Dat.leavesExact; rw [live0_0 t], after0_0]
  rw [PhiS0_castSucc V c t]
  by_cases h3 : t.val % 4 = 3
  · have h0 : ¬ t.val % 4 = 0 := by omega
    have hz : t.val ≠ 0 := by omega
    rw [show (dat0 V c).leavesExact 1 t = owns (c : Thread nD τ) (ms1 t) fullShare ((dat0 V c).after 1 t) from by
      unfold Dat.leavesExact; rw [live0_1 t h3], after0_1]
    unfold out0
    rw [acc0_next V c t h0, PhiS0_pos V c _ _ hz]
    iintro ⟨⟨HS, Hr, Hg⟩, Ho, ⟨%d0, H0⟩, ⟨%d1, H1⟩⟩
    iapply (runC c (grid0.coords t) _ _ _ _ _ _ (fun h => h0 ((hcnd0 t).mp h)) ((hcnd1 t).mpr h3) (iblk0 V c 0 t) _ _ Set.univ _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    iexact H1
  · rw [Dat.leavesExact_idle (dat0 V c) 1 t (idle0_1 t h3) (noflush0_1 t h3)]
    by_cases h0 : t.val % 4 = 0
    · rw [acc0_first V c t h0]
      by_cases hz : t.val = 0
      · rw [PhiS0_zero V c _ _ hz, PhiA0_eq]
        iintro ⟨⟨⟨⟨%ds, HS⟩, Hr⟩, Hg⟩, Ho, ⟨%d0, H0⟩, H1⟩
        iapply (runA c (grid0.coords t) _ _ (ms1 t) (hs1 t) _ _ ((hcnd0 t).mpr h0) (fun h => h3 ((hcnd1 t).mp h)) (iblk0 V c 0 t) ds Set.univ _)
        isplitl [H0]; · iexact H0
        isplitl [HS]; · iexact HS
        iintro ⟨H0, HS⟩
        isplitl [HS Hr Hg]
        · isplitl [HS]; · iexact HS
          isplitl [Hr]; · iexact Hr
          iexact Hg
        isplitl [Ho]; · iexact Ho
        isplitl [H0]; · iexact H0
        iexact H1
      · rw [PhiS0_pos V c _ _ hz]
        iintro ⟨⟨HS, Hr, Hg⟩, Ho, ⟨%d0, H0⟩, H1⟩
        iapply (runA c (grid0.coords t) _ _ (ms1 t) (hs1 t) _ _ ((hcnd0 t).mpr h0) (fun h => h3 ((hcnd1 t).mp h)) (iblk0 V c 0 t) _ Set.univ _)
        isplitl [H0]; · iexact H0
        isplitl [HS]; · iexact HS
        iintro ⟨H0, HS⟩
        isplitl [HS Hr Hg]
        · isplitl [HS]; · iexact HS
          isplitl [Hr]; · iexact Hr
          iexact Hg
        isplitl [Ho]; · iexact Ho
        isplitl [H0]; · iexact H0
        iexact H1
    · have hz : t.val ≠ 0 := fun e => h0 (by rw [e])
      rw [acc0_next V c t h0, PhiS0_pos V c _ _ hz]
      iintro ⟨⟨HS, Hr, Hg⟩, Ho, ⟨%d0, H0⟩, H1⟩
      iapply (runB c (grid0.coords t) _ _ (ms1 t) (hs1 t) _ _ (fun h => h0 ((hcnd0 t).mp h)) (fun h => h3 ((hcnd1 t).mp h)) (iblk0 V c 0 t) _ Set.univ _)
      isplitl [H0]; · iexact H0
      isplitl [HS]; · iexact HS
      iintro ⟨H0, HS⟩
      isplitl [HS Hr Hg]
      · isplitl [HS]; · iexact HS
        isplitl [Hr]; · iexact Hr
        iexact Hg
      isplitl [Ho]; · iexact Ho
      isplitl [H0]; · iexact H0
      iexact H1

end R0Body

open R0Body

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's: every scoped buffer at anything, the generator register. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨HS, Hr, Hg⟩
  isplitl [HS Hr]
  · isplitl [HS]; · iexists _; iexact HS
    iexact Hr
  iexact Hg

end Cert.KernelIdeal.Hand

end
-- ==== Proof.KI.R1Defs.lean ====
/-
  Region 1 (the aggregation kernel, grid 8 × 8, point t = 8·i + j): the definitions every later module is stated over.
  Row block i of the adjacency matrix meets row block j of the scaled features Y in a 1024 × 1024 by 1024 × 256
  product; the scratch block holds the running sum, started at j = 0 from twice row block i of Y; at j = 7
  the scratch is scaled row by row, multiplied by the transposed weights, the bias added and the result
  clamped at zero into the output block.
-/
import proofs.«108451_j9534827397796_1_alg».proof.Proof.KI.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The buffers' contents when the region is entered.
variable (V : (c : Dev nD) → (b : Ref sig .tc) → Buf (Elt F) ((c : Thread nD τ).loc b))

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch block after the body at position `n`: the point's product added to twice the row block of Y
    (at the first column block of a row block, n ≡ 0 mod 8) or to what the point before left. -/
def acc1 (c : Dev nD) : (n : ℕ) → n < cfg1.N → Vec F S1024x256 .f32
  | 0, hn => k1_pay2 (iblk1 V c 0 ⟨0, hn⟩) (iblk1 V c 1 ⟨0, hn⟩) (k1_pay1 (iblk1 V c 2 ⟨0, hn⟩))
  | n + 1, hn => k1_pay2 (iblk1 V c 0 ⟨n + 1, hn⟩) (iblk1 V c 1 ⟨n + 1, hn⟩)
      (if (n + 1) % 8 = 0 then k1_pay1 (iblk1 V c 2 ⟨n + 1, hn⟩) else acc1 c n (Nat.lt_of_succ_lt hn))

/-- What the body stores into the output block at the last column block of a row block (elsewhere the
    window is idle and this term is consulted by nothing). -/
def out1 (c : Dev nD) (t : Fin cfg1.N) : Vec F S1024x256 .f32 :=
  k1_pay3 (acc1 V c t.val t.isLt) (iblk1 V c 3 t) (iblk1 V c 4 t) (iblk1 V c 5 t)

/-- The scratch of region 1 as a whole memref. -/
abbrev scM1 : Memref sig .tc .vmem S1024x256 .f32 := Memref.whole cc1_scratch0

/-- The scoped buffers region 1 neither stages nor carries: the other region's staging buffers and scratch. -/
def rest1 (c : Dev nD) : sProp 𝕄 :=
  iprop(exBuf (F := F) c cc0_stg0_0 ∗ exBuf (F := F) c cc0_stg0_1 ∗ exBuf (F := F) c cc0_stg1_0 ∗ exBuf (F := F) c cc0_stg1_1 ∗ exBuf (F := F) c cc0_scratch0)

/-- The region invariant before position `n`: before the first point every scoped buffer at anything;
    afterwards the scratch at the running sum, the other scoped buffers at anything, the generator
    register at some state. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

/-- Region 1's proof data on core `c`: the two windows on the scaled features' array hold it at the two halves
    of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]

end Cert.KernelIdeal.Hand

end
-- ==== Proof.KI.RunDefs.lean ====
/-
  The buffers' contents at each boundary of @main — launch, after region 0, after the host stretch (region 1's
  entry), after region 1 — and every pipeline's proof data at its region's entry contents.
-/
import proofs.«108451_j9534827397796_1_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch: region 0's entry (no host operation precedes it). -/
abbrev W0 (c : Dev nD) : Valuation τ sig (Elt F) := fun b => m (c, b)
/-- The same read at the TensorCore's references: what region 0's proof data take. -/
abbrev E0 : (c : Dev nD) → (b : Ref sig .tc) → Buf (Elt F) ((c : Thread nD τ).loc b) := fun c b => W0 m c b
/-- After region 0: its output array at what its write-backs leave, every other buffer as launched. -/
def W1 (c : Dev nD) : Valuation τ sig (Elt F) :=
  Function.update (W0 m c) main_v0 ((dat0 (E0 m) c).arrAt 1 cfg0.N)
/-- After the host stretch: region 1's entry. -/
abbrev W2 (c : Dev nD) : Valuation τ sig (Elt F) := StableHlo.after hostOps1 (W1 m c)
/-- The same read at the TensorCore's references: what region 1's proof data take. -/
abbrev E2 : (c : Dev nD) → (b : Ref sig .tc) → Buf (Elt F) ((c : Thread nD τ).loc b) := fun c b => W2 m c b
/-- After region 1: its output array at what its write-backs leave, every other buffer as entered. -/
def W3 (c : Dev nD) : Valuation τ sig (Elt F) :=
  Function.update (W2 m c) main_v5 ((dat1 (E2 m) c).arrAt 6 cfg1.N)

/-- The prefetched tables' admissible contents: no pipeline has a table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c

/-- No body calls a labelled function: no variants. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item of @main: the core's generator register at some state and its
    debts, none. -/
abbrev R (c : Dev nD) : sProp 𝕄 := iprop((∃ r, prngReg c r) ∗ ∃ W, owes (c : Thread nD τ) (0 : CellTallies nD τ sig Unit) W)
/-- The thread state between two items of @main: every unscoped buffer of core `c` at the boundary's contents, beside `R`. -/
abbrev T (Wk : Dev nD → Valuation τ sig (Elt F)) (c : Dev nD) : sProp 𝕄 :=
  iprop(StableHlo.held (c : Thread nD τ) (Pipeline.ucRefs τ sig) (Wk c) ∗ R (F := F) c)

theorem W1_main_v0 (c : Dev nD) : W1 m c main_v0 = (dat0 (E0 m) c).arrAt 1 cfg0.N := by
  unfold W1; exact Function.update_self ..
theorem W3_main_v5 (c : Dev nD) : W3 m c main_v5 = (dat1 (E2 m) c).arrAt 6 cfg1.N := by
  unfold W3; exact Function.update_self ..

end Cert.KernelIdeal.Hand

end
-- ==== Proof.KI.Reg0.lean ====
/-
  Region 0 of @main as a segment of the run: entered with every unscoped buffer at the fold's contents before it,
  left with them at the fold's contents after it.
-/
import proofs.«108451_j9534827397796_1_alg».proof.Proof.KI.R0Body
import proofs.«108451_j9534827397796_1_alg».proof.Proof.KI.RunDefs
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At region 0's exit each of its arrays holds what the pipeline leaves: the input array was never written
    back and the fold leaves it as launched; the output array is the fold's new entry. -/
private theorem hF0 (c : Dev nD) (w : Fin cfg0.W) :
    (dat0 (E0 m) c).arrAt w cfg0.N = (fun b : Ref sig .tc => W1 m c b) (Pipeline.arrRef spec0 w) := by
  match w with
  | ⟨0, _⟩ =>
    refine ((dat0 (E0 m) c).arrAt_in 0 rfl _).trans ?_
    refine (A_eq0 (E0 m) c 0).trans ?_
    unfold W1
    exact (Function.update_of_ne (show (Proc.devRef .tc (Pipeline.arrRef spec0 0) : DevRef τ sig) ≠ main_v0 by decide) _ _).symm
  | ⟨1, _⟩ => exact (W1_main_v0 m c).symm

/-- Every buffer that is no array of region 0 is after it as it was before it. -/
private theorem hrest0 (c : Dev nD) : ∀ b : Ref sig .tc, b ∉ Finset.univ.image (Pipeline.arrRef spec0) →
    (fun b : Ref sig .tc => W1 m c b) b = (fun b : Ref sig .tc => W0 m c b) b := by
  intro b hb
  have hne : (Proc.devRef .tc b : DevRef τ sig) ≠ main_v0 := by
    intro e
    refine hb (Finset.mem_image.mpr ⟨1, Finset.mem_univ _, ?_⟩)
    exact (Proc.devRef_injective _ e).symm
  show W1 m c b = W0 m c b
  unfold W1
  exact Function.update_of_ne hne _ _

set_option backward.isDefEq.respectTransparency.types false in
/-- Region 0 over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := T (W0 m) c
  post c := T (W1 m) c
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (c : Dev nD) : (reg0 m).pre c = T (F := F) (W0 m) c := rfl
theorem reg0_post (c : Dev nD) : (reg0 m).post c = T (F := F) (W1 m) c := rfl

end Cert.KernelIdeal.Hand

end
-- ==== Proof.KI.R1Body.lean ====
/-
  Region 1's body obligation: at every grid point the aggregation kernel's body, handed its six input blocks in
  their staging buffers and the scratch block at the running sum, runs to the scratch at the next running sum
  and — at the last column block of a row block — the output's staging buffer at the clamped affine image of the
  row-scaled sum; and the region invariant's two ends.
-/
import proofs.«108451_j9534827397796_1_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer accesses: a load of the whole of a whole memref reads its contents, a store of the whole leaves its payload -/

/-- A unit-stride rectangle at offset zero over all of the shape places each index at itself. -/
private theorem idx_unit_zero {s : Shape} (off : Fin s.rank → ℕ) (h0 : ∀ a, off a = 0) (inb : ∀ a, off a + s.size a ≤ s.size a)
    (j : (Rect.unit (s := s) off s.size inb).toLoadRect.shape.Idx) :
    (Rect.unit (s := s) off s.size inb).toLoadRect.idx j = j := by
  funext a; apply Fin.ext; show off a + 1 * (j a : ℕ) = j a; rw [h0 a]; omega

/-- A load of the whole of a whole memref held at the raw contents that read `X` reads `X`. -/
private theorem readAt_unread_whole {κ : Kind} {sp : Space} {s : Shape} {e : EltTy} {m : Memref sig κ sp s e} (h : m.IsWhole)
    (X : s.Idx → Elt F e) (off : Fin s.rank → ℕ) (h0 : ∀ a, off a = 0) (inb : ∀ a, off a + s.size a ≤ s.size a) :
    View.readAt (Elt F) m.view (Rect.unit (s := s) off s.size inb).toLoadRect (h.unread X) = X := by
  funext x
  exact (congrFun (h.read_unread X) _).trans (congrArg X (idx_unit_zero off h0 inb x))

/-- After a last write through the whole shape a view reads that write's payload, whatever was there before. -/
private theorem read_writes_unit_whole {κ : Kind} {sp : Space} {s : Shape} {e : EltTy} (v : View sig κ sp s e) (f : v.ty.Contents (Elt F))
    (off : Fin s.rank → ℕ) (h0 : ∀ a, off a = 0) (inb : ∀ a, off a + s.size a ≤ s.size a) (w : s.Idx → Elt F e)
    (L : List (View.Piece (Elt F) s e)) :
    v.read (Elt F) (v.writes (Elt F) f (⟨Rect.unit (s := s) off s.size inb, w⟩ :: L)) = w := by
  funext y
  have h := View.read_writes_cons_emb v f (Rect.unit (s := s) off s.size inb) w L y
  have e : (Rect.unit (s := s) off s.size inb).emb y = y := idx_unit_zero off h0 inb y
  rwa [e] at h

private theorem z2 : ∀ a : Fin 2, (![0, 0] : Fin 2 → ℕ) a = 0 := by decide

/-! ## The body's two conditions, in closed form over the grid -/

/-- The first conditional's condition (the column-block coordinate is zero), from the grid coordinates. -/
abbrev cond1_0 (i : grid1.Coords) : Prop := (Scalar.cmpi .ne (Scalar.extui (Scalar.cmpi .eq (BitVec.ofNat 32 (i 1).val) 0#32)) 0#32) = 1#1
/-- The second conditional's condition (the column-block coordinate is seven). -/
abbrev cond1_1 (i : grid1.Coords) : Prop := k1_cond2 i = 1#1

/-- The first holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The second holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The six inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Away from the last column block of a row block the output is idle: the body stores nothing into it there, -/
theorem idleAt1_6 : ∀ t : Fin cfg1.N, ¬cond1_1 (grid1.coords t) → cfg1.idle 6 (grid1.coords t) = true := by decide +kernel
/-- and its block is not written back there; -/
theorem noFlush1_6 (t : Fin cfg1.N) (h : ¬cond1_1 (grid1.coords t)) : (cfg1.win 6).flush t = false :=
  Bool.eq_false_iff.mpr fun hf => h ((hcond1_1 t).mpr ((flush1_6 t).mp hf))
/-- at the last column block it is live. -/
theorem liveAt1_6 : ∀ t : Fin cfg1.N, cond1_1 (grid1.coords t) → cfg1.idle 6 (grid1.coords t) = false := by decide +kernel

/-! ## What the body finds in the inputs' buffers -/

/-- Each input's current staging buffer holds its block at every point, fetched there or not: an input not fetched
    at a point has the block index it had at the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The running sum, point by point -/

/-- At the first column block of a row block the running sum starts from twice the row block of Y. -/
theorem acc1_A (c : Dev nD) (t : Fin cfg1.N) (h0 : t.val % 8 = 0) :
    acc1 V c t.val t.isLt = k1_pay2 (iblk1 V c 0 t) (iblk1 V c 1 t) (k1_pay1 (iblk1 V c 2 t)) := by
  obtain ⟨n, hn⟩ := t
  cases n with
  | zero => rfl
  | succ n => exact congrArg (k1_pay2 _ _) (if_pos h0)

/-- At every other column block it continues from what the point before left. -/
theorem acc1_B (c : Dev nD) (t : Fin cfg1.N) (h0 : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact congrArg (k1_pay2 _ _) (if_neg h0)

/-! ## The region invariant, opened -/

theorem PhiS1_zero (c : Dev nD) (n : ℕ) (h : n ≤ cfg1.N) (hz : n = 0) : PhiS1 V c n h = Pipeline.ΦA spec1 c := by
  subst hz; rfl

/-- After point `n`: the scratch at that point's running sum. -/
theorem PhiS1_succ (c : Dev nD) (n : ℕ) (hn : n < cfg1.N) :
    PhiS1 V c (n + 1) hn = iprop(owns (c : Thread nD τ) scM1 fullShare (acc1 V c n hn) ∗ rest1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1 fullShare (acc1 V c (n - 1) (by omega)) ∗ rest1 (F := F) c ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- The class's invariant is the scratch at anything, the other five scoped buffers at anything, the generator register:
    the scoped rest's six buffers regrouped, the scratch (the last of them) first. -/
theorem PhiA1_open (c : Dev nD) :
    (Pipeline.ΦA spec1 c : sProp 𝕄) ⊢ iprop((∃ d, owns (c : Thread nD τ) scM1 fullShare d) ∗ rest1 (F := F) c ∗ (∃ r, prngReg c r)) := by
  unfold Pipeline.ΦA rest1; rw [scopedRest1_eq]
  simp only [scM1, owns_whole]
  iintro ⟨⟨Ha, Hb, Hc, Hd, He, HS⟩, Hg⟩
  isplitl [HS]; · iexact HS
  isplitl [Ha Hb Hc Hd He]
  · isplitl [Ha]; · iexact Ha
    isplitl [Hb]; · iexact Hb
    isplitl [Hc]; · iexact Hc
    isplitl [Hd]; · iexact Hd
    iexact He
  iexact Hg

theorem PhiA1_close (c : Dev nD) :
    iprop((∃ d, owns (c : Thread nD τ) scM1 fullShare d) ∗ rest1 (F := F) c ∗ (∃ r, prngReg c r)) ⊢ (Pipeline.ΦA spec1 c : sProp 𝕄) := by
  unfold Pipeline.ΦA rest1; rw [scopedRest1_eq]
  simp only [scM1, owns_whole]
  iintro ⟨HS, ⟨Ha, Hb, Hc, Hd, He⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexact HS
  iexact Hg

/-- At any position the invariant gives the scratch at SOME contents beside the rest: what the class's invariant says. -/
theorem PhiS1_any (c : Dev nD) (n : ℕ) (h : n ≤ cfg1.N) :
    PhiS1 V c n h ⊢ iprop((∃ d, owns (c : Thread nD τ) scM1 fullShare d) ∗ rest1 (F := F) c ∗ (∃ r, prngReg c r)) := by
  cases n with
  | zero => exact PhiA1_open c
  | succ n =>
    rw [PhiS1_succ]
    iintro ⟨HS, Hr⟩
    isplitl [HS]; · iexists _; iexact HS
    iexact Hr

/-! ## The kernel body on any whole staging memrefs, case by case

The body's loads and stores are all of whole buffers, so a load reads the buffer's contents and a store leaves its
payload. Each case's triple holds only the buffers the body touches in that case. -/

set_option maxHeartbeats 1000000 in
/-- At a point with the first condition and not the second: the scratch, found at anything, is first set to twice
    the row block of Y and then left at the product of the two blocks added to that. The blocks the body does not
    touch there (the row scales, the weights, the bias, the output's) are not part of the triple. -/
theorem run1_A (c : Dev nD) (E : Set ℕ) (i : grid1.Coords)
    (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (hc0 : cond1_0 i) (hc1 : ¬cond1_1 i)
    (x0 : Vec F S1024x1024 .f32) (x1 : Vec F S1024x256 .f32) (x2 : Vec F S1024x256 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg9 fullShare (k1_pay2 x0 x1 (k1_pay1 x2))) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [read_writes_unit_whole _ _ _ z2, readAt_unread_whole harg2 _ _ z2, readAt_unread_whole harg3 _ _ z2]
  sl_unfold_run_names
  rw [View.readCov_cons_toLoadRect, readAt_unread_whole harg4 _ _ z2]

set_option maxHeartbeats 1000000 in
/-- At a point with neither condition: the scratch, found at `xs`, is left at the product of the two blocks added to `xs`. -/
theorem run1_B (c : Dev nD) (E : Set ℕ) (i : grid1.Coords)
    (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (hc0 : ¬cond1_0 i) (hc1 : ¬cond1_1 i)
    (x0 : Vec F S1024x1024 .f32) (x1 : Vec F S1024x256 .f32) (xs : Vec F S1024x256 .f32) (K : PUnit → sProp 𝕄) :
    iprop(owns (c : Thread nD τ) arg2 fullShare x0 ∗ owns (c : Thread nD τ) arg3 fullShare x1 ∗ owns (c : Thread nD τ) arg9 fullShare xs
        ∗ (iprop(owns (c : Thread nD τ) arg2 fullShare x0 ∗ owns (c : Thread nD τ) arg3 fullShare x1 ∗ owns (c : Thread nD τ) arg9 fullShare (k1_pay2 x0 x1 xs)) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [read_writes_unit_whole _ _ _ z2, readAt_unread_whole harg2 _ _ z2, readAt_unread_whole harg3 _ _ z2, readAt_unread_whole harg9 _ _ z2]

set_option maxHeartbeats 1000000 in
/-- At a point with the second condition and not the first: the scratch, found at `xs`, is left at the product of the
    two blocks added to `xs`, and the output's buffer, found at anything, at the clamped affine image of that sum
    scaled row by row. -/
theorem run1_C (c : Dev nD) (E : Set ℕ) (i : grid1.Coords)
    (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x256 .f32) (harg9 : arg9.IsWhole)
    (hc0 : ¬cond1_0 i) (hc1 : cond1_1 i)
    (x0 : Vec F S1024x1024 .f32) (x1 : Vec F S1024x256 .f32) (x3 : Vec F S1024x1 .f32) (x4 : Vec F S256x256 .f32) (x5 : Vec F S1x256 .f32) (xs : Vec F S1024x256 .f32) (K : PUnit → sProp 𝕄) :
    iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare (k1_pay3 (k1_pay2 x0 x1 xs) x3 x4 x5) ∗ owns (c : Thread nD τ) arg9 fullShare (k1_pay2 x0 x1 xs)) -∗ K ⟨⟩))
      ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f0, %hf0, H0⟩, ⟨%f1, %hf1, H1⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg5.eq_unread hf3; obtain rfl := harg6.eq_unread hf4; obtain rfl := harg7.eq_unread hf5; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [read_writes_unit_whole _ _ _ z2, readAt_unread_whole harg5 _ _ z2, readAt_unread_whole harg6 _ _ z2, readAt_unread_whole harg7 _ _ z2]
    sl_unfold_run_names
    rw [View.readCov_cons_toLoadRect, readAt_unread_whole harg2 _ _ z2, readAt_unread_whole harg3 _ _ z2, readAt_unread_whole harg9 _ _ z2]
  iexists _; isplitr
  swap; · iexact HS
  ipureintro
  sl_unfold_run_names
  rw [read_writes_unit_whole _ _ _ z2, readAt_unread_whole harg2 _ _ z2, readAt_unread_whole harg3 _ _ z2, readAt_unread_whole harg9 _ _ z2]

/-! ## The body obligation, at a generic point -/

/-- Each window's current staging memref at point `t`, spelled as the pipeline passes it, -/
abbrev ms1_0 (t : Fin cfg1.N) := win1_0.stage (cfg1.slots t 0)
abbrev ms1_1 (t : Fin cfg1.N) := win1_1.stage (cfg1.slots t 1)
abbrev ms1_2 (t : Fin cfg1.N) := win1_2.stage (cfg1.slots t 2)
abbrev ms1_3 (t : Fin cfg1.N) := win1_3.stage (cfg1.slots t 3)
abbrev ms1_4 (t : Fin cfg1.N) := win1_4.stage (cfg1.slots t 4)
abbrev ms1_5 (t : Fin cfg1.N) := win1_5.stage (cfg1.slots t 5)
abbrev ms1_6 (t : Fin cfg1.N) := win1_6.stage (cfg1.slots t 6)

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- An input's buffer is handed back at its block: the window is live everywhere. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (ms1_5 t) fullShare (iblk1 V c 5 t) := by
  unfold Dat.leavesExact; rw [liveAt1_5 t, after1_5]

set_option maxHeartbeats 4800000 in
/-- The body at any point. The inputs' memrefs hold their blocks; the point's position mod 8 says which of the three
    cases it is in. At the first column block of a row block the invariant hands the scratch at some contents (before
    the first point of all: the class's invariant; later: the previous row block's finished sum, no longer needed)
    and takes it back at the fresh running sum; elsewhere it hands the scratch at what the point before left and
    takes it back with this point's product added. The output's buffer is handed back untouched except at the last
    column block, where it holds the point's output block. The other scoped buffers, the generator register and the
    core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5]
  rw [PhiS1_castSucc V c t]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 6 t (idleAt1_6 t hc1) (noFlush1_6 t hc1)]
    rw [acc1_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (PhiS1_any V c t.val (Nat.le_of_lt t.isLt)) $$ HΦ
    icases HΦ' with ⟨HS, Hr, Hg⟩
    iapply (run1_A c Set.univ (grid1.coords t) _ _ _ _ _ _ _ _ _ _ _ _ _ _ _ _ hc0 hc1 (iblk1 V c 0 t) (iblk1 V c 1 t) (iblk1 V c 2 t) _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := fun e => h0 (by rw [e])
    have hc0 : ¬cond1_0 (grid1.coords t) := fun h => h0 ((hcond1_0 t).mp h)
    rw [PhiS1_pos V c _ _ hz, acc1_B V c t h0]
    by_cases h1 : t.val % 8 = 7
    · have hc1 : cond1_1 (grid1.coords t) := (hcond1_1 t).mpr h1
      rw [show (dat1 V c).leavesExact 6 t = owns (c : Thread nD τ) (ms1_6 t) fullShare ((dat1 V c).after 6 t) from by
        unfold Dat.leavesExact; rw [liveAt1_6 t hc1], after1_6]
      unfold out1
      rw [acc1_B V c t h0]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run1_C c Set.univ (grid1.coords t) _ _ _ _ _ _ _ _ _ _ _ _ _ _ _ _ hc0 hc1 (iblk1 V c 0 t) (iblk1 V c 1 t) (iblk1 V c 3 t) (iblk1 V c 4 t) (iblk1 V c 5 t) _ _)
      isplitl [H0]; · iexact H0
      isplitl [H1]; · iexact H1
      isplitl [H3]; · iexact H3
      isplitl [H4]; · iexact H4
      isplitl [H5]; · iexact H5
      isplitl [H6]; · iexists _; iexact H6
      isplitl [HS]; · iexact HS
      iintro ⟨H0, H1, H3, H4, H5, H6, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 6 t (idleAt1_6 t hc1) (noFlush1_6 t hc1)]
      iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩⟩
      iapply (run1_B c Set.univ (grid1.coords t) _ _ _ _ _ _ _ _ _ _ _ _ _ _ _ _ hc0 hc1 (iblk1 V c 0 t) (iblk1 V c 1 t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's: every scoped buffer at anything, the generator register. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the class's back: the scratch's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl]
  exact (PhiS1_any V c _ _).trans (PhiA1_close c)

end Cert.KernelIdeal.Hand

end
-- ==== Proof.KI.Reg1.lean ====
/-
  Region 1 of @main as a segment of the run: entered with every unscoped buffer at the fold's contents before it,
  left with them at the fold's contents after it; its two windows on the scaled
  features' array each take half of that array's share at entry and hand it back at exit.
-/
import proofs.«108451_j9534827397796_1_alg».proof.Proof.KI.R1Body
import proofs.«108451_j9534827397796_1_alg».proof.Proof.KI.RunDefs
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 1's arrays, one by one. -/
private theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_v2) ↦{fullShare} V' main_v2)
          ∗ (((c : Thread nD τ).loc main_v0) ↦{fullShare} V' main_v0) ∗ (((c : Thread nD τ).loc main_v3) ↦{fullShare} V' main_v3)
          ∗ (((c : Thread nD τ).loc main_v4) ↦{fullShare} V' main_v4) ∗ (((c : Thread nD τ).loc main_v5) ↦{fullShare} V' main_v5)) := by
  unfold Pipeline.arrBufs
  exact bigSep_eq_bigSepL_of_eq [main_arg1, main_v2, main_v0, main_v3, main_v4, main_v5] (by decide) (by decide) _

/-- Region 1's arrays one by one: each a whole buffer, at its window's share. -/
private theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_v2) ↦{fullShare.left} G 1)
          ∗ (((c : Thread nD τ).loc main_v2) ↦{fullShare.right} G 2) ∗ (((c : Thread nD τ).loc main_v0) ↦{fullShare} G 3)
          ∗ (((c : Thread nD τ).loc main_v3) ↦{fullShare} G 4) ∗ (((c : Thread nD τ).loc main_v4) ↦{fullShare} G 5)
          ∗ (((c : Thread nD τ).loc main_v5) ↦{fullShare} G 6)) := by
  unfold Dat.arrays
  rw [show (bigSep Finset.univ fun w : Fin cfg1.W => ((cfg1.win w).arr.view.loc (c : Thread nD τ) ↦[(cfg1.win w).arr.view.set]{(dat1 V c).share w} G w : sProp 𝕄))
        = bigSep Finset.univ fun w : Fin cfg1.W => ((cfg1.win w).arr.view.loc (c : Thread nD τ) ↦[Finset.univ]{(dat1 V c).share w} G w : sProp 𝕄)
      from bigSep_congr fun w _ => by rw [(arr_whole1 w).set_eq_univ]]
  rw [bigSep_W1]
  rfl

/-- The distinct buffers behind region 1's arrays, each whole at the full share at contents `V'`, are the region's arrays
    at contents `G` reading `V'` at each window's array: the scaled features' full share is dealt in halves to the two
    windows on that array. -/
private theorem arrays1_of_arrBufs (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (Pipeline.arrBufs (Ix := Unit) (Name := ℕ) (U := UR sig nD τ) (Lvl := ℕ) spec1 c V' : sProp 𝕄) ⊢ (dat1 V c).arrays G := by
  rw [arrays1_eq, arrBufs1_eq, hG 0, hG 1, hG 2, hG 3, hG 4, hG 5, hG 6]
  iintro ⟨H0, H12, H3, H4, H5, H6⟩
  ihave H12 := (pointsTo_share (PosShare.mem_left_op_right fullShare)).1 $$ H12
  icases H12 with ⟨H1, H2⟩
  isplitl [H0]; · iexact H0
  isplitl [H1]; · iexact H1
  isplitl [H2]; · iexact H2
  isplitl [H3]; · iexact H3
  isplitl [H4]; · iexact H4
  isplitl [H5]; · iexact H5
  iexact H6

/-- Conversely the region's arrays at contents `G` reading `V'` at each window's array are the distinct buffers behind
    them whole at the full share at `V'`: the two halves of the scaled features' share, at the same contents, join. -/
private theorem arrBufs_of_arrays1 (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    ((dat1 V c).arrays G : sProp 𝕄) ⊢ Pipeline.arrBufs (Ix := Unit) (Name := ℕ) (U := UR sig nD τ) (Lvl := ℕ) spec1 c V' := by
  rw [arrays1_eq, arrBufs1_eq, hG 0, hG 1, hG 2, hG 3, hG 4, hG 5, hG 6]
  iintro ⟨H0, H1, H2, H3, H4, H5, H6⟩
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  iexact H6

/-- A core's unscoped buffers at contents `V'` are the distinct buffers behind region 1's arrays and the rest. -/
private theorem unscopedBufs1_split (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec1 c V' ∗ Pipeline.unscopedRest spec1 c V') :=
  Pipeline.unscopedBufs_split₀ cfgs 1 winFacts₀1.arr_unscoped c V'

/-- ENTRY, the arrays' part: a core's unscoped buffers at the region's entry contents are the region's arrays at
    the proof data's entry contents, the two windows on the scaled features' array at half its share each, and the rest. -/
private theorem arrays_of_unscopedBufs1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [unscopedBufs1_split]
  exact sep_mono (arrays1_of_arrBufs V c (V c) _ fun w => A_eq1 V c w) .rfl

/-- EXIT, the arrays' part: the region's arrays at contents `G` and the unscoped rest at the entry contents are the
    core's unscoped buffers at any contents `V'` that have the arrays at `G` and agree with the entry contents off them. -/
private theorem unscopedBufs_of_arrays1 (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w))
    (hrest : ∀ b, b ∉ Finset.univ.image (Pipeline.arrRef spec1) → V' b = V c b) :
    iprop((dat1 V c).arrays G ∗ Pipeline.unscopedRest spec1 c (V c))
      ⊢ (unscopedBufs (Ix := Unit) (Name := ℕ) (U := UR sig nD τ) (Lvl := ℕ) c V' : sProp 𝕄) := by
  rw [unscopedBufs1_split]
  refine sep_mono (arrBufs_of_arrays1 V c V' G hG) (Entails.of_eq ?_)
  unfold Pipeline.unscopedRest
  exact bigSep_congr fun b hb => by rw [hrest b (Finset.mem_sdiff.mp hb).2]

variable (m : (ℓ : Loc nD τ sig) → Buf (Elt F) ℓ)

/-- Off its output array the contents after region 1 are those it was entered with. -/
private theorem W3_of_ne (c : Dev nD) (b : Ref sig .tc) (hne : b ≠ main_v5) : W3 m c b = W2 m c b := by
  unfold W3
  exact Function.update_of_ne (fun h => hne (Proc.devRef_injective _ h)) _ _

/-- An input window's array is never written: after the last point it holds what the region was entered with, which
    is also what the contents after the region have there. -/
private theorem arrAt_in1 (c : Dev nD) (w : Fin cfg1.W) (hin : (cfg1.win w).isOut = false) (hne : Pipeline.arrRef spec1 w ≠ main_v5) :
    (dat1 (E2 m) c).arrAt w cfg1.N = W3 m c (Pipeline.arrRef spec1 w) := by
  rw [Dat.arrAt_in _ w hin, A_eq1, W3_of_ne m c _ hne]

/-- Every array of region 1 after its last point is the contents after the region at that array. -/
private theorem hF1 (c : Dev nD) : ∀ w : Fin cfg1.W, (dat1 (E2 m) c).arrAt w cfg1.N = W3 m c (Pipeline.arrRef spec1 w)
  | 0 => arrAt_in1 m c 0 rfl (by decide)
  | 1 => arrAt_in1 m c 1 rfl (by decide)
  | 2 => arrAt_in1 m c 2 rfl (by decide)
  | 3 => arrAt_in1 m c 3 rfl (by decide)
  | 4 => arrAt_in1 m c 4 rfl (by decide)
  | 5 => arrAt_in1 m c 5 rfl (by decide)
  | 6 => (W3_main_v5 m c).symm
  | ⟨_ + 7, h⟩ => absurd h (Nat.not_lt.2 (Nat.le_add_left _ _))

/-- A buffer that is no array of region 1 holds after the region what it held at entry. -/
private theorem hrest1 (c : Dev nD) (b : Ref sig .tc) (hb : b ∉ Finset.univ.image (Pipeline.arrRef spec1)) : W3 m c b = E2 m c b :=
  W3_of_ne m c b fun h => hb (h ▸ (by decide : main_v5 ∈ Finset.univ.image (Pipeline.arrRef spec1)))

/-- ENTRY over the thread state: the unscoped buffers held at the entry contents give the region's arrays at the proof
    data's entry contents and the unscoped rest. -/
private theorem entry1 (c : Dev nD) :
    (StableHlo.held (c : Thread nD τ) (Pipeline.ucRefs τ sig) (W2 m c) : sProp 𝕄)
      ⊢ iprop((dat1 (E2 m) c).arrays ((dat1 (E2 m) c).arrAt · 0) ∗ Pipeline.unscopedRest spec1 c (E2 m c)) := by
  rw [← Pipeline.unscopedBufs_held]
  exact arrays_of_unscopedBufs1 (E2 m) c

/-- EXIT over the thread state: the region's arrays after the last point and the unscoped rest are the unscoped
    buffers held at the contents after the region. -/
private theorem exit1 (c : Dev nD) :
    iprop((dat1 (E2 m) c).arrays ((dat1 (E2 m) c).arrAt · cfg1.N) ∗ Pipeline.unscopedRest spec1 c (E2 m c))
      ⊢ (StableHlo.held (c : Thread nD τ) (Pipeline.ucRefs τ sig) (W3 m c) : sProp 𝕄) := by
  rw [← Pipeline.unscopedBufs_held]
  exact unscopedBufs_of_arrays1 (E2 m) c (fun b => W3 m c b) _ (hF1 m c) (hrest1 m c)

/-- Region 1 prefetches no table: its tables held at any shares are nothing. -/
private theorem prefHeld1_emp (c : Dev nD) (q) (pf) :
    (Pipeline.prefHeld (Ix := Unit) (Name := ℕ) (U := UR sig nD τ) (Lvl := ℕ) (pcfgs (F := F) 1).pre c q pf : sProp 𝕄) = BI.emp := by
  unfold Pipeline.prefHeld
  exact BI.bigSep_empty

/-- A core owing nothing owes the proof data's tallies at any point, within that point's bound: the data owe nothing
    anywhere and bound the recorded pairs by nothing. -/
private theorem owesAt1_of_owes (c : Dev nD) (t : Fin (cfg1.N + 1)) :
    (iprop(∃ W, owes (c : Thread nD τ) (0 : CellTallies nD τ sig Unit) W) : sProp 𝕄) ⊢ (dat1 V c).owesAt () t := by
  iintro ⟨%W, HO⟩
  iexists W
  isplitr
  · ipureintro; exact Set.subset_union_of_subset_left (Set.subset_univ _) _
  iexact HO

/-- and conversely. -/
private theorem owes_of_owesAt1 (c : Dev nD) (t : Fin (cfg1.N + 1)) :
    ((dat1 V c).owesAt () t : sProp 𝕄) ⊢ iprop(∃ W, owes (c : Thread nD τ) (0 : CellTallies nD τ sig Unit) W) := by
  iintro ⟨%W, -, HO⟩
  iexists W
  iexact HO

set_option backward.isDefEq.respectTransparency.types false in
/-- Region 1 over the thread state. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := T (W2 m) c
  post c := T (W3 m) c
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none, prefHeld1_emp, show pdats m 1 c = dat1 (E2 m) c from rfl]
    iintro ⟨⟨Hheld, Hprng, Howes⟩, -, -⟩
    imodintro
    ihave Hsplit := (entry1 m c) $$ Hheld
    icases Hsplit with ⟨Harr, Hrest⟩
    isplitl [Harr]; · iexact Harr
    isplitr; · iempintro
    isplitl [Howes]; · iapply (owesAt1_of_owes (E2 m) c 0); iexact Howes
    isplitl [Hprng]; · iexact Hprng
    iexact Hrest
  hin c := by
    rw [show pdats m 1 c = dat1 (E2 m) c from rfl]
    iintro ⟨Hprng, -, Hscoped⟩
    iapply (hin1 (E2 m) c)
    unfold Pipeline.ΦA
    isplitl [Hscoped]; · iexact Hscoped
    iexact Hprng
  hout c := by
    rw [Pipeline.ownSems0_none]
    refine (hout1 (E2 m) c).trans ?_
    unfold Pipeline.ΦA
    iintro ⟨Hscoped, Hprng⟩
    isplitl [Hprng]; · iexact Hprng
    isplitr; · iempintro
    iexact Hscoped
  hexit c := by
    rw [show pdats m 1 c = dat1 (E2 m) c from rfl]
    iintro ⟨Harr, Howes, Hprng, Hrest⟩
    imodintro
    isplitl [Harr Hrest]
    · iapply (exit1 m c); isplitl [Harr]; · iexact Harr
      iexact Hrest
    isplitl [Hprng]; · iexact Hprng
    iapply (owes_of_owesAt1 (E2 m) c (Fin.last cfg1.N)); iexact Howes

theorem reg1_pre (c : Dev nD) : (reg1 m).pre c = T (F := F) (W2 m) c := rfl
theorem reg1_post (c : Dev nD) : (reg1 m).post c = T (F := F) (W3 m) c := rfl

end Cert.KernelIdeal.Hand

end
-- ==== Proof.KI.Run.lean ====
/-
  The run of @main: region 0, the host stretch, region 1, from the launch memory to a final memory that holds,
  at every unscoped buffer, the fold `W3` — so every argument as launched and the result array at what region 1's
  write-backs leave.
-/
import proofs.«108451_j9534827397796_1_alg».proof.Proof.KI.Reg0
import proofs.«108451_j9534827397796_1_alg».proof.Proof.KI.Reg1
import proofs.«108451_j9534827397796_1_alg».proof.Proof.Gen.KernelIdeal.Regions
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item of @main leaves unchanged -/

/-- Region 0 changes its output array only. -/
private theorem W1_of (c : Dev nD) (r : Ref sig .tc) (h : r ≠ main_v0) : W1 m c r = W0 m c r := by
  unfold W1
  exact Function.update_of_ne (StableHlo.devRef_ne_of_ne h : (Proc.devRef .tc r : DevRef τ sig) ≠ Proc.devRef .tc main_v0) _ _
/-- The host stretch changes what its four operations write only. -/
private theorem W2_of (c : Dev nD) (r : Ref sig .tc) (h : r ∉ hostOps1_W) : W2 m c r = W1 m c r :=
  StableHlo.after_of_writes_sub hostOps1 _ hostOps1_writes h
/-- Region 1 changes its output array only. -/
private theorem W3_of (c : Dev nD) (r : Ref sig .tc) (h : r ≠ main_v5) : W3 m c r = W2 m c r := by
  unfold W3
  exact Function.update_of_ne (StableHlo.devRef_ne_of_ne h : (Proc.devRef .tc r : DevRef τ sig) ≠ Proc.devRef .tc main_v5) _ _
/-- A buffer that is neither region's output nor written by the host stretch ends as launched. -/
private theorem W3_launch (c : Dev nD) (r : Ref sig .tc) (h0 : r ≠ main_v0) (h1 : r ∉ hostOps1_W) (h5 : r ≠ main_v5) :
    W3 m c r = m ((c : Thread nD τ).loc r) :=
  (W3_of m c r h5).trans <| (W2_of m c r h1).trans <| (W1_of m c r h0).trans rfl

/-! ## @main as segments -/

/-- The host stretch as a segment: its four operations over the unscoped references from the contents region 0 leaves,
    the generator register and the debts riding along. -/
private abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

/-- @main's three segments in order. -/
private abbrev segs : List (Pipeline.Seg (pcfgs (F := F)) adm (pdats m) () defs₀ 𝒱₀ L lv) :=
  [ .region (reg0 m), .host (hseg1 m), .region (reg1 m) ]

/-- @main is the run of its segments. -/
private theorem main_run (c : Dev nD) : main (F := F) c = Pipeline.Seg.run (segs m) := (main_chain c).trans (by chain_rfl)

/-- An unscoped TensorCore reference is among those the thread state holds. -/
private theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at the fold's last contents, the generator register at some state. -/
private abbrev Tₙ (c : Dev nD) : sProp 𝕄 := iprop(StableHlo.held (c : Thread nD τ) (Pipeline.ucRefs τ sig) (W3 m c) ∗ ∃ r, prngReg c r)

set_option backward.isDefEq.respectTransparency.types false in
/-- THE RUN. Every weakly fair execution of @main from `m` with zero counters terminates, nothing faulting, and every
    unscoped buffer of every core ends at the fold's last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => T (W0 m) c) (Tₙ := Tₙ m)
    (hch := ⟨fun c => Entails.of_eq (reg0_pre m c).symm, fun c => Entails.of_eq (reg0_post m c),
      fun c => Entails.of_eq (reg1_pre m c).symm, fun c => (Entails.of_eq (reg1_post m c)).trans sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- No item of @main writes an argument: the fold at an argument's buffer is the launch memory. -/
theorem W3_main_arg0 (c : Dev nD) : W3 m c main_arg0 = m ((c : Thread nD τ).loc main_arg0) :=
  W3_launch m c main_arg0 (by decide) (by decide) (by decide)
theorem W3_main_arg1 (c : Dev nD) : W3 m c main_arg1 = m ((c : Thread nD τ).loc main_arg1) :=
  W3_launch m c main_arg1 (by decide) (by decide) (by decide)
theorem W3_main_arg2 (c : Dev nD) : W3 m c main_arg2 = m ((c : Thread nD τ).loc main_arg2) :=
  W3_launch m c main_arg2 (by decide) (by decide) (by decide)
theorem W3_main_arg3 (c : Dev nD) : W3 m c main_arg3 = m ((c : Thread nD τ).loc main_arg3) :=
  W3_launch m c main_arg3 (by decide) (by decide) (by decide)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

/-- The run with the result array named. -/
theorem run_value : θ_run defs (onTc (τ := τ) (main (F := F))) ⟨m, fun _ => 0, ρ⟩ (fun r => ∀ c : Dev nD,
      r.2.mem ((c.tc : Thread nD τ).loc main_v5) = W3 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v5 (by decide)),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_all m ρ)

end Cert.KernelIdeal.Hand

end
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.Spec.lean ====
/-
  The two closed forms the certificate meets at, over the extended reals, and the law between them.

  With d_i = Σ_k A_ik + 2 and s_i = d_i^(-1/2) the kernel computes, row block by row block,
      out_io = max (Σ_k ((2·s_i·X_ik + Σ_j A_ij·(s_j·X_jk))·s_i)·W_ok + b_o, 0),
  the reference, with δ the identity matrix and d'_i = Σ_k (A_ik + 2·δ_ik),
      out_io = max (Σ_k (Σ_j ((A_ij + 2·δ_ij)·s'_i·s'_j)·X_jk)·W_ok + b_o, 0).
  For finite entries and every d'_i positive all these numbers are real, d' = d, and the two sums agree by
  distributivity; at a row with d_i ≤ 0 the factor s_i is infinite and distributivity fails, which is why the
  positivity of the degrees is assumed.
-/
import Idealize.ShloMosaic.PureOps.Ideal
import Idealize.ShloMosaic.Lib.ValueIdx
import proofs.«108451_j9534827397796_1_alg».proof.Proof.LibCoe

noncomputable section

namespace Cert.Spec

open Idealize.ShloMosaic Idealize.ShloMosaic.ValueIdx

abbrev SA : Shape := ⟨2, ![8192, 8192]⟩
abbrev SX : Shape := ⟨2, ![8192, 256]⟩
abbrev SW : Shape := ⟨2, ![256, 256]⟩
abbrev Sb : Shape := ⟨1, ![256]⟩

variable (A : SA.Idx → EReal) (X : SX.Idx → EReal) (W : SW.Idx → EReal) (b : Sb.Idx → EReal)

/-- Row i's sum of the adjacency matrix. -/
def deg (i : Fin 8192) : EReal := ∑ k : Fin 8192, A (ix2 i k)
/-- The kernel's row scale: (row sum + 2)^(-1/2). -/
def dis (i : Fin 8192) : EReal := Ideal.rsqrt (deg A i + 2)
/-- The scaled features. -/
def yv (j : Fin 8192) (k : Fin 256) : EReal := dis A j * X (ix2 j k)
/-- The kernel's aggregate before its final row scaling. -/
def agg (i : Fin 8192) (k : Fin 256) : EReal := 2 * yv A X i k + ∑ j : Fin 8192, A (ix2 i j) * yv A X j k
/-- The kernel's result. -/
def outK : SX.Idx → EReal := fun idx =>
  max ((∑ k : Fin 256, (agg A X (idx 0) k * dis A (idx 0)) * W (ix2 (idx 1) k)) + b (ix1 (idx 1))) 0

/-- The identity matrix's entry. -/
def eye (i k : Fin 8192) : EReal := if i = k then 1 else 0
/-- Row i's sum of A + 2·I, as the reference computes the degree. -/
def degR (i : Fin 8192) : EReal := ∑ k : Fin 8192, (A (ix2 i k) + 2 * eye i k)
/-- The reference's row scale. -/
def disR (i : Fin 8192) : EReal := Ideal.rsqrt (degR A i)
/-- The reference's result. -/
def outR : SX.Idx → EReal := fun idx =>
  max ((∑ k : Fin 256, (∑ j : Fin 8192, ((A (ix2 (idx 0) j) + 2 * eye (idx 0) j) * disR A (idx 0) * disR A j) * X (ix2 j k)) * W (ix2 (idx 1) k)) + b (ix1 (idx 1))) 0

/-- An array whose entries are all real numbers. -/
def Finite {S : Shape} (f : S.Idx → EReal) : Prop := ∀ i, f i ≠ ⊤ ∧ f i ≠ ⊥

/-! ### The law, proved on real matrices

Every entry being real, all the numbers above are coercions of reals; the extended-real expressions are pushed,
operation by operation, to one coerced real on each side, and the two reals agree by distributivity. -/

/-- The extended-real numeral 2 is the coerced real 2. -/
private theorem two_coe : (2 : EReal) = ((2 : ℝ) : EReal) := rfl

/-- The identity matrix's entry is a coerced real. -/
private theorem eye_coe (i k : Fin 8192) : eye i k = (((if i = k then 1 else 0 : ℝ)) : EReal) := by
  unfold eye; split_ifs <;> simp

/-- The real identity behind the law: scaling the aggregate's row by s_i afterwards is scaling every entry of
    A + 2·I by s_i·s_j beforehand. -/
private theorem real_law (a : Fin 8192 → Fin 8192 → ℝ) (x : Fin 8192 → Fin 256 → ℝ) (s : Fin 8192 → ℝ)
    (i : Fin 8192) (k : Fin 256) :
    (2 * (s i * x i k) + ∑ j, a i j * (s j * x j k)) * s i
      = ∑ j, ((a i j + 2 * (if i = j then (1 : ℝ) else 0)) * s i * s j) * x j k := by
  have h : ∀ j, ((a i j + 2 * (if i = j then (1 : ℝ) else 0)) * s i * s j) * x j k
      = (a i j * (s j * x j k)) * s i + (if i = j then 2 * (s j * x j k) * s i else 0) := by
    intro j
    split_ifs with hij
    · subst hij; ring
    · ring
  rw [add_mul, Finset.sum_mul, Finset.sum_congr rfl (fun j _ => h j), Finset.sum_add_distrib,
    Finset.sum_ite_eq, if_pos (Finset.mem_univ _)]
  ring

section Coe

variable (a : Fin 8192 → Fin 8192 → ℝ) (x : Fin 8192 → Fin 256 → ℝ)
variable (hA' : ∀ i j, A (ix2 i j) = (a i j : EReal)) (hX' : ∀ j k, X (ix2 j k) = (x j k : EReal))
include hA'

/-- The reference's degree is the coerced real row sum plus 2: the identity's row sums to 1. -/
private theorem degR_coe (i : Fin 8192) : degR A i = (((∑ k, a i k) + 2 : ℝ) : EReal) := by
  unfold degR
  rw [Finset.sum_add_distrib]
  have h2 : ∑ k : Fin 8192, (2 : EReal) * eye i k = 2 := by
    unfold eye
    simp only [mul_ite, mul_one, mul_zero, Finset.sum_ite_eq, Finset.mem_univ, if_true]
  rw [h2, two_coe]
  simp only [hA']
  rw [Cert.LibCoe.sum_coe, EReal.coe_add]

/-- The kernel's degree plus 2 is the same coerced real. -/
private theorem deg_coe (i : Fin 8192) : deg A i + 2 = (((∑ k, a i k) + 2 : ℝ) : EReal) := by
  unfold deg
  simp only [hA']
  rw [Cert.LibCoe.sum_coe, two_coe, EReal.coe_add]

/-- With a positive degree the kernel's row scale is the coerced real (√d_i)⁻¹. -/
private theorem dis_coe (i : Fin 8192) (hpos : 0 < (∑ k, a i k) + 2) :
    dis A i = (((Real.sqrt ((∑ k, a i k) + 2))⁻¹ : ℝ) : EReal) := by
  unfold dis
  rw [deg_coe A a hA' i, Cert.LibCoe.rsqrt_coe_pos hpos]

/-- With a positive degree the reference's row scale is the same coerced real. -/
private theorem disR_coe (i : Fin 8192) (hpos : 0 < (∑ k, a i k) + 2) :
    disR A i = (((Real.sqrt ((∑ k, a i k) + 2))⁻¹ : ℝ) : EReal) := by
  unfold disR
  rw [degR_coe A a hA' i, Cert.LibCoe.rsqrt_coe_pos hpos]

include hX'

/-- The kernel's scaled aggregate is the reference's normalised row of A + 2·I applied to X. -/
private theorem agg_dis_eq (hpos : ∀ i, 0 < (∑ k, a i k) + 2) (i : Fin 8192) (k : Fin 256) :
    agg A X i k * dis A i
      = ∑ j : Fin 8192, ((A (ix2 i j) + 2 * eye i j) * disR A i * disR A j) * X (ix2 j k) := by
  unfold agg yv
  simp only [fun i => dis_coe A a hA' i (hpos i), fun i => disR_coe A a hA' i (hpos i), hA', hX', eye_coe,
    two_coe]
  simp only [← EReal.coe_mul, ← EReal.coe_add, Cert.LibCoe.sum_coe]
  exact congrArg _ (real_law a x (fun i => (Real.sqrt ((∑ k, a i k) + 2))⁻¹) i k)

end Coe

/-- THE LAW: for finite arguments and positive degrees the kernel's closed form is the reference's. -/
theorem outK_eq_outR (hA : Finite A) (hX : Finite X) (hW : Finite W) (hb : Finite b) (hd : ∀ i, 0 < degR A i) :
    outK A X W b = outR A X W b := by
  have hA' : ∀ i j, A (ix2 i j) = (((A (ix2 i j)).toReal : ℝ) : EReal) :=
    fun i j => (EReal.coe_toReal (hA _).1 (hA _).2).symm
  have hX' : ∀ j k, X (ix2 j k) = (((X (ix2 j k)).toReal : ℝ) : EReal) :=
    fun j k => (EReal.coe_toReal (hX _).1 (hX _).2).symm
  have hpos : ∀ i : Fin 8192, 0 < (∑ k, (A (ix2 i k)).toReal) + 2 := by
    intro i
    have h := hd i
    rw [degR_coe A _ hA' i] at h
    exact_mod_cast h
  funext idx
  unfold outK outR
  refine congrArg (fun t => max (t + b (ix1 (idx 1))) 0) (Finset.sum_congr rfl ?_)
  intro k _
  rw [agg_dis_eq A X _ _ hA' hX' hpos (idx 0) k]

end Cert.Spec

end
-- ==== Proof.Consts.lean ====
/-
  The two float literals of the two programs as extended reals: 0x00000000 is zero, 0x40000000 is two.
-/
import proofs.«108451_j9534827397796_1_alg».proof.Proof.LibCoe

noncomputable section

namespace Cert.Consts

open Idealize.ShloMosaic

theorem ofBits_two_real : Ideal.ofBits .f32 0x40000000#32 = ((2 : ℝ) : EReal) := by
  simp [Ideal.ofBits, Ideal.ieee, -EReal.coe_mul]; norm_num

theorem ofBits_two : Ideal.ofBits .f32 0x40000000#32 = (2 : EReal) := by
  rw [ofBits_two_real]; norm_cast

theorem ofBits_zero : Ideal.ofBits .f32 0x00000000#32 = (0 : EReal) := Ideal.ofBits_zero_f32

end Cert.Consts

end
-- ==== Proof.KI.Pay0.lean ====
/-
  The three stored values of the degree kernel's body, read at an index over the extended reals: the zero column;
  a column plus the lane sums of a block; rsqrt of a column plus two.
-/
import proofs.«108451_j9534827397796_1_alg».proof.Proof.Gen.KernelIdeal.Skeleton
import proofs.«108451_j9534827397796_1_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen

/-- An [a] array cast to [a, 1] reads, at (i, u), the operand at i, whatever the unit coordinate u: both
    positions are i in row-major order. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reset value of region 0's scratch is the zero column. -/
theorem k0_pay1_apply (p : Fin 1024) : k0_pay1 (F := Ideal) (ix2 p (0 : Fin 1)) = (0 : EReal) := by
  unfold k0_pay1
  rw [shapeCast_self]
  exact Cert.Consts.ofBits_zero

/-- One point of region 0: the column found plus the lane sums of the block. -/
theorem k0_pay2_apply (v3 : Vec Ideal S1024x1 .f32) (v4 : Vec Ideal S1024x2048 .f32) (p : Fin 1024) :
    k0_pay2 v3 v4 (ix2 p (0 : Fin 1)) = (v3 (ix2 p (0 : Fin 1)) : EReal) + ∑ q : Fin 2048, (v4 (ix2 p q) : EReal) := by
  unfold k0_pay2
  dsimp only
  rw [shapeCast_self]
  refine (addf_apply _ _ _).trans (congrArg (_ + ·) ?_)
  refine (shapeCast_a_a1_apply _ _ p 0).trans ?_
  refine (Ideal.multiReduction_add_single v4 _ _ _ _ (ix1 p)).trans ?_
  refine Finset.sum_congr rfl fun q _ => ?_
  exact congrArg v4 (funext fun a => Fin.ext (by match a with | ⟨0, _⟩ => rfl | ⟨1, _⟩ => rfl))

/-- Region 0's output: rsqrt of the finished row sum plus two. -/
theorem k0_pay3_apply (v : Vec Ideal S1024x1 .f32) (p : Fin 1024) :
    k0_pay3 v (ix2 p (0 : Fin 1)) = Ideal.rsqrt ((v (ix2 p (0 : Fin 1)) : EReal) + 2) := by
  unfold k0_pay3
  show Ideal.rsqrt ((v (ix2 p (0 : Fin 1)) : EReal) + Ideal.ofBits .f32 0x40000000#32) = _
  rw [Cert.Consts.ofBits_two]

end Cert.KernelIdeal.Hand

end
-- ==== Proof.KI.Cov0.lean ====
/-
  From blocks to the array, region 0: if at every point that writes the output block back (the last column block
  of row block i) the stored column is a function G read at rows 1024·i … 1024·i + 1023, the output array after
  the region is G: the eight row blocks tile the array and each is written once.
-/
import proofs.«108451_j9534827397796_1_alg».proof.Proof.KI.RunDefs
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- The output window's block index at point t, decided once over the grid: row block t / 4, column block 0. -/
private theorem idx_facts0 : ∀ t : Fin cfg0.N, win0_1.index t (0 : Fin 2) = t.val / 4 ∧ win0_1.index t (1 : Fin 2) = 0 :=
  (by decide +kernel : ∀ t : Fin grid0.N, win0_1.index t (0 : Fin 2) = t.val / 4 ∧ win0_1.index t (1 : Fin 2) = 0)

/-- An index of the array is in point t's block iff each coordinate is in the block's range on its axis. -/
private theorem mem_blk0 (t : Fin cfg0.N) (i : S8192x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v0).slice (win0_1.rect t)).set ↔ _
  rw [View.set_slice_whole, Rect.mem_set_unit]
  exact Iff.rfl

/-- The output array of region 0 from its flushed blocks. -/
theorem arrAt0_of_blocks (c : Dev nD) (G : S8192x1.Idx → EReal)
    (hblk : ∀ (t : Fin cfg0.N) (ht : t.val % 4 = 3) (p : Fin 1024),
      (out0 (E0 m) c t (ix2 p (0 : Fin 1)) : EReal) = G (ix2 (⟨1024 * (t.val / 4) + p.val, by have := t.isLt; have := p.isLt; have h : cfg0.N = 32 := N_0; omega⟩ : Fin 8192) (0 : Fin 1))) :
    (dat0 (E0 m) c).arrAt 1 cfg0.N = G := by
  have hN : cfg0.N = 32 := N_0
  refine (dat0 (E0 m) c).arrAt_eq_of_cover 1 G (fun t hf => ?_) (fun i => ?_)
  · -- what point t writes back is block t of G
    have ht : t.val % 4 = 3 := (flush0_1 t).mp hf
    have htl : t.val < 32 := Nat.lt_of_lt_of_eq t.isLt hN
    obtain ⟨e0, e1⟩ := idx_facts0 t
    show (cfg0.win 1).cut (grid0.coords t) ((dat0 (E0 m) c).after 1 t) = _
    rw [after0_1]
    funext j
    have hj0 : (j 0).val < 1024 := (j 0).isLt
    have hj1 : (j 1).val < 1 := (j 1).isLt
    show out0 (E0 m) c t ((cfg0.win 1).xinj (grid0.coords t) j) = G (((cfg0.win 1).blk t).view.emb j)
    have hx : (cfg0.win 1).xinj (grid0.coords t) j = ix2 (⟨(j 0).val, hj0⟩ : Fin 1024) (0 : Fin 1) := by
      funext a; apply Fin.ext
      match a with
      | ⟨0, _⟩ => rfl
      | ⟨1, _⟩ => show (j 1).val = 0; omega
    have hy : ((cfg0.win 1).blk t).view.emb j
        = ix2 (⟨1024 * (t.val / 4) + (j 0).val, by omega⟩ : Fin 8192) (0 : Fin 1) := by
      funext a; apply Fin.ext
      match a with
      | ⟨0, _⟩ => show win0_1.index t (0 : Fin 2) * 1024 + 1 * (j 0).val = 1024 * (t.val / 4) + (j 0).val; omega
      | ⟨1, _⟩ => show win0_1.index t (1 : Fin 2) * 1 + 1 * (j 1).val = 0; omega
    rw [hx, hy]
    exact hblk t ht ⟨(j 0).val, hj0⟩
  · -- row r lies in the block written back at the point 4·(r / 1024) + 3
    have hi0 : (i 0).val < 8192 := (i 0).isLt
    have hi1 : (i 1).val < 1 := (i 1).isLt
    let t : Fin cfg0.N := ⟨4 * ((i 0).val / 1024) + 3, by omega⟩
    have ht : t.val = 4 * ((i 0).val / 1024) + 3 := rfl
    obtain ⟨e0, e1⟩ := idx_facts0 t
    refine ⟨t, (flush0_1 t).mpr (by omega), ?_⟩
    rw [mem_blk0]
    intro a
    match a with
    | ⟨0, _⟩ => show win0_1.index t (0 : Fin 2) * 1024 ≤ (i 0).val ∧ (i 0).val < win0_1.index t (0 : Fin 2) * 1024 + 1024; omega
    | ⟨1, _⟩ => show win0_1.index t (1 : Fin 2) * 1 ≤ (i 1).val ∧ (i 1).val < win0_1.index t (1 : Fin 2) * 1 + 1; omega

end Cert.KernelIdeal.Hand

end
-- ==== Proof.KI.Blk0.lean ====
/-
  Splitting a sum over 8192 indices into four consecutive blocks of 2048: k = 2048·s + q.
  The pair (s, q) ↦ 2048·s + q is a bijection of Fin 4 × Fin 2048 onto Fin 8192, and a sum over pairs is the
  iterated sum; the addition need only be commutative and associative, which it is on the extended reals.
-/
import Mathlib.Data.EReal.Basic
import Mathlib.Logic.Equiv.Fin.Basic
import Mathlib.Data.Fintype.BigOperators
import Mathlib.Algebra.BigOperators.Group.Finset.Defs

noncomputable section

namespace Cert.KernelIdeal.Hand

/-- A sum over m·n indices is the iterated sum over m blocks of n consecutive indices, k = n·s + q. -/
theorem sum_split_blocks {M : Type*} [AddCommMonoid M] (m n : ℕ) (f : Fin (m * n) → M) :
    ∑ k : Fin (m * n), f k
      = ∑ s : Fin m, ∑ q : Fin n, f ⟨n * s.val + q.val, by
          have hs := s.isLt; have hq := q.isLt
          calc n * s.val + q.val < n * s.val + n := Nat.add_lt_add_left hq _
            _ = n * (s.val + 1) := (Nat.mul_succ _ _).symm
            _ ≤ n * m := Nat.mul_le_mul_left _ hs
            _ = m * n := Nat.mul_comm _ _⟩ := by
  rw [← (finProdFinEquiv (m := m) (n := n)).sum_comp f, Fintype.sum_prod_type]
  refine Finset.sum_congr rfl fun s _ => Finset.sum_congr rfl fun q _ => congrArg f (Fin.ext ?_)
  simp only [finProdFinEquiv_apply_val]
  exact Nat.add_comm _ _

/-- The row sum over 8192 columns is the sum of the four column blocks' sums: column k = 2048·s + q. -/
theorem sum_split4 (f : Fin 8192 → EReal) :
    ∑ k : Fin 8192, f k = ∑ s : Fin 4, ∑ q : Fin 2048, f ⟨2048 * s.val + q.val, by have := s.isLt; have := q.isLt; omega⟩ :=
  sum_split_blocks 4 2048 f

end Cert.KernelIdeal.Hand

end
-- ==== Proof.KI.Val0.lean ====
/-
  What region 0 leaves in its output array, at the extended reals: row r holds (Σ_k A_rk + 2)^(-1/2).
  Row block i is written back once, after its fourth column block; by then the scratch column holds
  0 + the four blocks' lane sums, which is the whole row's sum.
-/
import proofs.«108451_j9534827397796_1_alg».proof.Proof.KI.RunDefs
import proofs.«108451_j9534827397796_1_alg».proof.Proof.Spec
import proofs.«108451_j9534827397796_1_alg».proof.Proof.KI.Pay0
import proofs.«108451_j9534827397796_1_alg».proof.Proof.KI.Cov0
import proofs.«108451_j9534827397796_1_alg».proof.Proof.KI.Blk0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-! ## The input's blocks -/

/-- The adjacency matrix as launched on core c. -/
abbrev arrA (c : Dev nD) : Vec Ideal S8192x8192 .f32 := m ((c : Thread nD τ).loc main_arg1)

/-- Its block at point t, as region 0 reads it. -/
abbrev blkA (c : Dev nD) (t : Fin cfg0.N) : Vec Ideal S1024x2048 .f32 := iblk0 (E0 m) c 0 t

/-- The input's index map over the grid: its block index at point t is (t / 4, t % 4). -/
theorem idxA : ∀ t : Fin cfg0.N, win0_0.index t (0 : Fin 2) = t.val / 4 ∧ win0_0.index t (1 : Fin 2) = t.val % 4 :=
  (by decide +kernel : ∀ t : Fin grid0.N, _)

/-- Entry (p, q) of the block at point t is entry (1024·(t / 4) + p, 2048·(t % 4) + q) of the matrix. -/
theorem blkA_apply (c : Dev nD) (t : Fin cfg0.N) (p : Fin 1024) (q : Fin 2048)
    (r : Fin 8192) (k : Fin 8192) (hr : r.val = 1024 * (t.val / 4) + p.val) (hk : k.val = 2048 * (t.val % 4) + q.val) :
    blkA m c t (ix2 p q) = arrA m c (ix2 r k) := by
  obtain ⟨e0, e1⟩ := idxA t
  unfold blkA iblk0
  rw [View.read_apply]
  show E0 m c (Pipeline.arrRef spec0 0) _ = m ((c : Thread nD τ).loc main_arg1) _
  refine congrArg (m ((c : Thread nD τ).loc main_arg1)) (funext fun a => Fin.ext ?_)
  match a with
  | ⟨0, _⟩ => show win0_0.index t (0 : Fin 2) * 1024 + 1 * p.val = r.val; rw [e0, hr]; omega
  | ⟨1, _⟩ => show win0_0.index t (1 : Fin 2) * 2048 + 1 * q.val = k.val; rw [e1, hk]; omega

/-! ## The scratch column, point by point -/

/-- The lane sums of the block at point n, row by row (zero past the grid, where nothing consults it). -/
def laneSum (c : Dev nD) (n : ℕ) (i : S1024x1.Idx) : EReal :=
  if h : n < cfg0.N then ∑ q : Fin 2048, (blkA m c ⟨n, h⟩ (ix2 (i 0) q) : EReal) else 0

/-- Every index of a column is (p, 0). -/
theorem col_ix (i : S1024x1.Idx) : ∃ p : Fin 1024, i = ix2 p (0 : Fin 1) :=
  ⟨i 0, funext fun a => match a with
    | ⟨0, _⟩ => rfl
    | ⟨1, _⟩ => Fin.ext (by have h : (i 1).val < 1 := (i 1).isLt; show (i 1).val = 0; omega)⟩

/-- The scratch column after the body at point t = 4·i + j: zero plus the lane sums of row block i's column blocks
    0 … j. The column restarts from the zero column at j = 0 and takes one block's lane sums per point, so it is the
    fold over the run of points 4·i … 4·i + j, read row by row. -/
theorem acc0_apply (c : Dev nD) (t : ℕ) (ht : t < cfg0.N) (i : S1024x1.Idx) :
    (acc0 (E0 m) c t ht i : EReal) = 0 + ∑ s ∈ Finset.range (t % 4 + 1), laneSum m c (4 * (t / 4) + s) i := by
  have h' : 4 * (t / 4) + t % 4 < cfg0.N := by rw [Nat.div_add_mod]; exact ht
  have e := Pipeline.eq_accAt_of_mod (N := cfg0.N) (α := S1024x1.Idx → EReal) (fun n h => acc0 (E0 m) c n h) 4
    (fun n h => k0_pay2 (k0_pay1 (F := Ideal)) (blkA m c ⟨n, h⟩))
    (fun n h acc => k0_pay2 acc (blkA m c ⟨n, h⟩))
    (fun n h h0 => by
      cases n with
      | zero => rfl
      | succ n => exact (show k0_pay2 (if (n + 1) % 4 = 0 then k0_pay1 (F := Ideal) else acc0 (E0 m) c n (Nat.lt_of_succ_lt h)) (iblk0 (E0 m) c 0 ⟨n + 1, h⟩) = _ from by rw [if_pos h0]))
    (fun n h h0 => show k0_pay2 (if (n + 1) % 4 = 0 then k0_pay1 (F := Ideal) else acc0 (E0 m) c n (Nat.lt_of_succ_lt h)) (iblk0 (E0 m) c 0 ⟨n + 1, h⟩) = _ from by rw [if_neg h0])
    (by decide) t ht h'
  rw [e]
  refine Pipeline.accAt_add_apply (N := cfg0.N) (ι := S1024x1.Idx) (β := EReal) _ _ (fun _ => 0) (laneSum m c) (4 * (t / 4)) 3 ?_ ?_ (t % 4) (by omega) h' i
  · intro h i
    obtain ⟨p, rfl⟩ := col_ix i
    rw [k0_pay2_apply, k0_pay1_apply]
    unfold laneSum; rw [dif_pos h]
  · intro n h acc i _ _
    obtain ⟨p, rfl⟩ := col_ix i
    rw [k0_pay2_apply]
    unfold laneSum; rw [dif_pos h]

/-! ## The whole row -/

/-- At the last column block of row block i the scratch holds, at row p, the sum of row 1024·i + p of the matrix:
    the 8192 columns are the pairs (column block, column inside it), and the extended reals' addition is commutative
    and associative, so the four blocks' lane sums add up to the row's sum. -/
theorem acc0_last (c : Dev nD) (t : Fin cfg0.N) (h3 : t.val % 4 = 3) (p : Fin 1024) (r : Fin 8192)
    (hr : r.val = 1024 * (t.val / 4) + p.val) :
    (acc0 (E0 m) c t.val t.isLt (ix2 p (0 : Fin 1)) : EReal) = Cert.Spec.deg (arrA m c) r := by
  have hN : cfg0.N = 32 := N_0
  have ht := t.isLt
  have h4 : t.val % 4 + 1 = 4 := by omega
  rw [acc0_apply, h4, zero_add, Finset.sum_range]
  unfold Cert.Spec.deg
  rw [sum_split4]
  refine Finset.sum_congr rfl fun s _ => ?_
  have hs := s.isLt
  have hn : 4 * (t.val / 4) + s.val < cfg0.N := by omega
  unfold laneSum
  rw [dif_pos hn]
  refine Finset.sum_congr rfl fun q _ => ?_
  exact blkA_apply m c ⟨_, hn⟩ p q r ⟨_, _⟩
    (by show r.val = 1024 * ((4 * (t.val / 4) + s.val) / 4) + p.val; rw [hr]; omega)
    (by show 2048 * s.val + q.val = 2048 * ((4 * (t.val / 4) + s.val) % 4) + q.val; omega)

/-- So the column stored there is the row scale: rsqrt (row sum + 2). -/
theorem out0_apply (c : Dev nD) (t : Fin cfg0.N) (h3 : t.val % 4 = 3) (p : Fin 1024) (r : Fin 8192)
    (hr : r.val = 1024 * (t.val / 4) + p.val) :
    (out0 (E0 m) c t (ix2 p (0 : Fin 1)) : EReal) = Cert.Spec.dis (arrA m c) r := by
  unfold out0 Cert.Spec.dis
  rw [k0_pay3_apply, acc0_last m c t h3 p r hr]

/-- Region 0's output array after the region: the kernel's row scale, row by row. -/
theorem val0 (c : Dev nD) :
    W1 m c main_v0 = fun idx => Cert.Spec.dis (m ((c : Thread nD τ).loc main_arg1)) ⟨(idx 0).val, (idx 0).isLt⟩ := by
  rw [W1_main_v0]
  exact arrAt0_of_blocks m c (fun idx => Cert.Spec.dis (arrA m c) ⟨(idx 0).val, (idx 0).isLt⟩)
    (fun t ht p => out0_apply m c t ht p _ rfl)

end Cert.KernelIdeal.Hand

end
-- ==== Proof.KI.Host1.lean ====
/-
  The host stretch between the two regions, read at an index: the row scale broadcast along the features and
  multiplied in (the scaled features Y), the weights transposed, the bias as a one-row matrix; the adjacency
  matrix and the row scale themselves are not written.
-/
import proofs.«108451_j9534827397796_1_alg».proof.Proof.KI.Val0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- The row scale broadcast along the features and multiplied in, at an index: entry (j, k) is the scale's
    entry (j, 0) times the features' entry (j, k). -/
private theorem scaled_apply (s : FVec Ideal S8192x1 .f32) (x : FVec Ideal S8192x256 .f32) (idx : S8192x256.Idx) :
    mulf (F := Ideal) (broadcastInDim S8192x256 ![0, 1] bcast_S8192x1_S8192x256_0_1 s) x idx
      = s (ix2 (⟨(idx 0).val, (idx 0).isLt⟩ : Fin 8192) (⟨0, Nat.one_pos⟩ : Fin 1))
          * x (ix2 (⟨(idx 0).val, (idx 0).isLt⟩ : Fin 8192) (⟨(idx 1).val, (idx 1).isLt⟩ : Fin 256)) := by
  refine (mulf_apply _ _ idx).trans ?_
  -- the broadcast reads its operand at (j, 0): axis 0 has extent 8192 ≠ 1 and is kept, axis 1 has extent 1
  have e1 := broadcastInDim_apply ![0, 1] bcast_S8192x1_S8192x256_0_1 s idx
    (ix2 (⟨(idx 0).val, (idx 0).isLt⟩ : Fin 8192) (⟨0, Nat.one_pos⟩ : Fin 1)) (fun a => match a with
      | ⟨0, _⟩ => by show (idx 0).val = if (8192 : Nat) = 1 then 0 else (idx 0).val; rw [if_neg (by decide)]
      | ⟨1, _⟩ => by show 0 = if (1 : Nat) = 1 then 0 else (idx 1).val; rw [if_pos rfl])
  have e2 : idx = ix2 (⟨(idx 0).val, (idx 0).isLt⟩ : Fin 8192) (⟨(idx 1).val, (idx 1).isLt⟩ : Fin 256) :=
    funext fun a => match a with | ⟨0, _⟩ => rfl | ⟨1, _⟩ => rfl
  rw [e1]
  exact congrArg _ (congrArg x e2)

/-- The transpose at an index: entry (o, k) is the operand's entry (k, o). -/
private theorem transposed_apply (w : FVec Ideal S256x256 .f32) (idx : S256x256.Idx) :
    transpose S256x256 [1, 0] w transposes_S256x256_S256x256_1_0 idx
      = w (ix2 (⟨(idx 1).val, (idx 1).isLt⟩ : Fin 256) (⟨(idx 0).val, (idx 0).isLt⟩ : Fin 256)) :=
  transpose_apply [1, 0] w transposes_S256x256_S256x256_1_0 idx
    (ix2 (⟨(idx 1).val, (idx 1).isLt⟩ : Fin 256) (⟨(idx 0).val, (idx 0).isLt⟩ : Fin 256)) (fun b => match b with
      | ⟨0, _⟩ => rfl
      | ⟨1, _⟩ => rfl)

/-- A vector of 256 entries recast as a one-row matrix, at an index: entry (0, o) is the vector's entry o, the two
    having the same row-major position 0 · 256 + o = o. -/
private theorem row_apply (b : FVec Ideal S256 .f32) (idx : S1x256.Idx) :
    shapeCast S1x256 b shapeCasts_S256_S1x256 idx = b (ix1 (⟨(idx 1).val, (idx 1).isLt⟩ : Fin 256)) := by
  refine shapeCast_apply b shapeCasts_S256_S1x256 idx (ix1 (⟨(idx 1).val, (idx 1).isLt⟩ : Fin 256)) ?_
  rw [Shape.rowMajor_val_one, Shape.rowMajor_val_two]
  have h0 : (idx 0).val < 1 := idx2_lt0 idx
  show (idx 1).val = (idx 0).val * 256 + (idx 1).val
  omega

/-- A buffer other than region 0's output array holds after region 0 what it held at launch. -/
private theorem W1_of_ne (c : Dev nD) (r : Ref sig .tc) (h : r ≠ main_v0) :
    W1 m c (Proc.devRef .tc r) = m ((c : Thread nD τ).loc r) := by
  unfold W1; exact Function.update_of_ne (StableHlo.devRef_ne_of_ne h) _ _

/-- The scaled features: Y_jk = s_j · X_jk. -/
theorem W2_main_v2 (c : Dev nD) :
    W2 m c main_v2 = fun idx => Cert.Spec.yv (m ((c : Thread nD τ).loc main_arg1)) (m ((c : Thread nD τ).loc main_arg0)) ⟨(idx 0).val, (idx 0).isLt⟩ ⟨(idx 1).val, (idx 1).isLt⟩ := by
  show StableHlo.after hostOps1 (W1 m c) (Proc.devRef .tc main_v2) = _
  after_results
  -- the operands: the row scale as region 0 left it, the features as launched
  have h0 : W1 m c (Proc.devRef .tc main_v0) = _ := val0 m c
  rw [h0, W1_of_ne m c main_arg0 (by decide)]
  funext idx
  refine (scaled_apply _ _ idx).trans ?_
  rfl

/-- The transposed weights. -/
theorem W2_main_v3 (c : Dev nD) :
    W2 m c main_v3 = fun idx => (m ((c : Thread nD τ).loc main_arg2)) (ix2 (⟨(idx 1).val, (idx 1).isLt⟩ : Fin 256) (⟨(idx 0).val, (idx 0).isLt⟩ : Fin 256)) := by
  show StableHlo.after hostOps1 (W1 m c) (Proc.devRef .tc main_v3) = _
  after_results
  rw [W1_of_ne m c main_arg2 (by decide)]
  funext idx
  exact transposed_apply _ idx

/-- The bias as a one-row matrix. -/
theorem W2_main_v4 (c : Dev nD) :
    W2 m c main_v4 = fun idx => (m ((c : Thread nD τ).loc main_arg3)) (ix1 (⟨(idx 1).val, (idx 1).isLt⟩ : Fin 256)) := by
  show StableHlo.after hostOps1 (W1 m c) (Proc.devRef .tc main_v4) = _
  after_results
  rw [W1_of_ne m c main_arg3 (by decide)]
  funext idx
  exact row_apply _ idx

/-- The row scale is not written by the host stretch. -/
theorem W2_main_v0 (c : Dev nD) : W2 m c main_v0 = W1 m c main_v0 := by
  show StableHlo.after hostOps1 (W1 m c) (Proc.devRef .tc main_v0) = _
  after_results

/-- The adjacency matrix is written by nothing before region 1. -/
theorem W2_main_arg1 (c : Dev nD) : W2 m c main_arg1 = m ((c : Thread nD τ).loc main_arg1) := by
  show StableHlo.after hostOps1 (W1 m c) (Proc.devRef .tc main_arg1) = _
  after_results
  exact W1_of_ne m c main_arg1 (by decide)

end Cert.KernelIdeal.Hand

end
-- ==== Proof.KI.Blk1.lean ====
/-
  Region 1's input blocks read at an index, in terms of the launch arguments: the adjacency matrix's block
  (t / 8, t % 8); the scaled features' row blocks t % 8 and t / 8; the row scale's row block t / 8; the transposed
  weights and the bias row, whole.
-/
import proofs.«108451_j9534827397796_1_alg».proof.Proof.KI.Host1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- A row number, reduced into the matrix's range. -/
def rowN (n : ℕ) : Fin 8192 := ⟨n % 8192, Nat.mod_lt _ (by decide)⟩
theorem rowN_of_lt {n : ℕ} (h : n < 8192) : rowN n = ⟨n, h⟩ := Fin.ext (Nat.mod_eq_of_lt h)

namespace Blk1

/-! ### The index maps in closed form, decided over the grid -/

theorem idx1_0 : ∀ t : Fin cfg1.N, win1_0.index t (0 : Fin 2) = t.val / 8 ∧ win1_0.index t (1 : Fin 2) = t.val % 8 :=
  (by decide +kernel : ∀ t : Fin grid1.N, _)
theorem idx1_1 : ∀ t : Fin cfg1.N, win1_1.index t (0 : Fin 2) = t.val % 8 ∧ win1_1.index t (1 : Fin 2) = 0 :=
  (by decide +kernel : ∀ t : Fin grid1.N, _)
theorem idx1_2 : ∀ t : Fin cfg1.N, win1_2.index t (0 : Fin 2) = t.val / 8 ∧ win1_2.index t (1 : Fin 2) = 0 :=
  (by decide +kernel : ∀ t : Fin grid1.N, _)
theorem idx1_3 : ∀ t : Fin cfg1.N, win1_3.index t (0 : Fin 2) = t.val / 8 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)

theorem N1 : cfg1.N = 64 := N_1

/-! ### A block's element is the array's: block index × block extent + the coordinate inside the block -/

variable (V : (c : Dev nD) → (b : Ref sig .tc) → Buf (Elt Ideal) ((c : Thread nD τ).loc b))

theorem rd0 (c : Dev nD) (t : Fin cfg1.N) (p l : Fin 1024) :
    (iblk1 V c 0 t : Vec Ideal S1024x1024 .f32) (ix2 p l)
      = (V c main_arg1 : S8192x8192.Idx → EReal) (ix2 (rowN (1024 * (t.val / 8) + p.val)) (rowN (1024 * (t.val % 8) + l.val))) := by
  obtain ⟨e0, e1⟩ := idx1_0 t
  have hp := p.isLt; have hl := l.isLt; have ht : t.val < 64 := lt_of_lt_of_eq t.isLt N1
  unfold iblk1; rw [View.read_apply]
  show V c main_arg1 _ = V c main_arg1 _
  congr 1; funext a; apply Fin.ext
  match a with
  | ⟨0, _⟩ => show win1_0.index t (0 : Fin 2) * 1024 + 1 * p.val = (1024 * (t.val / 8) + p.val) % 8192; rw [e0]; omega
  | ⟨1, _⟩ => show win1_0.index t (1 : Fin 2) * 1024 + 1 * l.val = (1024 * (t.val % 8) + l.val) % 8192; rw [e1]; omega

theorem rd1 (c : Dev nD) (t : Fin cfg1.N) (l : Fin 1024) (k : Fin 256) :
    (iblk1 V c 1 t : Vec Ideal S1024x256 .f32) (ix2 l k)
      = (V c main_v2 : S8192x256.Idx → EReal) (ix2 (rowN (1024 * (t.val % 8) + l.val)) k) := by
  obtain ⟨e0, e1⟩ := idx1_1 t
  have hl := l.isLt; have hk := k.isLt; have ht : t.val < 64 := lt_of_lt_of_eq t.isLt N1
  unfold iblk1; rw [View.read_apply]
  show V c main_v2 _ = V c main_v2 _
  congr 1; funext a; apply Fin.ext
  match a with
  | ⟨0, _⟩ => show win1_1.index t (0 : Fin 2) * 1024 + 1 * l.val = (1024 * (t.val % 8) + l.val) % 8192; rw [e0]; omega
  | ⟨1, _⟩ => show win1_1.index t (1 : Fin 2) * 256 + 1 * k.val = k.val; rw [e1]; omega

theorem rd2 (c : Dev nD) (t : Fin cfg1.N) (p : Fin 1024) (k : Fin 256) :
    (iblk1 V c 2 t : Vec Ideal S1024x256 .f32) (ix2 p k)
      = (V c main_v2 : S8192x256.Idx → EReal) (ix2 (rowN (1024 * (t.val / 8) + p.val)) k) := by
  obtain ⟨e0, e1⟩ := idx1_2 t
  have hp := p.isLt; have hk := k.isLt; have ht : t.val < 64 := lt_of_lt_of_eq t.isLt N1
  unfold iblk1; rw [View.read_apply]
  show V c main_v2 _ = V c main_v2 _
  congr 1; funext a; apply Fin.ext
  match a with
  | ⟨0, _⟩ => show win1_2.index t (0 : Fin 2) * 1024 + 1 * p.val = (1024 * (t.val / 8) + p.val) % 8192; rw [e0]; omega
  | ⟨1, _⟩ => show win1_2.index t (1 : Fin 2) * 256 + 1 * k.val = k.val; rw [e1]; omega

theorem rd3 (c : Dev nD) (t : Fin cfg1.N) (p : Fin 1024) :
    (iblk1 V c 3 t : Vec Ideal S1024x1 .f32) (ix2 p (0 : Fin 1))
      = (V c main_v0 : S8192x1.Idx → EReal) (ix2 (rowN (1024 * (t.val / 8) + p.val)) (0 : Fin 1)) := by
  obtain ⟨e0, e1⟩ := idx1_3 t
  have hp := p.isLt; have ht : t.val < 64 := lt_of_lt_of_eq t.isLt N1
  unfold iblk1; rw [View.read_apply]
  show V c main_v0 _ = V c main_v0 _
  congr 1; funext a; apply Fin.ext
  match a with
  | ⟨0, _⟩ => show win1_3.index t (0 : Fin 2) * 1024 + 1 * p.val = (1024 * (t.val / 8) + p.val) % 8192; rw [e0]; omega
  | ⟨1, _⟩ => show win1_3.index t (1 : Fin 2) * 1 + 1 * 0 = 0; rw [e1]

theorem rd4 (c : Dev nD) (t : Fin cfg1.N) (k o : Fin 256) :
    (iblk1 V c 4 t : Vec Ideal S256x256 .f32) (ix2 k o) = (V c main_v3 : S256x256.Idx → EReal) (ix2 k o) := by
  obtain ⟨e0, e1⟩ := idx1_4 t
  unfold iblk1; rw [View.read_apply]
  show V c main_v3 _ = V c main_v3 _
  congr 1; funext a; apply Fin.ext
  match a with
  | ⟨0, _⟩ => show win1_4.index t (0 : Fin 2) * 256 + 1 * k.val = k.val; rw [e0]; omega
  | ⟨1, _⟩ => show win1_4.index t (1 : Fin 2) * 256 + 1 * o.val = o.val; rw [e1]; omega

theorem rd5 (c : Dev nD) (t : Fin cfg1.N) (o : Fin 256) :
    (iblk1 V c 5 t : Vec Ideal S1x256 .f32) (ix2 (0 : Fin 1) o) = (V c main_v4 : S1x256.Idx → EReal) (ix2 (0 : Fin 1) o) := by
  obtain ⟨e0, e1⟩ := idx1_5 t
  unfold iblk1; rw [View.read_apply]
  show V c main_v4 _ = V c main_v4 _
  congr 1; funext a; apply Fin.ext
  match a with
  | ⟨0, _⟩ => show win1_5.index t (0 : Fin 2) * 1 + 1 * 0 = 0; rw [e0]
  | ⟨1, _⟩ => show win1_5.index t (1 : Fin 2) * 256 + 1 * o.val = o.val; rw [e1]; omega

end Blk1

/-! ### The six blocks in terms of the launch arguments -/

/-- The adjacency matrix's block (t / 8, t % 8). -/
theorem blk1_0 (c : Dev nD) (t : Fin cfg1.N) (p l : Fin 1024) :
    (iblk1 (E2 m) c 0 t : Vec Ideal S1024x1024 .f32) (ix2 p l)
      = (m ((c : Thread nD τ).loc main_arg1)) (ix2 (rowN (1024 * (t.val / 8) + p.val)) (rowN (1024 * (t.val % 8) + l.val))) := by
  rw [Blk1.rd0 (E2 m) c t p l]
  show (W2 m c main_arg1 : S8192x8192.Idx → EReal) _ = _
  rw [W2_main_arg1]

/-- The scaled features' row block t % 8. -/
theorem blk1_1 (c : Dev nD) (t : Fin cfg1.N) (l : Fin 1024) (k : Fin 256) :
    (iblk1 (E2 m) c 1 t : Vec Ideal S1024x256 .f32) (ix2 l k)
      = Cert.Spec.yv (m ((c : Thread nD τ).loc main_arg1)) (m ((c : Thread nD τ).loc main_arg0)) (rowN (1024 * (t.val % 8) + l.val)) k := by
  rw [Blk1.rd1 (E2 m) c t l k]
  show (W2 m c main_v2 : S8192x256.Idx → EReal) _ = _
  rw [W2_main_v2]; rfl

/-- The scaled features' row block t / 8. -/
theorem blk1_2 (c : Dev nD) (t : Fin cfg1.N) (p : Fin 1024) (k : Fin 256) :
    (iblk1 (E2 m) c 2 t : Vec Ideal S1024x256 .f32) (ix2 p k)
      = Cert.Spec.yv (m ((c : Thread nD τ).loc main_arg1)) (m ((c : Thread nD τ).loc main_arg0)) (rowN (1024 * (t.val / 8) + p.val)) k := by
  rw [Blk1.rd2 (E2 m) c t p k]
  show (W2 m c main_v2 : S8192x256.Idx → EReal) _ = _
  rw [W2_main_v2]; rfl

/-- The row scale's row block t / 8. -/
theorem blk1_3 (c : Dev nD) (t : Fin cfg1.N) (p : Fin 1024) :
    (iblk1 (E2 m) c 3 t : Vec Ideal S1024x1 .f32) (ix2 p (0 : Fin 1))
      = Cert.Spec.dis (m ((c : Thread nD τ).loc main_arg1)) (rowN (1024 * (t.val / 8) + p.val)) := by
  rw [Blk1.rd3 (E2 m) c t p]
  show (W2 m c main_v0 : S8192x1.Idx → EReal) _ = _
  rw [W2_main_v0, val0]; rfl

/-- The transposed weights, whole. -/
theorem blk1_4 (c : Dev nD) (t : Fin cfg1.N) (k o : Fin 256) :
    (iblk1 (E2 m) c 4 t : Vec Ideal S256x256 .f32) (ix2 k o) = (m ((c : Thread nD τ).loc main_arg2)) (ix2 o k) := by
  rw [Blk1.rd4 (E2 m) c t k o]
  show (W2 m c main_v3 : S256x256.Idx → EReal) _ = _
  rw [W2_main_v3]; rfl

/-- The bias row, whole. -/
theorem blk1_5 (c : Dev nD) (t : Fin cfg1.N) (o : Fin 256) :
    (iblk1 (E2 m) c 5 t : Vec Ideal S1x256 .f32) (ix2 (0 : Fin 1) o) = (m ((c : Thread nD τ).loc main_arg3)) (ix1 o) := by
  rw [Blk1.rd5 (E2 m) c t o]
  show (W2 m c main_v4 : S1x256.Idx → EReal) _ = _
  rw [W2_main_v4]; rfl

end Cert.KernelIdeal.Hand

end
-- ==== Proof.KI.Pay.lean ====
/-
  The three stored values of the aggregation kernel's body, read at an index over the extended reals: twice a block;
  a block plus the product of two blocks; and the clamped affine image of a row-scaled block.
-/
import proofs.«108451_j9534827397796_1_alg».proof.Proof.Gen.KernelIdeal.Skeleton
import proofs.«108451_j9534827397796_1_alg».proof.Proof.KI.Pay0
import proofs.«108451_j9534827397796_1_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen

/-! ## A column broadcast along the lanes at an index -/

/-- A one-column matrix broadcast along the lanes reads, at `(p, c)`, the column at row `p`. -/
private theorem broadcastTo_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The start value of region 1's scratch: twice the row block of the scaled features. -/
theorem k1_pay1_apply (v : Vec Ideal S1024x256 .f32) (p : Fin 1024) (k : Fin 256) :
    k1_pay1 v (ix2 p k) = (2 : EReal) * (v (ix2 p k) : EReal) := by
  unfold k1_pay1
  rw [shapeCast_self, shapeCast_self, mulf_apply, broadcast_apply]
  show Ideal.ofBits .f32 0x40000000#32 * _ = _
  rw [Cert.Consts.ofBits_two]

/-! ## The two block products at an index -/

private theorem lhs_agg_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
private theorem lhs_agg_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
private theorem rhs_agg_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
private theorem rhs_agg_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The adjacency block times the features' block, into the zero block: the sum over the contraction axis. -/
private theorem matmul_agg_apply (x : FVec Ideal S1024x1024 .bf16) (y : FVec Ideal S1024x256 .bf16) (p : Fin 1024) (o : Fin 256) :
    matmul (F := Ideal) dot_S1024x1024_S1024x256_S1024x256_1_0_0_1_n_n none x y (constant (F := Ideal) S1024x256 .f32 0x00000000#32) (ix2 p o)
      = ∑ j : Fin 1024, x (ix2 p j) * y (ix2 j o) := by
  simp only [matmul]
  rw [Ideal.matmul_constant_zero_apply, ← Equiv.sum_comp (contrEquiv1 dot_S1024x1024_S1024x256_S1024x256_1_0_0_1_n_n 1024 rfl rfl).symm]
  refine Finset.sum_congr rfl fun j _ => ?_
  have hj := contrEquiv1_symm_val dot_S1024x1024_S1024x256_S1024x256_1_0_0_1_n_n 1024 rfl rfl j
  have el : dot_S1024x1024_S1024x256_S1024x256_1_0_0_1_n_n.lhsIdx (ix2 p o) ((contrEquiv1 dot_S1024x1024_S1024x256_S1024x256_1_0_0_1_n_n 1024 rfl rfl).symm j) = ix2 p j := funext fun a => Fin.ext (by
    match a with
    | ⟨0, _⟩ => exact lhs_agg_0 _ _
    | ⟨1, _⟩ => exact (lhs_agg_1 _ _).trans hj)
  have er : dot_S1024x1024_S1024x256_S1024x256_1_0_0_1_n_n.rhsIdx (ix2 p o) ((contrEquiv1 dot_S1024x1024_S1024x256_S1024x256_1_0_0_1_n_n 1024 rfl rfl).symm j) = ix2 j o := funext fun a => Fin.ext (by
    match a with
    | ⟨0, _⟩ => exact (rhs_agg_0 _ _).trans hj
    | ⟨1, _⟩ => exact rhs_agg_1 _ _)
  rw [el, er]

private theorem lhs_lin_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
private theorem lhs_lin_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
private theorem rhs_lin_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
private theorem rhs_lin_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The scaled block times the weights' block, into the zero block: the sum over the contraction axis. -/
private theorem matmul_lin_apply (x : FVec Ideal S1024x256 .bf16) (y : FVec Ideal S256x256 .bf16) (p : Fin 1024) (o : Fin 256) :
    matmul (F := Ideal) dot_S1024x256_S256x256_S1024x256_1_0_0_1_n_n none x y (constant (F := Ideal) S1024x256 .f32 0x00000000#32) (ix2 p o)
      = ∑ j : Fin 256, x (ix2 p j) * y (ix2 j o) := by
  simp only [matmul]
  rw [Ideal.matmul_constant_zero_apply, ← Equiv.sum_comp (contrEquiv1 dot_S1024x256_S256x256_S1024x256_1_0_0_1_n_n 256 rfl rfl).symm]
  refine Finset.sum_congr rfl fun j _ => ?_
  have hj := contrEquiv1_symm_val dot_S1024x256_S256x256_S1024x256_1_0_0_1_n_n 256 rfl rfl j
  have el : dot_S1024x256_S256x256_S1024x256_1_0_0_1_n_n.lhsIdx (ix2 p o) ((contrEquiv1 dot_S1024x256_S256x256_S1024x256_1_0_0_1_n_n 256 rfl rfl).symm j) = ix2 p j := funext fun a => Fin.ext (by
    match a with
    | ⟨0, _⟩ => exact lhs_lin_0 _ _
    | ⟨1, _⟩ => exact (lhs_lin_1 _ _).trans hj)
  have er : dot_S1024x256_S256x256_S1024x256_1_0_0_1_n_n.rhsIdx (ix2 p o) ((contrEquiv1 dot_S1024x256_S256x256_S1024x256_1_0_0_1_n_n 256 rfl rfl).symm j) = ix2 j o := funext fun a => Fin.ext (by
    match a with
    | ⟨0, _⟩ => exact (rhs_lin_0 _ _).trans hj
    | ⟨1, _⟩ => exact rhs_lin_1 _ _)
  rw [el, er]

/-- One point of region 1: the block found plus the product of the adjacency block with the features' block. -/
theorem k1_pay2_apply (a : Vec Ideal S1024x1024 .f32) (y : Vec Ideal S1024x256 .f32) (acc : Vec Ideal S1024x256 .f32)
    (p : Fin 1024) (k : Fin 256) :
    k1_pay2 a y acc (ix2 p k) = (acc (ix2 p k) : EReal) + ∑ j : Fin 1024, (a (ix2 p j) : EReal) * (y (ix2 j k) : EReal) := by
  unfold k1_pay2
  rw [shapeCast_self, addf_apply]
  refine congrArg (_ + ·) ?_
  refine (matmul_agg_apply _ _ p k).trans ?_
  refine Finset.sum_congr rfl fun j _ => ?_
  rw [truncf_apply, truncf_apply, shapeCast_self]

/-- Region 1's output: the row-scaled block times the transposed weights, plus the bias, clamped at zero. -/
theorem k1_pay3_apply (acc : Vec Ideal S1024x256 .f32) (d : Vec Ideal S1024x1 .f32) (w : Vec Ideal S256x256 .f32)
    (b : Vec Ideal S1x256 .f32) (p : Fin 1024) (o : Fin 256) :
    k1_pay3 acc d w b (ix2 p o)
      = max ((∑ k : Fin 256, ((acc (ix2 p k) : EReal) * (d (ix2 p (0 : Fin 1)) : EReal)) * (w (ix2 k o) : EReal)) + (b (ix2 (0 : Fin 1) o) : EReal)) 0 := by
  unfold k1_pay3
  rw [maximumf_apply, addf_apply, broadcast_apply]
  have h0 : (Scalar.ofBits (F := Ideal) .f32 0x00000000#32 : EReal) = 0 := Cert.Consts.ofBits_zero
  rw [h0]
  refine congrArg (max · 0) ?_
  refine congrArg₂ (· + ·) ?_ ?_
  · refine (matmul_lin_apply _ _ p o).trans ?_
    refine Finset.sum_congr rfl fun k _ => ?_
    rw [truncf_apply, truncf_apply, mulf_apply]
    simp only [shapeCast_self]
    exact congrArg (fun t : EReal => (acc (ix2 p k) : EReal) * t * (w (ix2 k o) : EReal))
      (broadcastTo_col_apply d broadcasts_S1024x1_S1024x256 p k)
  · simp only [shapeCast_self]
    exact broadcastTo_1b_ab_apply b broadcasts_S1x256_S1024x256 p o

end Cert.KernelIdeal.Hand

end
-- ==== Proof.KI.Val1.lean ====
/-
  What region 1 leaves in the result array, at the extended reals: the closed form `Cert.Spec.outK` of the four
  arguments. Row block i is written back once, after its eighth column block; by then the scratch block holds
  2·Y_i plus the eight partial products, which is the whole row block of 2·Y + A·Y.
-/
import proofs.«108451_j9534827397796_1_alg».proof.Proof.KI.Host1
import proofs.«108451_j9534827397796_1_alg».proof.Proof.KI.Blk1
import proofs.«108451_j9534827397796_1_alg».proof.Proof.KI.Pay

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

namespace Val1

/-- The adjacency matrix, the features, the weights and the bias as launched. -/
abbrev argA (c : Dev nD) : S8192x8192.Idx → EReal := m ((c : Thread nD τ).loc main_arg1)
abbrev argX (c : Dev nD) : S8192x256.Idx → EReal := m ((c : Thread nD τ).loc main_arg0)
abbrev argW (c : Dev nD) : S256x256.Idx → EReal := m ((c : Thread nD τ).loc main_arg2)
abbrev argB (c : Dev nD) : S256.Idx → EReal := m ((c : Thread nD τ).loc main_arg3)

/-- Row r's partial aggregate over the first n columns: twice the scaled feature plus the first n products. -/
def part (c : Dev nD) (r : Fin 8192) (k : Fin 256) (n : ℕ) : EReal :=
  2 * Cert.Spec.yv (argA m c) (argX m c) r k
    + ∑ x ∈ Finset.range n, argA m c (ix2 r (rowN x)) * Cert.Spec.yv (argA m c) (argX m c) (rowN x) k

theorem acc1_zero (V : (c : Dev nD) → (b : Ref sig .tc) → Buf (Elt Ideal) ((c : Thread nD τ).loc b)) (c : Dev nD) (hn : 0 < cfg1.N) :
    acc1 V c 0 hn = k1_pay2 (iblk1 V c 0 ⟨0, hn⟩) (iblk1 V c 1 ⟨0, hn⟩) (k1_pay1 (iblk1 V c 2 ⟨0, hn⟩)) := rfl

theorem acc1_succ (V : (c : Dev nD) → (b : Ref sig .tc) → Buf (Elt Ideal) ((c : Thread nD τ).loc b)) (c : Dev nD) (n : ℕ) (hn : n + 1 < cfg1.N) :
    acc1 V c (n + 1) hn = k1_pay2 (iblk1 V c 0 ⟨n + 1, hn⟩) (iblk1 V c 1 ⟨n + 1, hn⟩)
      (if (n + 1) % 8 = 0 then k1_pay1 (iblk1 V c 2 ⟨n + 1, hn⟩) else acc1 V c n (Nat.lt_of_succ_lt hn)) := rfl

/-- One point's product: the next 1024 columns of the row's sum. -/
theorem step_apply (c : Dev nD) (t : Fin cfg1.N) (acc : Vec Ideal S1024x256 .f32) (p : Fin 1024) (k : Fin 256) :
    k1_pay2 (iblk1 (E2 m) c 0 t) (iblk1 (E2 m) c 1 t) acc (ix2 p k)
      = (acc (ix2 p k) : EReal) + ∑ x ∈ Finset.range 1024, argA m c (ix2 (rowN (1024 * (t.val / 8) + p.val)) (rowN (1024 * (t.val % 8) + x)))
          * Cert.Spec.yv (argA m c) (argX m c) (rowN (1024 * (t.val % 8) + x)) k := by
  refine (k1_pay2_apply (iblk1 (E2 m) c 0 t) (iblk1 (E2 m) c 1 t) acc p k).trans ?_
  refine congrArg (fun z => (acc (ix2 p k) : EReal) + z) ?_
  rw [← Fin.sum_univ_eq_sum_range (fun x => argA m c (ix2 (rowN (1024 * (t.val / 8) + p.val)) (rowN (1024 * (t.val % 8) + x)))
          * Cert.Spec.yv (argA m c) (argX m c) (rowN (1024 * (t.val % 8) + x)) k) 1024]
  refine Finset.sum_congr rfl fun l _ => ?_
  rw [blk1_0 m c t p l, blk1_1 m c t l k]

/-- The start value: twice the row block of the scaled features. -/
theorem init_apply (c : Dev nD) (t : Fin cfg1.N) (p : Fin 1024) (k : Fin 256) :
    k1_pay1 (iblk1 (E2 m) c 2 t) (ix2 p k) = 2 * Cert.Spec.yv (argA m c) (argX m c) (rowN (1024 * (t.val / 8) + p.val)) k := by
  refine (k1_pay1_apply (iblk1 (E2 m) c 2 t) p k).trans ?_
  rw [blk1_2 m c t p k]

/-- The scratch after point n = 8·i + j: row block i's partial aggregate over the first 1024·(j + 1) columns. -/
theorem acc1_apply (c : Dev nD) : ∀ (n : ℕ) (hn : n < cfg1.N) (p : Fin 1024) (k : Fin 256),
    (acc1 (E2 m) c n hn : Vec Ideal S1024x256 .f32) (ix2 p k) = part m c (rowN (1024 * (n / 8) + p.val)) k (1024 * (n % 8 + 1))
  | 0, hn, p, k => by
    rw [acc1_zero]
    refine (step_apply m c ⟨0, hn⟩ _ p k).trans ?_
    rw [init_apply m c ⟨0, hn⟩ p k]
    unfold part
    simp only [Nat.zero_div, Nat.zero_mod, Nat.mul_zero, Nat.zero_add, Nat.mul_one]
  | n + 1, hn, p, k => by
    rw [acc1_succ]
    refine (step_apply m c ⟨n + 1, hn⟩ _ p k).trans ?_
    by_cases h0 : (n + 1) % 8 = 0
    · rw [if_pos h0, init_apply m c ⟨n + 1, hn⟩ p k]
      unfold part
      simp only [h0, Nat.mul_zero, Nat.zero_add, Nat.mul_one]
    · rw [if_neg h0, acc1_apply c n (Nat.lt_of_succ_lt hn) p k]
      have e1 : (n + 1) / 8 = n / 8 := by omega
      have e2 : (n + 1) % 8 = n % 8 + 1 := by omega
      unfold part
      simp only [e1, e2]
      rw [show 1024 * (n % 8 + 1 + 1) = 1024 * (n % 8 + 1) + 1024 from by ring, Finset.sum_range_add, add_assoc]

/-- A sum over all 8192 columns is the sum over the naturals below 8192 of the columns reduced into range. -/
theorem sum_rowN (f : Fin 8192 → EReal) : ∑ x ∈ Finset.range 8192, f (rowN x) = ∑ j : Fin 8192, f j := by
  rw [← Fin.sum_univ_eq_sum_range (fun x => f (rowN x)) 8192]
  refine Finset.sum_congr rfl fun j _ => ?_
  rw [rowN_of_lt j.isLt]

/-- After all eight column blocks the partial aggregate is the whole row's. -/
theorem part_full (c : Dev nD) (r : Fin 8192) (k : Fin 256) :
    part m c r k 8192 = Cert.Spec.agg (argA m c) (argX m c) r k := by
  unfold part Cert.Spec.agg
  rw [sum_rowN (fun j => argA m c (ix2 r j) * Cert.Spec.yv (argA m c) (argX m c) j k)]

/-- The block stored at the last column block of row block i: the closed form at its rows. -/
theorem out1_apply (c : Dev nD) (t : Fin cfg1.N) (h7 : t.val % 8 = 7) (p : Fin 1024) (o : Fin 256) :
    (out1 (E2 m) c t : Vec Ideal S1024x256 .f32) (ix2 p o)
      = Cert.Spec.outK (argA m c) (argX m c) (argW m c) (argB m c) (ix2 (rowN (1024 * (t.val / 8) + p.val)) o) := by
  unfold out1
  refine (k1_pay3_apply (acc1 (E2 m) c t.val t.isLt) (iblk1 (E2 m) c 3 t) (iblk1 (E2 m) c 4 t) (iblk1 (E2 m) c 5 t) p o).trans ?_
  rw [blk1_3 m c t p, blk1_5 m c t o]
  show _ = max ((∑ k : Fin 256, (Cert.Spec.agg (argA m c) (argX m c) (rowN (1024 * (t.val / 8) + p.val)) k
      * Cert.Spec.dis (argA m c) (rowN (1024 * (t.val / 8) + p.val))) * argW m c (ix2 o k)) + argB m c (ix1 o)) 0
  refine congrArg (fun z => max (z + argB m c (ix1 o)) 0) ?_
  refine Finset.sum_congr rfl fun k _ => ?_
  rw [blk1_4 m c t k o, acc1_apply m c t.val t.isLt p k, h7, part_full]

/-- Window 6's block indices over the grid: row block t / 8, the one column block. -/
theorem idx1_6 : ∀ t : Fin cfg1.N, win1_6.index t (0 : Fin 2) = t.val / 8 ∧ win1_6.index t (1 : Fin 2) = 0 :=
  (by decide +kernel : ∀ t : Fin grid1.N, _)

/-- The closed form of the launch memory's arguments. -/
abbrev G1 (c : Dev nD) : S8192x256.Idx → EReal := Cert.Spec.outK (argA m c) (argX m c) (argW m c) (argB m c)

/-- What a writing point writes back is its block of the closed form. -/
theorem flushed6_eq (c : Dev nD) (t : Fin cfg1.N) (hf : (cfg1.win 6).flush t = true) :
    (dat1 (E2 m) c).flushed 6 t = ((cfg1.win 6).blk t).view.read (Elt Ideal) (G1 m c) := by
  have h7 : t.val % 8 = 7 := (flush1_6 t).mp hf
  obtain ⟨e0, e1⟩ := idx1_6 t
  have ht : t.val < 64 := t.isLt
  show (cfg1.win 6).cut (grid1.coords t) ((dat1 (E2 m) c).after 6 t) = _
  rw [after1_6]
  funext y
  obtain ⟨p, o, rfl⟩ : ∃ (p : Fin 1024) (o : Fin 256), y = ix2 p o := ⟨y 0, y 1, eq_ix2 y⟩
  rw [View.read_apply]
  show (out1 (E2 m) c t : Vec Ideal S1024x256 .f32) (ix2 p o) = G1 m c _
  rw [out1_apply m c t h7 p o]
  refine congrArg (G1 m c) ?_
  funext a
  apply Fin.ext
  match a with
  | ⟨0, _⟩ => show (1024 * (t.val / 8) + p.val) % 8192 = win1_6.index t 0 * 1024 + 1 * p.val; rw [e0]; have := p.isLt; omega
  | ⟨1, _⟩ => show o.val = win1_6.index t 1 * 256 + 1 * o.val; rw [e1]; omega

/-- An index of the array is in point t's block iff each coordinate is in the block's range on its axis. -/
theorem mem_blk6 (t : Fin cfg1.N) (i : S8192x256.Idx) :
    i ∈ ((cfg1.win 6).blk t).view.set ↔ ∀ a : Fin 2, win1_6.index t a * S1024x256.size a ≤ (i a).val ∧ (i a).val < win1_6.index t a * S1024x256.size a + S1024x256.size a := by
  show i ∈ ((View.whole main_v5).slice (win1_6.rect t)).set ↔ _
  rw [View.set_slice_whole, Rect.mem_set_unit]
  exact Iff.rfl

/-- Row r is written back at the last column block of its row block. -/
theorem cover6 (i : S8192x256.Idx) : ∃ t : Fin cfg1.N, (cfg1.win 6).flush t = true ∧ i ∈ ((cfg1.win 6).blk t).view.set := by
  have hi0 : (i 0).val < 8192 := (i 0).isLt
  have hi1 : (i 1).val < 256 := (i 1).isLt
  have hN : 8 * ((i 0).val / 1024) + 7 < cfg1.N := by show _ < 64; omega
  refine ⟨⟨8 * ((i 0).val / 1024) + 7, hN⟩, (flush1_6 _).mpr (by show (8 * ((i 0).val / 1024) + 7) % 8 = 7; omega), ?_⟩
  obtain ⟨e0, e1⟩ := idx1_6 ⟨8 * ((i 0).val / 1024) + 7, hN⟩
  rw [mem_blk6]
  intro a
  match a with
  | ⟨0, _⟩ =>
    show win1_6.index _ (0 : Fin 2) * 1024 ≤ (i 0).val ∧ (i 0).val < win1_6.index _ (0 : Fin 2) * 1024 + 1024
    rw [e0]; dsimp only; omega
  | ⟨1, _⟩ =>
    show win1_6.index _ (1 : Fin 2) * 256 ≤ (i 1).val ∧ (i 1).val < win1_6.index _ (1 : Fin 2) * 256 + 256
    rw [e1]; omega

end Val1

open Val1 in
/-- The result array after region 1 is the kernel's closed form of the launch memory's arguments. -/
theorem val1 (c : Dev nD) :
    W3 m c main_v5 = Cert.Spec.outK (m ((c : Thread nD τ).loc main_arg1)) (m ((c : Thread nD τ).loc main_arg0)) (m ((c : Thread nD τ).loc main_arg2)) (m ((c : Thread nD τ).loc main_arg3)) := by
  rw [W3_main_v5]
  exact (dat1 (E2 m) c).arrAt_eq_of_cover 6 (G1 m c) (flushed6_eq m c) cover6

end Cert.KernelIdeal.Hand

end
-- ==== Proof.RefG.lean ====
/-
  The reference's result, stage by stage, is the closed form `Cert.Spec.outR` of its four arguments: the degree
  is the row sum of A + 2·I (the identity as the converted comparison of the two index grids), the two scalings
  are the row scale broadcast along rows and along columns, the two products are plain sums over the contracted
  axis, the bias is broadcast along rows and the clamp is the maximum with zero.
-/
import proofs.«108451_j9534827397796_1_alg».proof.Proof.Gen.ReferenceIdeal.Run
import proofs.«108451_j9534827397796_1_alg».proof.Proof.Gen.ReferenceIdeal.Read
import proofs.«108451_j9534827397796_1_alg».proof.Proof.Spec
import proofs.«108451_j9534827397796_1_alg».proof.Proof.Consts
import Idealize.ShloMosaic.Lib.StableHlo.Predicate

noncomputable section

namespace Cert.ReferenceIdeal.RefValue

open Idealize.ShloMosaic Idealize.ShloMosaic.TcCoe Idealize.ShloMosaic.ValueIdx Idealize.SL.Sem
open Cert.ReferenceIdeal Cert.ReferenceIdeal.Gen
open Cert.ReferenceIdeal.Read

/-- Two words below 2^32 built from row and column numbers are equal exactly when the numbers are. -/
private theorem word_eq_iff (r k : Fin 8192) :
    IntOp.addi (BitVec.ofNat 32 r.val) 0#32 = BitVec.ofNat 32 k.val ↔ r = k := by
  constructor
  · intro h
    have h' := congrArg BitVec.toNat h
    simp only [IntOp.addi, BitVec.add_zero, BitVec.toNat_ofNat] at h'
    have hr := r.isLt
    have hk := k.isLt
    exact Fin.ext (by omega)
  · rintro rfl
    simp only [IntOp.addi, BitVec.add_zero]

/-- The converted comparison of the two index grids is the identity matrix. -/
private theorem eye_at (r k : Fin 8192) :
    FloatOps.uitofp (F := Ideal) .f32
      (IntOp.cmpi .eq (IntOp.addi (BitVec.ofNat 32 r.val) 0#32) (BitVec.ofNat 32 k.val)) = Cert.Spec.eye r k := by
  unfold Cert.Spec.eye
  by_cases h : r = k
  · rw [if_pos h, StableHlo.Predicate.cmpi_eq_iff.mpr ((word_eq_iff r k).mpr h)]
    show (((1#1 : BitVec 1).toNat : ℝ) : EReal) = 1
    norm_num
  · rw [if_neg h, eq_zero_of_ne_one (fun hc => h ((word_eq_iff r k).mp (StableHlo.Predicate.cmpi_eq_iff.mp hc)))]
    show (((0#1 : BitVec 1).toNat : ℝ) : EReal) = 0
    norm_num

/-- Stage 8 at row r, column j: the adjacency entry plus twice the identity's. -/
private theorem v8_at (x1 : (⟨S8192x8192, .f32⟩ : BufTy).Contents (Elt Ideal)) (r j : Fin 8192) :
    val_main_v8 (F := Ideal) x1 (ix2 r j) = x1 (ix2 r j) + 2 * Cert.Spec.eye r j := by
  rw [val_main_v8_apply, val_main_v7_apply, val_main_v6_apply, val_main_cst_apply, val_main_v5_apply, val_main_v4_apply,
    val_main_v3_apply, val_main_v2_apply, val_main_c_apply, val_main_v1_apply, val_main_v0_apply]
  simp only [Ideal.addf_def, Ideal.mulf_def, Ideal.ofBits_def, Cert.Consts.ofBits_two]
  exact congrArg (fun t => x1 (ix2 r j) + 2 * t) (eye_at r j)

/-- Stage 10 at row r: the reference's row scale. -/
private theorem v10_at (x1 : (⟨S8192x8192, .f32⟩ : BufTy).Contents (Elt Ideal)) (r : Fin 8192) :
    val_main_v10 (F := Ideal) x1 (ix1 r) = Cert.Spec.disR x1 r := by
  rw [val_main_v10_apply, val_main_v9_apply, val_main_cst_0_apply]
  simp only [Ideal.hostUnary_rsqrt_def, Ideal.ofBits_def, Ideal.ofBits_zero_f32, zero_add]
  unfold Cert.Spec.disR Cert.Spec.degR
  refine congrArg Ideal.rsqrt (Finset.sum_congr rfl fun k _ => ?_)
  have e : idx_main_v9 (ix1 r) k = ix2 r k :=
    funext fun a => Fin.ext (by match a with | ⟨0, _⟩ => rfl | ⟨1, _⟩ => rfl)
  rw [e, v8_at]

/-- Stage 16 at row r, column j: the entry of A + 2·I scaled by the row's and the column's scale. -/
private theorem v16_at (x1 : (⟨S8192x8192, .f32⟩ : BufTy).Contents (Elt Ideal)) (r j : Fin 8192) :
    val_main_v16 (F := Ideal) x1 (ix2 r j)
      = (x1 (ix2 r j) + 2 * Cert.Spec.eye r j) * Cert.Spec.disR x1 r * Cert.Spec.disR x1 j := by
  have e12 : idx_main_v11 (idx_main_v12 (ix2 r j)) = ix1 r :=
    funext fun a => Fin.ext (by match a with | ⟨0, _⟩ => rfl)
  have e15 : idx_main_v14 (idx_main_v15 (ix2 r j)) = ix1 j :=
    funext fun a => Fin.ext (by match a with | ⟨0, _⟩ => rfl)
  rw [val_main_v16_apply, val_main_v13_apply, val_main_v12_apply, val_main_v11_apply, val_main_v15_apply,
    val_main_v14_apply, e12, e15, v8_at, v10_at, v10_at]
  rfl

/-- The reference's last stage, at the extended reals, is the reference's closed form. -/
theorem ref_eq (x0 : (⟨S8192x256, .f32⟩ : BufTy).Contents (Elt Ideal)) (x1 : (⟨S8192x8192, .f32⟩ : BufTy).Contents (Elt Ideal))
    (x2 : (⟨S256x256, .f32⟩ : BufTy).Contents (Elt Ideal)) (x3 : (⟨S256, .f32⟩ : BufTy).Contents (Elt Ideal)) :
    Cert.ReferenceIdeal.Read.val_main_v23 (F := Ideal) x0 x1 x2 x3 = Cert.Spec.outR x1 x0 x2 x3 := by
  funext i
  obtain ⟨r, o, rfl⟩ : ∃ (r : Fin 8192) (o : Fin 256), i = ix2 r o := ⟨i 0, i 1, eq_ix2 i⟩
  have e21 : idx_main_v20 (idx_main_v21 (ix2 r o)) = ix1 o :=
    funext fun a => Fin.ext (by match a with | ⟨0, _⟩ => rfl)
  rw [val_main_v23_apply, val_main_v22_apply, val_main_v19_apply, val_main_v21_apply, val_main_v20_apply,
    val_main_call0_v0_apply, val_main_call0_cst_apply, e21]
  simp only [Ideal.maximumf_def, Ideal.addf_def, Ideal.ofBits_def, Ideal.ofBits_zero_f32]
  unfold Cert.Spec.outR
  refine congrArg (fun t => max (t + x3 (ix1 o)) 0) (Finset.sum_congr rfl fun k _ => ?_)
  have el : lidx_main_v19 (ix2 r o) k = ix2 r k :=
    funext fun a => Fin.ext (by match a with | ⟨0, _⟩ => rfl | ⟨1, _⟩ => rfl)
  have er : idx_main_v18 (ridx_main_v19 (ix2 r o) k) = ix2 o k :=
    funext fun a => Fin.ext (by match a with | ⟨0, _⟩ => rfl | ⟨1, _⟩ => rfl)
  rw [val_main_v18_apply, el, er, val_main_v17_apply]
  refine congrArg (· * x2 (ix2 o k)) (Finset.sum_congr rfl fun j _ => ?_)
  have el' : lidx_main_v17 (ix2 r k) j = ix2 r j :=
    funext fun a => Fin.ext (by match a with | ⟨0, _⟩ => rfl | ⟨1, _⟩ => rfl)
  have er' : ridx_main_v17 (ix2 r k) j = ix2 j k :=
    funext fun a => Fin.ext (by match a with | ⟨0, _⟩ => rfl | ⟨1, _⟩ => rfl)
  rw [el', er', v16_at]

end Cert.ReferenceIdeal.RefValue

end
-- ==== Proof.PreDecode.lean ====
/-
  The precondition read at the extended reals: its five conjuncts say that every entry of the four arguments
  is a real number and that every row sum of A + 2·I — the reference's degree — is positive.
-/
import proofs.«108451_j9534827397796_1_alg».proof.Pre_finite_inputs
import proofs.«108451_j9534827397796_1_alg».proof.Proof.Spec
import Idealize.ShloMosaic.Lib.ReduceAll
import Idealize.ShloMosaic.Lib.ValueIdx
import Idealize.ShloMosaic.PureOps.Ideal.Laws
import proofs.«108451_j9534827397796_1_alg».proof.Proof.Consts

noncomputable section

namespace Cert.PreDecode

open Idealize.ShloMosaic Idealize.ShloMosaic.ValueIdx
open Cert.Pre_finite_inputs

/-- The scalar shape has one index. -/
local instance : Subsingleton S_.Idx := ⟨fun a b => funext fun d => d.elim0⟩

/-- The pattern 0x7F800000 is +∞. -/
private theorem ofBits_inf : Ideal.ofBits .f32 0x7F800000#32 = ⊤ := by simp [Ideal.ofBits, Ideal.ieee]

/-- A truth value read off a decidable proposition is 1 exactly when the proposition holds. -/
private theorem ofBool_decide_eq_one {p : Prop} [Decidable p] : BitVec.ofBool (decide p) = 1#1 ↔ p := by
  by_cases hp : p <;> simp [hp]

/-- A number whose magnitude max x (−x) lies below +∞ is neither infinity. -/
private theorem finite_of_abs_lt (x : EReal)
    (e : FloatOps.cmpf (F := Ideal) (φ := .f32) .olt (FloatOps.hostAbsf x) (FloatOps.ofBits .f32 0x7F800000#32) = 1#1) :
    x ≠ ⊤ ∧ x ≠ ⊥ := by
  have e' : Ideal.cmp .olt (max x (-x)) (Ideal.ofBits .f32 0x7F800000#32) = 1#1 := e
  rw [ofBits_inf] at e'
  unfold Ideal.cmp at e'
  have hlt : max x (-x) < ⊤ := ofBool_decide_eq_one.mp e'
  rw [max_lt_iff] at hlt
  refine ⟨ne_of_lt hlt.1, fun hb => ?_⟩
  rw [hb] at hlt
  exact absurd hlt.2 (by simp)

/-- One conjunct "every |x| < +∞" of the precondition: every entry of the array is a real number. -/
private theorem finite_of_all {S : Shape} {axes : List (Fin S.rank)} (x : FVec Ideal S .f32)
    (hb : S_.BroadcastsInDim S (![] : Fin 0 → Fin S.rank)) (hr : S.ReducesTo axes S_) (h0 : 0 < S_.numel)
    (e : Host.reduce IntOp.andi (cmpf .olt (Host.absf x) (broadcastInDim S ![] hb (constant S_ .f32 0x7F800000#32)))
        (constantI S_ 1 1#1) hr h0 ix0 = 1#1) : Cert.Spec.Finite x := by
  intro i
  exact finite_of_abs_lt (x i) (Host.reduce_andi_all _ _ hr h0 ix0 e i)

/-- Two positions below 8192 have the same 32-bit word exactly when they are the same position. -/
private theorem ofNat_inj (i k : Fin 8192) : BitVec.ofNat 32 i.val = BitVec.ofNat 32 k.val ↔ i = k := by
  constructor
  · intro e
    have := congrArg BitVec.toNat e
    simp only [BitVec.toNat_ofNat] at this
    have hi := i.isLt; have hk := k.isLt
    exact Fin.ext (by omega)
  · intro e; rw [e]

/-- The entry the precondition builds from the comparison of a row iota (plus the zero word) with a column
    iota, widened to a float: the identity matrix's entry. -/
private theorem eye_entry (i k : Fin 8192) :
    FloatOps.uitofp (F := Ideal) .f32 (IntOp.cmpi .eq (IntOp.addi (BitVec.ofNat 32 i.val) 0#32) (BitVec.ofNat 32 k.val))
      = Cert.Spec.eye i k := by
  show (((IntOp.cmpi .eq (IntOp.addi (BitVec.ofNat 32 i.val) 0#32) (BitVec.ofNat 32 k.val)).toNat : ℝ) : EReal) = _
  unfold Cert.Spec.eye IntOp.cmpi IntOp.addi
  rw [BitVec.add_zero]
  by_cases hik : i = k
  · rw [if_pos hik, hik]; simp
  · rw [if_neg hik]
    have hne : ¬ BitVec.ofNat 32 i.val = BitVec.ofNat 32 k.val := fun e => hik ((ofNat_inj i k).mp e)
    simp [hne]

/-- One entry of the matrix whose rows the precondition sums: A's entry plus twice the identity's. -/
private theorem entry_eq [Facts] (A : FVec Ideal S8192x8192 .f32) (i k : Fin 8192) :
    (addf A (mulf (broadcastInDim S8192x8192 ![] Facts.bcast_S_S8192x8192 (constant S_ .f32 0x40000000#32))
        (uitofp .f32 (cmpi .eq (addi (iotaInDim S8192x8192 32 0)
          (broadcastInDim S8192x8192 ![] Facts.bcast_S_S8192x8192 (constantI S_ 32 0#32))) (iotaInDim S8192x8192 32 1))))) (ix2 i k)
      = A (ix2 i k) + 2 * Cert.Spec.eye i k := by
  show (A (ix2 i k) : EReal) + Ideal.ofBits .f32 0x40000000#32
      * FloatOps.uitofp (F := Ideal) .f32 (IntOp.cmpi .eq (IntOp.addi (BitVec.ofNat 32 i.val) 0#32) (BitVec.ofNat 32 k.val)) = _
  rw [eye_entry, Cert.Consts.ofBits_two]

/-- The host's sum along the columns from the zero literal, at row i, is the sum of the row's entries. -/
private theorem rowsum_eq [Facts] (Y : FVec Ideal S8192x8192 .f32) (i : Fin 8192) :
    Host.reduceAdd Y (constant S_ .f32 0x00000000#32) Facts.reducesTo_S8192x8192_S8192_d1 Facts.h_S_ (ix1 i)
      = ∑ k : Fin 8192, Y (ix2 i k) := by
  simp only [Host.reduceAdd, Ideal.hostReduceAdd_def]
  rw [Ideal.hostReduceAdd_single Facts.reducesTo_S8192x8192_S8192_d1 (by decide)]
  rw [show (constant (F := Ideal) S_ .f32 0x00000000#32) (Shape.Idx.first Facts.h_S_) = Ideal.ofBits .f32 0x00000000#32 from rfl,
    Ideal.ofBits_zero_f32, zero_add]
  refine Finset.sum_congr rfl fun k _ => ?_
  exact congrArg Y (funext fun a => Fin.ext (by match a with | ⟨0, _⟩ => rfl | ⟨1, _⟩ => rfl))

/-- A row of the last conjunct, "the row's sum exceeds the zero literal": the sum of the row's entries is positive. -/
private theorem rowsum_pos [Facts] (Y : FVec Ideal S8192x8192 .f32) (i : Fin 8192)
    (e : cmpf .ogt (Host.reduceAdd Y (constant S_ .f32 0x00000000#32) Facts.reducesTo_S8192x8192_S8192_d1 Facts.h_S_)
        (broadcastInDim S8192 ![] Facts.bcast_S_S8192 (constant S_ .f32 0x00000000#32)) (ix1 i) = 1#1) :
    0 < ∑ k : Fin 8192, Y (ix2 i k) := by
  have e' : Ideal.cmp .ogt
      (Host.reduceAdd Y (constant S_ .f32 0x00000000#32) Facts.reducesTo_S8192x8192_S8192_d1 Facts.h_S_ (ix1 i))
      (Ideal.ofBits .f32 0x00000000#32) = 1#1 := e
  rw [Ideal.ofBits_zero_f32, rowsum_eq] at e'
  unfold Ideal.cmp at e'
  exact ofBool_decide_eq_one.mp e'

/-- What the printed precondition says of its arguments at the extended reals. -/
theorem decode [Cert.Pre_finite_inputs.Facts] (X : FVec Ideal S8192x256 .f32) (A : FVec Ideal S8192x8192 .f32)
    (W : FVec Ideal S256x256 .f32) (b : FVec Ideal S256 .f32)
    (h : Cert.Pre_finite_inputs.fn (F := Ideal) X A W b = fun _ => 1#1) :
    Cert.Spec.Finite (S := Cert.Spec.SX) X ∧ Cert.Spec.Finite (S := Cert.Spec.SA) A ∧ Cert.Spec.Finite (S := Cert.Spec.SW) W
      ∧ Cert.Spec.Finite (S := Cert.Spec.Sb) b ∧ ∀ i, 0 < Cert.Spec.degR A i := by
  have h0 := congrFun h ValueIdx.ix0
  dsimp only [fn, fn_part1] at h0
  obtain ⟨h1234, h5⟩ := IntOp.andi_eq_one.mp h0
  obtain ⟨h123, h4⟩ := IntOp.andi_eq_one.mp h1234
  obtain ⟨h12, h3⟩ := IntOp.andi_eq_one.mp h123
  obtain ⟨h1, h2⟩ := IntOp.andi_eq_one.mp h12
  refine ⟨finite_of_all X _ _ _ h1, finite_of_all A _ _ _ h2, finite_of_all W _ _ _ h3, finite_of_all b _ _ _ h4, fun i => ?_⟩
  have hp := rowsum_pos _ i (Host.reduce_andi_all _ _ _ _ ix0 h5 (ix1 i))
  unfold Cert.Spec.degR
  exact lt_of_lt_of_eq hp (Finset.sum_congr rfl fun k _ => entry_eq A i k)

end Cert.PreDecode

end
-- ==== Proof.lean ====
/-
  The certificate of a two-pass graph-convolution kernel against its jnp reference, over the extended reals.

  The kernel makes one pass over the adjacency matrix A to form the row scale s_i = (Σ_k A_ik + 2)^(-1/2), scales
  the features on the host, Y = s·X, and makes a second pass that accumulates 2·Y + A·Y block by block, scales its
  rows by s again, applies the linear layer and clamps at zero. The reference forms A + 2·I, its row sums d', the
  symmetric normalisation (A + 2·I)·s'_i·s'_j, and applies the same layer. Under the precondition — every entry of
  the four arguments a real number and every reference degree d'_i positive, the domain of the reference's own
  reciprocal square root — the two results are one function of the arguments (`Cert.Spec.outK_eq_outR`).

  Both printed kernel programs run to the end with their arguments unchanged for any float instance: each region's
  body keeps its scratch at the running sums point by point, the two windows of the second region that read the
  scaled features share that array's ownership by halves, and the run threads the buffers' contents through the
  three items of the program. The reference's run and its stages read at an index are imported.
-/
import proofs.«108451_j9534827397796_1_alg».proof.Defs
import proofs.«108451_j9534827397796_1_alg».proof.Proof.Gen.Kernel
import proofs.«108451_j9534827397796_1_alg».proof.Proof.Gen.KernelIdeal
import proofs.«108451_j9534827397796_1_alg».proof.Proof.Gen.ReferenceIdeal
import proofs.«108451_j9534827397796_1_alg».proof.Proof.Gen.Pre_finite_inputs
import proofs.«108451_j9534827397796_1_alg».proof.Proof.Gen.ReferenceIdeal.Run
import proofs.«108451_j9534827397796_1_alg».proof.Proof.Gen.ReferenceIdeal.Read
import proofs.«108451_j9534827397796_1_alg».proof.Proof.K.Run
import proofs.«108451_j9534827397796_1_alg».proof.Proof.KI.Run
import proofs.«108451_j9534827397796_1_alg».proof.Proof.KI.Val1
import proofs.«108451_j9534827397796_1_alg».proof.Proof.RefG
import proofs.«108451_j9534827397796_1_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs to the end with its arguments unchanged. -/
theorem frame_k : @Cert.frame_Kernel Cert.Kernel.Gen.facts Cert.Pre_finite_inputs.Gen.facts :=
  fun m ρ _ => Cert.Kernel.Hand.frame m ρ

/-- The idealized kernel runs to the end with its arguments unchanged. -/
theorem frame_ki : @Cert.frame_KernelIdeal Cert.KernelIdeal.Gen.facts Cert.Pre_finite_inputs.Gen.facts :=
  fun m ρ _ => Cert.KernelIdeal.Hand.frame m ρ

/-- The reference runs to the end with its arguments unchanged: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the same result array: the kernel's closed form is the reference's under the precondition. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.outK (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans (Cert.KernelIdeal.Hand.val1 m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨hX, hA, hW, hb, hd⟩ := Cert.PreDecode.decode _ _ _ _ (hpre c)
    rw [Cert.ReferenceIdeal.Read.val_main_v23_eq, Cert.ReferenceIdeal.RefValue.ref_eq,
      (hagree c).1, (hagree c).2.1, (hagree c).2.2.1, (hagree c).2.2.2]
    exact (Cert.Spec.outK_eq_outR _ _ _ _ hA hX hW hb hd).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
